-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S32 .f32) (main_arg17 : FVec F S32x1 .f32) (main_arg18 : FVec F S1 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg17
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S64x64 .f32) (main_arg14 : FVec F S64 .f32) (main_arg15 : FVec F S64x32 .f32) (main_arg16 : FVec F S32 .f32) (main_arg17 : FVec F S32x1 .f32) (main_arg18 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_arg17 main_arg18 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x32 .f32) (main_arg16 : FVec F S32 .f32) (main_arg17 : FVec F S32x1 .f32) (main_arg18 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x32 .f32) (main_arg16 : FVec F S32 .f32) (main_arg17 : FVec F S32x1 .f32) (main_arg18 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x32 .f32) (main_arg16 : FVec F S32 .f32) (main_arg17 : FVec F S32x1 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x1 : Shape := ⟨2, ![100000, 1]⟩
abbrev S64x1 : Shape := ⟨2, ![64, 1]⟩
abbrev S1x32 : Shape := ⟨2, ![1, 32]⟩
abbrev S1x1 : Shape := ⟨2, ![1, 1]⟩

abbrev nBuf : Space → Nat
  | .hbm => 95
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S100000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S1x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S1x64, .f32⟩
  | .hbm, ⟨54, _⟩ => ⟨S1x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S1x64, .f32⟩
  | .hbm, ⟨70, _⟩ => ⟨S1x64, .f32⟩
  | .hbm, ⟨71, _⟩ => ⟨S100000x64, .f32⟩
  | .hbm, ⟨72, _⟩ => ⟨S64, .i32⟩
  | .hbm, ⟨73, _⟩ => ⟨S1x64, .i32⟩
  | .hbm, ⟨74, _⟩ => ⟨S100000x1, .i32⟩
  | .hbm, ⟨75, _⟩ => ⟨S100000x64, .i32⟩
  | .hbm, ⟨76, _⟩ => ⟨S100000x64, .i32⟩
  | .hbm, ⟨77, _⟩ => ⟨S100000x64, .i1⟩
  | .hbm, ⟨78, _⟩ => ⟨S100000x64, .bf16⟩
  | .hbm, ⟨79, _⟩ => ⟨S_, .f32⟩
  | .hbm, ⟨80, _⟩ => ⟨S100000, .f32⟩
  | .hbm, ⟨81, _⟩ => ⟨S_, .f32⟩
  | .hbm, ⟨82, _⟩ => ⟨S64, .f32⟩
  | .hbm, ⟨83, _⟩ => ⟨S100000x1, .i32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S64x1, .f32⟩
  | .hbm, ⟨92, _⟩ => ⟨S1x32, .f32⟩
  | .hbm, ⟨93, _⟩ => ⟨S1x1, .f32⟩
  | .hbm, ⟨94, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .bf16⟩
  | .local _ .vmem, ⟨37, _⟩ => ⟨S5000x64, .bf16⟩
  | .local _ .vmem, ⟨38, _⟩ => ⟨S64x1, .f32⟩
  | .local _ .vmem, ⟨39, _⟩ => ⟨S64x32, .f32⟩
  | .local _ .vmem, ⟨40, _⟩ => ⟨S1x32, .f32⟩
  | .local _ .vmem, ⟨41, _⟩ => ⟨S32x1, .f32⟩
  | .local _ .vmem, ⟨42, _⟩ => ⟨S1x1, .f32⟩
  | .local _ .vmem, ⟨43, _⟩ => ⟨S64x1, .f32⟩
  | .local _ .vmem, ⟨44, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_1 : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_c_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_scratch0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v14 : BitVec 1 := Scalar.cmpi .eq arg0 c19_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S_S100000 : S_.BroadcastsInDim S100000 (![] : Fin 0 → Fin S100000.rank)
  bcast_S_S64 : S_.BroadcastsInDim S64 (![] : Fin 0 → Fin S64.rank)
  shapeCasts_S64_S64x1 : S64.ShapeCasts S64x1
  shapeCasts_S32_S1x32 : S32.ShapeCasts S1x32
  shapeCasts_S1_S1x1 : S1.ShapeCasts S1x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S64_S100000x1_S100000_n_0_0_1_wf : ScatterDims.WF S64 S100000x1 S100000 [] [0] [0] 1
  dot_S5000x64_S5000x64_S64x64_0_0_1_1_n_n_wf : DotDims.WF S5000x64 S5000x64 S64x64 [0] [0] [1] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .bf16 = 32 ∨ (Rect.block (s := S100000x64) S5000x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x1.size a ≤ S32x1.size a
  hwx4_5 : ∀ i : grid4.Coords, EltTy.bits .f32 = 32 ∨ (Rect.block (s := S32x1) S32x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x1.size a ≤ S64x1.size a
  hwx4_7 : ∀ i : grid4.Coords, EltTy.bits .f32 = 32 ∨ (Rect.block (s := S64x1) S64x1.size (cc4_transform_7 i) (hinb4_7 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v30) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v43) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v50) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S32x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v61) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v62) S64x1.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun _ => false | 7 => fun i => !(k4_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩
abbrev S100000x1 : Shape := ⟨2, ![100000, 1]⟩
abbrev S64x1 : Shape := ⟨2, ![64, 1]⟩
abbrev S1x32 : Shape := ⟨2, ![1, 32]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x32, .f32⟩
  | 16 => ⟨S32, .f32⟩
  | 17 => ⟨S32x1, .f32⟩
  | 18 => ⟨S1, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S100000x128, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S_, .f32⟩
  | 61 => ⟨S100000x64, .f32⟩
  | 62 => ⟨S1600000x1, .i32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S64x64, .f32⟩
  | 106 => ⟨S100000x1, .i32⟩
  | 107 => ⟨S64x64, .f32⟩
  | 108 => ⟨S_, .f32⟩
  | 109 => ⟨S100000, .f32⟩
  | 110 => ⟨S_, .f32⟩
  | 111 => ⟨S64, .f32⟩
  | 112 => ⟨S100000x1, .i32⟩
  | 113 => ⟨S64, .f32⟩
  | 114 => ⟨S_, .f32⟩
  | 115 => ⟨S64, .f32⟩
  | 116 => ⟨S64, .f32⟩
  | 117 => ⟨S64x1, .f32⟩
  | 118 => ⟨S64x64, .f32⟩
  | 119 => ⟨S64x64, .f32⟩
  | 120 => ⟨S64x32, .f32⟩
  | 121 => ⟨S1x32, .f32⟩
  | 122 => ⟨S64x32, .f32⟩
  | 123 => ⟨S64x32, .f32⟩
  | 124 => ⟨S64x1, .f32⟩
  | 125 => ⟨S1x1, .f32⟩
  | 126 => ⟨S64x1, .f32⟩
  | 127 => ⟨S64x1, .f32⟩
  | _ => ⟨S100000x128, .f32⟩

abbrev hbmTy0_1 (i : Nat) : BufTy := match i % 128 with
  | 0 => ⟨S64x1, .f32⟩
  | 1 => ⟨S64x1, .f32⟩
  | 2 => ⟨S_, .f32⟩
  | 3 => ⟨S64x1, .f32⟩
  | 4 => ⟨S64x1, .f32⟩
  | 5 => ⟨S_, .f32⟩
  | 6 => ⟨S64x1, .f32⟩
  | 7 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call1_cst : Ref sig .tc := ⟨.hbm, 48, rfl⟩
abbrev main_call1_v0 : Ref sig .tc := ⟨.hbm, 49, rfl⟩
abbrev main_v24 : Ref sig .tc := ⟨.hbm, 50, rfl⟩
abbrev main_c_1 : Ref sig .tc := ⟨.hbm, 51, rfl⟩
abbrev main_v25 : Ref sig .tc := ⟨.hbm, 52, rfl⟩
abbrev main_v26 : Ref sig .tc := ⟨.hbm, 53, rfl⟩
abbrev main_c_2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call2_cst : Ref sig .tc := ⟨.hbm, 69, rfl⟩
abbrev main_call2_v0 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call3_cst : Ref sig .tc := ⟨.hbm, 76, rfl⟩
abbrev main_call3_v0 : Ref sig .tc := ⟨.hbm, 77, rfl⟩
abbrev main_v45 : Ref sig .tc := ⟨.hbm, 78, rfl⟩
abbrev main_c_4 : Ref sig .tc := ⟨.hbm, 79, rfl⟩
abbrev main_v46 : Ref sig .tc := ⟨.hbm, 80, rfl⟩
abbrev main_v47 : Ref sig .tc := ⟨.hbm, 81, rfl⟩
abbrev main_c_5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_6 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_call4_cst : Ref sig .tc := ⟨.hbm, 97, rfl⟩
abbrev main_call4_v0 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_7 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_8 : Ref sig .tc := ⟨.hbm, 108, rfl⟩
abbrev main_v69 : Ref sig .tc := ⟨.hbm, 109, rfl⟩
abbrev main_cst_9 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_10 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_11 : Ref sig .tc := ⟨.hbm, 130, rfl⟩
abbrev main_v88 : Ref sig .tc := ⟨.hbm, 131, rfl⟩
abbrev main_v89 : Ref sig .tc := ⟨.hbm, 132, rfl⟩
abbrev main_cst_12 : Ref sig .tc := ⟨.hbm, 133, rfl⟩
abbrev main_v90 : Ref sig .tc := ⟨.hbm, 134, rfl⟩
abbrev main_v91 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.K.Proj.lean ====
/-
  Region 0 of the idealized kernel program: the projection `y = x · W₁`, one grid point per block of 5000 rows.
  At a parameter `V` (what the core's buffers hold when the region is entered): the block of each window at a
  grid point, what the body leaves in the output window's staging buffer (the matrix product of the point's row block
  with the whole weight matrix), the body's triple, the proof data and the body obligation at every point.
-/
import proofs.«404197_j31937376813167_3_alg».proof.Proof.Gen.Kernel.Launch
import proofs.«404197_j31937376813167_3_alg».proof.Proof.Gen.Kernel.Skeleton
import proofs.«404197_j31937376813167_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the rectangle of the window's array (as the region finds it) that the
    point's index map selects. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block whether or not the point fetched it: an unfetched
    window's index has not moved since the fetch. Window 0 (the rows of `x`). -/
theorem before_in0_of {c : Dev nD}
    (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for window 1 (the weights, fetched once). -/
theorem before_in1_of {c : Dev nD}
    (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The one rectangle the body stores through: the whole 5000×64 staging buffer. -/
abbrev rOut : Rect S5000x64 := Rect.unit (s := S5000x64) ![0, 0] S5000x64.size inb_S5000x64_S5000x64_0_0
abbrev rX : Rect S5000x128 := Rect.unit (s := S5000x128) ![0, 0] S5000x128.size inb_S5000x128_S5000x128_0_0
abbrev rW : Rect S128x64 := Rect.unit (s := S128x64) ![0, 0] S128x64.size inb_S128x64_S128x64_0_0

/-- What the body leaves in the output window's buffer: the product of the row block with the weights. -/
def outY (x : Vec F S5000x128 .f32) (w1 : Vec F S128x64 .f32) : Vec F S5000x64 .f32 :=
  View.canon [⟨rOut, k0_pay1 (View.ld x rX) (View.ld w1 rW)⟩]

theorem coverY (p0 : Vec F S5000x64 .f32) (y : S5000x64.Idx) :
    ∃ pc ∈ ([⟨rOut, p0⟩] : List (View.Piece (Elt F) S5000x64 .f32)), y ∈ pc.1.set :=
  View.cover_of_tiled [⟨rOut, p0⟩] S5000x64.size (by rfl) y

set_option maxHeartbeats 1000000 in
/-- The body on whole staging buffers: the inputs are handed back as found, the output buffer ends at `outY`. -/
theorem sound_kernel (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S5000x64 .f32) (harg3 : arg3.IsWhole)
    (x : Vec F S5000x128 .f32) (w1 : Vec F S128x64 .f32) (K : PUnit → sProp 𝕄) :
    iprop(owns (c : Thread nD τ) arg1 fullShare x ∗ owns (c : Thread nD τ) arg2 fullShare w1 ∗ (∃ d, owns (c : Thread nD τ) arg3 fullShare d)
        ∗ (iprop(owns (c : Thread nD τ) arg1 fullShare x ∗ owns (c : Thread nD τ) arg2 fullShare w1 ∗ owns (c : Thread nD τ) arg3 fullShare (outY x w1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverY _)

/-- The proof data of the region on core `c`: the arrays as the region finds them; after the body each input's buffer
    still holds its block and the output's holds `outY` of the two input blocks; the invariant between points is the
    scoped rest and the generator register, untouched; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outY (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = outY (blk V c 0 t) (blk V c 1 t) := by dsimp only [dat]

theorem before_0 (c : Dev nD) (t : Fin cfg0.N) (d) : (dat V c).before 0 t d = blk V c 0 t :=
  before_in0_of V (dat V c) (A_eq V c 0) (after_0 V c) t d
theorem before_1 (c : Dev nD) (t : Fin cfg0.N) (d) : (dat V c).before 1 t d = blk V c 1 t :=
  before_in1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.Kernel.Proj

end
-- ==== Proof.K.MlpA.lean ====
/-
  Region 1 of the idealized kernel program: the first graph-network layer, one grid point per block of 5000 rows:
  h = relu (relu ((y + seg) + b1) * W2 + b2), where y are the node's own rows and seg the aggregated neighbour rows.
  At a parameter V (what the core's buffers hold when the region is entered): the block of each window at a
  grid point, what the body leaves in the output window's staging buffer, the body's triple, the proof data and the
  body obligation at every point.
-/
import proofs.«404197_j31937376813167_3_alg».proof.Proof.Gen.Kernel.Launch
import proofs.«404197_j31937376813167_3_alg».proof.Proof.Gen.Kernel.Skeleton
import proofs.«404197_j31937376813167_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.MlpA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t: the rectangle of the window's array (as the region finds it) that the
    point's index map selects. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block whether or not the point fetched it: an unfetched
    window's index has not moved since the fetch. Window 0 (the node's own rows). -/
theorem before_in0_of {c : Dev nD}
    (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for window 1 (the aggregated neighbour rows). -/
theorem before_in1_of {c : Dev nD}
    (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The same for window 2 (the first bias, fetched once). -/
theorem before_in2_of {c : Dev nD}
    (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- The same for window 3 (the second weight matrix, fetched once). -/
theorem before_in3_of {c : Dev nD}
    (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- The same for window 4 (the second bias, fetched once). -/
theorem before_in4_of {c : Dev nD}
    (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The one rectangle the body stores through: the whole 5000×64 staging buffer; and the whole-buffer rectangles
    its loads of the bias rows and of the weight matrix read through. -/
abbrev rOut : Rect S5000x64 := Rect.unit (s := S5000x64) ![0, 0] S5000x64.size inb_S5000x64_S5000x64_0_0
abbrev rRow : Rect S1x64 := Rect.unit (s := S1x64) ![0, 0] S1x64.size inb_S1x64_S1x64_0_0
abbrev rW : Rect S64x64 := Rect.unit (s := S64x64) ![0, 0] S64x64.size inb_S64x64_S64x64_0_0

/-- What the body leaves in the output window's buffer: the layer applied to the point's two row blocks and the
    whole bias rows and weight matrix. -/
def outY (x s : Vec F S5000x64 .f32) (b1 : Vec F S1x64 .f32) (w2 : Vec F S64x64 .f32) (b2 : Vec F S1x64 .f32) : Vec F S5000x64 .f32 :=
  View.canon [⟨rOut, k1_pay1 (View.ld x rOut) (View.ld s rOut) (View.ld b1 rRow) (View.ld w2 rW) (View.ld b2 rRow)⟩]

theorem coverY (p0 : Vec F S5000x64 .f32) (y : S5000x64.Idx) :
    ∃ pc ∈ ([⟨rOut, p0⟩] : List (View.Piece (Elt F) S5000x64 .f32)), y ∈ pc.1.set :=
  View.cover_of_tiled [⟨rOut, p0⟩] S5000x64.size (by rfl) y

set_option maxHeartbeats 1000000 in
/-- The body on whole staging buffers: the inputs are handed back as found, the output buffer ends at outY. -/
theorem sound_kernel (c : Dev nD) (E : Set ℕ) (i : grid1.Coords)
    (arg1 : Memref sig .tc .vmem S5000x64 .f32) (harg1 : arg1.IsWhole)
    (arg2 : Memref sig .tc .vmem S5000x64 .f32) (harg2 : arg2.IsWhole)
    (arg3 : Memref sig .tc .vmem S1x64 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S5000x64 .f32) (harg6 : arg6.IsWhole)
    (x : Vec F S5000x64 .f32) (s : Vec F S5000x64 .f32) (b1 : Vec F S1x64 .f32) (w2 : Vec F S64x64 .f32) (b2 : Vec F S1x64 .f32) (K : PUnit → sProp 𝕄) :
    iprop(owns (c : Thread nD τ) arg1 fullShare x ∗ owns (c : Thread nD τ) arg2 fullShare s ∗ owns (c : Thread nD τ) arg3 fullShare b1 ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare s ∗ owns (c : Thread nD τ) arg3 fullShare b1 ∗ owns (c : Thread nD τ) arg4 fullShare w2 ∗ owns (c : Thread nD τ) arg5 fullShare b2 ∗ owns (c : Thread nD τ) arg6 fullShare (outY x s b1 w2 b2)) -∗ K ⟨⟩))
      ⊢ wp frame (wpE (defs₀ (F := F)) Variants.none c none) E (cc1__gin_mlp_kernel_skip_w1 i arg1 harg1 arg2 harg2 arg3 harg3 arg4 harg4 arg5 harg5 arg6 harg6) K := by
  simp only [cc1__gin_mlp_kernel_skip_w1_eq_skeleton]; unfold cc1__gin_mlp_kernel_skip_w1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverY _)

/-- The proof data of the region on core c: the arrays as the region finds them; after the body each input's buffer
    still holds its block and the output's holds outY of the five input blocks; the invariant between points is the
    scoped rest and the generator register, untouched; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outY (blk V c 0 t) (blk V c 1 t) (blk V c 2 t) (blk V c 3 t) (blk V c 4 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) :
    (dat V c).after 5 t = outY (blk V c 0 t) (blk V c 1 t) (blk V c 2 t) (blk V c 3 t) (blk V c 4 t) := by dsimp only [dat]

theorem before_0 (c : Dev nD) (t : Fin cfg1.N) (d) : (dat V c).before 0 t d = blk V c 0 t :=
  before_in0_of V (dat V c) (A_eq V c 0) (after_0 V c) t d
theorem before_1 (c : Dev nD) (t : Fin cfg1.N) (d) : (dat V c).before 1 t d = blk V c 1 t :=
  before_in1_of V (dat V c) (A_eq V c 1) (after_1 V c) t d
theorem before_2 (c : Dev nD) (t : Fin cfg1.N) (d) : (dat V c).before 2 t d = blk V c 2 t :=
  before_in2_of V (dat V c) (A_eq V c 2) (after_2 V c) t d
theorem before_3 (c : Dev nD) (t : Fin cfg1.N) (d) : (dat V c).before 3 t d = blk V c 3 t :=
  before_in3_of V (dat V c) (A_eq V c 3) (after_3 V c) t d
theorem before_4 (c : Dev nD) (t : Fin cfg1.N) (d) : (dat V c).before 4 t d = blk V c 4 t :=
  before_in4_of V (dat V c) (A_eq V c 4) (after_4 V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact sound_body V c t

end Cert.Kernel.MlpA

end
-- ==== Proof.K.MlpB.lean ====
/-
  Region 2 of the idealized kernel program: one layer of the graph network, `h' = relu(relu((h + s)·W₁ + b₁)·W₂ + b₂)`,
  one grid point per block of 5000 rows. At a parameter `V` (what the core's buffers hold when the region is entered):
  the block of each window at a grid point, what the body leaves in the output window's staging buffer (the layer applied
  to the point's two row blocks with the whole weights and biases), the body's triple, the proof data and the body
  obligation at every point.
-/
import proofs.«404197_j31937376813167_3_alg».proof.Proof.Gen.Kernel.Launch
import proofs.«404197_j31937376813167_3_alg».proof.Proof.Gen.Kernel.Skeleton
import proofs.«404197_j31937376813167_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.MlpB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the rectangle of the window's array (as the region finds it) that the
    point's index map selects. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block whether or not the point fetched it: an unfetched
    window's index has not moved since the fetch. Window 0 (the rows of the node features). -/
theorem before_in0_of {c : Dev nD}
    (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for window 1 (the rows of the aggregated neighbour sum). -/
theorem before_in1_of {c : Dev nD}
    (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The same for window 2 (the first weight matrix, fetched once). -/
theorem before_in2_of {c : Dev nD}
    (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- The same for window 3 (the first bias row, fetched once). -/
theorem before_in3_of {c : Dev nD}
    (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- The same for window 4 (the second weight matrix, fetched once). -/
theorem before_in4_of {c : Dev nD}
    (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- The same for window 5 (the second bias row, fetched once). -/
theorem before_in5_of {c : Dev nD}
    (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through: rows (5000×64), a weight matrix (64×64), a bias row
    (1×64). -/
abbrev rRows : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- What the body leaves in the output window's buffer: the two-layer perceptron of the sum of the two
    row blocks, `relu(relu((h + s)·W₁ + b₁)·W₂ + b₂)`. -/
def outY (h s : Vec F S5000x64 .f32) (w1 : Vec F S64x64 .f32) (b1 : Vec F S1x64 .f32) (w2 : Vec F S64x64 .f32) (b2 : Vec F S1x64 .f32) :
    Vec F S5000x64 .f32 :=
  View.canon [⟨rRows, k2_pay1 (View.ld h rRows) (View.ld s rRows) (View.ld w1 rW) (View.ld b1 rB) (View.ld w2 rW) (View.ld b2 rB)⟩]

theorem coverY (p0 : Vec F S5000x64 .f32) (y : S5000x64.Idx) :
    ∃ pc ∈ ([⟨rRows, p0⟩] : List (View.Piece (Elt F) S5000x64 .f32)), y ∈ pc.1.set :=
  View.cover_of_tiled [⟨rRows, p0⟩] S5000x64.size (by rfl) y

set_option maxHeartbeats 1000000 in
/-- The body on whole staging buffers: the six inputs are handed back as found, the output buffer ends at `outY`. -/
theorem sound_kernel (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (h s : Vec F S5000x64 .f32) (w1 : Vec F S64x64 .f32) (b1 : Vec F S1x64 .f32) (w2 : Vec F S64x64 .f32) (b2 : Vec F S1x64 .f32)
    (K : PUnit → sProp 𝕄) :
    iprop(owns (c : Thread nD τ) arg1 fullShare h ∗ owns (c : Thread nD τ) arg2 fullShare s ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d)
        ∗ (iprop(owns (c : Thread nD τ) arg1 fullShare h ∗ owns (c : Thread nD τ) arg2 fullShare s ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (outY h s w1 b1 w2 b2)) -∗ K ⟨⟩))
      ⊢ wp frame (wpE (defs₀ (F := F)) Variants.none c none) E
          (cc2__gin_mlp_kernel_full i arg1 harg1 arg2 harg2 arg3 harg3 arg4 harg4 arg5 harg5 arg6 harg6 arg7 harg7) K := by
  simp only [cc2__gin_mlp_kernel_full_eq_skeleton]; unfold cc2__gin_mlp_kernel_full_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverY _)

/-- The proof data of the region on core `c`: the arrays as the region finds them; after the body each input's buffer
    still holds its block and the output's holds `outY` of the six input blocks; the invariant between points is the
    scoped rest and the generator register, untouched; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outY (blk V c 0 t) (blk V c 1 t) (blk V c 2 t) (blk V c 3 t) (blk V c 4 t) (blk V c 5 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_6 (c : Dev nD) (t : Fin cfg2.N) :
    (dat V c).after 6 t = outY (blk V c 0 t) (blk V c 1 t) (blk V c 2 t) (blk V c 3 t) (blk V c 4 t) (blk V c 5 t) := by dsimp only [dat]

theorem before_0 (c : Dev nD) (t : Fin cfg2.N) (d) : (dat V c).before 0 t d = blk V c 0 t :=
  before_in0_of V (dat V c) (A_eq V c 0) (after_0 V c) t d
theorem before_1 (c : Dev nD) (t : Fin cfg2.N) (d) : (dat V c).before 1 t d = blk V c 1 t :=
  before_in1_of V (dat V c) (A_eq V c 1) (after_1 V c) t d
theorem before_2 (c : Dev nD) (t : Fin cfg2.N) (d) : (dat V c).before 2 t d = blk V c 2 t :=
  before_in2_of V (dat V c) (A_eq V c 2) (after_2 V c) t d
theorem before_3 (c : Dev nD) (t : Fin cfg2.N) (d) : (dat V c).before 3 t d = blk V c 3 t :=
  before_in3_of V (dat V c) (A_eq V c 3) (after_3 V c) t d
theorem before_4 (c : Dev nD) (t : Fin cfg2.N) (d) : (dat V c).before 4 t d = blk V c 4 t :=
  before_in4_of V (dat V c) (A_eq V c 4) (after_4 V c) t d
theorem before_5 (c : Dev nD) (t : Fin cfg2.N) (d) : (dat V c).before 5 t d = blk V c 5 t :=
  before_in5_of V (dat V c) (A_eq V c 5) (after_5 V c) t d

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W2, bigSep_W2]
  exact sound_body V c t

end Cert.Kernel.MlpB

end
-- ==== Proof.K.MlpC.lean ====
/-
  Region 3 of the idealized kernel program: the last layer of the graph network, `h' = relu((h + s)·W₁ + b₁)·W₂ + b₂`
  (no outer rectifier), one grid point per block of 5000 rows. At a parameter `V` (what the core's buffers hold when the
  region is entered): the block of each window at a grid point, what the body leaves in the output window's staging
  buffer (the layer applied to the point's two row blocks with the whole weights and biases), the body's triple, the
  proof data and the body obligation at every point.
-/
import proofs.«404197_j31937376813167_3_alg».proof.Proof.Gen.Kernel.Launch
import proofs.«404197_j31937376813167_3_alg».proof.Proof.Gen.Kernel.Skeleton
import proofs.«404197_j31937376813167_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.MlpC

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the rectangle of the window's array (as the region finds it) that the
    point's index map selects. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the point's block whether or not the point fetched it: an unfetched
    window's index has not moved since the fetch. Window 0 (the rows of the node features). -/
theorem before_in0_of {c : Dev nD}
    (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for window 1 (the rows of the aggregated neighbour sum). -/
theorem before_in1_of {c : Dev nD}
    (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The same for window 2 (the first weight matrix, fetched once). -/
theorem before_in2_of {c : Dev nD}
    (dat : Dat τ (Elt F) Unit ℕ (UR sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- The same for window 3 (the first bias row, fetched once). -/
theorem before_in3_of {c : Dev nD}
    (dat : Dat τ (Elt F) Unit ℕ (UR sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- The same for window 4 (the second weight matrix, fetched once). -/
theorem before_in4_of {c : Dev nD}
    (dat : Dat τ (Elt F) Unit ℕ (UR sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- The same for window 5 (the second bias row, fetched once). -/
theorem before_in5_of {c : Dev nD}
    (dat : Dat τ (Elt F) Unit ℕ (UR sig nD τ) ℕ cfg3 c) (hA : dat.A 5 = V c (Pipeline.arrRef spec3 5))
    (hafter : ∀ t, dat.after 5 t = blk V c 5 t) (t : Fin cfg3.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through: rows (5000×64), a weight matrix (64×64), a bias row
    (1×64). -/
abbrev rRows : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- What the body leaves in the output window's buffer: the two-layer perceptron of the sum of the two
    row blocks, `relu((h + s)·W₁ + b₁)·W₂ + b₂`, with no rectifier on the second layer. -/
def outY (h s : Vec F S5000x64 .f32) (w1 : Vec F S64x64 .f32) (b1 : Vec F S1x64 .f32) (w2 : Vec F S64x64 .f32) (b2 : Vec F S1x64 .f32) :
    Vec F S5000x64 .f32 :=
  View.canon [⟨rRows, k3_pay1 (View.ld h rRows) (View.ld s rRows) (View.ld w1 rW) (View.ld b1 rB) (View.ld w2 rW) (View.ld b2 rB)⟩]

theorem coverY (p0 : Vec F S5000x64 .f32) (y : S5000x64.Idx) :
    ∃ pc ∈ ([⟨rRows, p0⟩] : List (View.Piece (Elt F) S5000x64 .f32)), y ∈ pc.1.set :=
  View.cover_of_tiled [⟨rRows, p0⟩] S5000x64.size (by rfl) y

set_option maxHeartbeats 1000000 in
/-- The body on whole staging buffers: the six inputs are handed back as found, the output buffer ends at `outY`. -/
theorem sound_kernel (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (h s : Vec F S5000x64 .f32) (w1 : Vec F S64x64 .f32) (b1 : Vec F S1x64 .f32) (w2 : Vec F S64x64 .f32) (b2 : Vec F S1x64 .f32)
    (K : PUnit → sProp 𝕄) :
    iprop(owns (c : Thread nD τ) arg1 fullShare h ∗ owns (c : Thread nD τ) arg2 fullShare s ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d)
        ∗ (iprop(owns (c : Thread nD τ) arg1 fullShare h ∗ owns (c : Thread nD τ) arg2 fullShare s ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (outY h s w1 b1 w2 b2)) -∗ K ⟨⟩))
      ⊢ wp frame (wpE (defs₀ (F := F)) Variants.none c none) E
          (cc3__gin_mlp_kernel_full i arg1 harg1 arg2 harg2 arg3 harg3 arg4 harg4 arg5 harg5 arg6 harg6 arg7 harg7) K := by
  simp only [cc3__gin_mlp_kernel_full_eq_skeleton]; unfold cc3__gin_mlp_kernel_full_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverY _)

/-- The proof data of the region on core `c`: the arrays as the region finds them; after the body each input's buffer
    still holds its block and the output's holds `outY` of the six input blocks; the invariant between points is the
    scoped rest and the generator register, untouched; nothing owed. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outY (blk V c 0 t) (blk V c 1 t) (blk V c 2 t) (blk V c 3 t) (blk V c 4 t) (blk V c 5 t)
  Φ _ := Pipeline.ΦA spec3 c
  q _ := fullShare
  owed _ := 0

theorem A_eq (c : Dev nD) (w : Fin cfg3.W) : (dat V c).A w = V c (Pipeline.arrRef spec3 w) := by
  dsimp only [dat]
theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = blk V c 3 t := by dsimp only [dat]
theorem after_4 (c : Dev nD) (t : Fin cfg3.N) : (dat V c).after 4 t = blk V c 4 t := by dsimp only [dat]
theorem after_5 (c : Dev nD) (t : Fin cfg3.N) : (dat V c).after 5 t = blk V c 5 t := by dsimp only [dat]
theorem after_6 (c : Dev nD) (t : Fin cfg3.N) :
    (dat V c).after 6 t = outY (blk V c 0 t) (blk V c 1 t) (blk V c 2 t) (blk V c 3 t) (blk V c 4 t) (blk V c 5 t) := by dsimp only [dat]

theorem before_0 (c : Dev nD) (t : Fin cfg3.N) (d) : (dat V c).before 0 t d = blk V c 0 t :=
  before_in0_of V (dat V c) (A_eq V c 0) (after_0 V c) t d
theorem before_1 (c : Dev nD) (t : Fin cfg3.N) (d) : (dat V c).before 1 t d = blk V c 1 t :=
  before_in1_of V (dat V c) (A_eq V c 1) (after_1 V c) t d
theorem before_2 (c : Dev nD) (t : Fin cfg3.N) (d) : (dat V c).before 2 t d = blk V c 2 t :=
  before_in2_of V (dat V c) (A_eq V c 2) (after_2 V c) t d
theorem before_3 (c : Dev nD) (t : Fin cfg3.N) (d) : (dat V c).before 3 t d = blk V c 3 t :=
  before_in3_of V (dat V c) (A_eq V c 3) (after_3 V c) t d
theorem before_4 (c : Dev nD) (t : Fin cfg3.N) (d) : (dat V c).before 4 t d = blk V c 4 t :=
  before_in4_of V (dat V c) (A_eq V c 4) (after_4 V c) t d
theorem before_5 (c : Dev nD) (t : Fin cfg3.N) (d) : (dat V c).before 5 t d = blk V c 5 t :=
  before_in5_of V (dat V c) (A_eq V c 5) (after_5 V c) t d

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W3, bigSep_W3]
  exact sound_body V c t

end Cert.Kernel.MlpC

end
-- ==== Proof.K.Pool.lean ====
/-
  Region 4 of the idealized kernel program: the pooling head. Over the grid's 20 points the body adds, into an
  accumulator it carries from point to point, the product of the transposed one-hot row block with the point's row block
  (the first point zeroes the accumulator before adding); the last point stores, over the output, the logistic of the two
  dense layers applied to the accumulator scaled row by row.
  At a parameter `V` (what the core's buffers hold when the region is entered): the block of each window at a grid
  point, the accumulator after each point (`acc`), what the last point leaves in the output window's staging buffer
  (`headOut` of the last accumulator), the body's triple in the three cases of the point (first, last, neither), the proof
  data — its invariant between points holds the accumulator's buffer at `acc` — and the body obligation at every point.
-/
import proofs.«404197_j31937376813167_3_alg».proof.Proof.Gen.Kernel.Launch
import proofs.«404197_j31937376813167_3_alg».proof.Proof.Gen.Kernel.Skeleton
import proofs.«404197_j31937376813167_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the rectangle of the window's array (as the region finds it) that the
    point's index map selects. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole rectangles the body loads and stores through, one per shape. -/
abbrev r5k : Rect S5000x64 := Rect.unit (s := S5000x64) ![0, 0] S5000x64.size inb_S5000x64_S5000x64_0_0
abbrev r64 : Rect S64x64 := Rect.unit (s := S64x64) ![0, 0] S64x64.size inb_S64x64_S64x64_0_0
abbrev r64x1 : Rect S64x1 := Rect.unit (s := S64x1) ![0, 0] S64x1.size inb_S64x1_S64x1_0_0
abbrev r64x32 : Rect S64x32 := Rect.unit (s := S64x32) ![0, 0] S64x32.size inb_S64x32_S64x32_0_0
abbrev r1x32 : Rect S1x32 := Rect.unit (s := S1x32) ![0, 0] S1x32.size inb_S1x32_S1x32_0_0
abbrev r32x1 : Rect S32x1 := Rect.unit (s := S32x1) ![0, 0] S32x1.size inb_S32x1_S32x1_0_0
abbrev r1x1 : Rect S1x1 := Rect.unit (s := S1x1) ![0, 0] S1x1.size inb_S1x1_S1x1_0_0

/-- The accumulator as the first point resets it: all zeros. -/
def accZero : Vec F S64x64 .f32 := View.canon [⟨r64, k4_pay1 (F := F)⟩]

/-- One accumulation: the accumulator `a` plus the product of the transposed one-hot row block `oh` with the row
    block `h`. -/
def accStep (oh : Vec F S5000x64 .bf16) (h : Vec F S5000x64 .f32) (a : Vec F S64x64 .f32) : Vec F S64x64 .f32 :=
  View.canon [⟨r64, k4_pay2 (View.ld oh r5k) (View.ld h r5k) (View.ld a r64)⟩]

/-- The head: the logistic of the two dense layers over the accumulator scaled row by row by `x3`. -/
def headOut (a : Vec F S64x64 .f32) (x3 : Vec F S64x1 .f32) (x4 : Vec F S64x32 .f32) (x5 : Vec F S1x32 .f32)
    (x6 : Vec F S32x1 .f32) (x7 : Vec F S1x1 .f32) : Vec F S64x1 .f32 :=
  View.canon [⟨r64x1, k4_pay3 (View.ld a r64) (View.ld x3 r64x1) (View.ld x4 r64x32) (View.ld x5 r1x32) (View.ld x6 r32x1) (View.ld x7 r1x1)⟩]

/-- The grid point numbered `n` (modulo the grid's 20 points). -/
def pt (n : ℕ) : Fin cfg4.N := ⟨n % 20, lt_of_lt_of_eq (Nat.mod_lt n (by decide)) N_4.symm⟩

theorem pt_val (t : Fin cfg4.N) : pt t.val = t :=
  Fin.ext (Nat.mod_eq_of_lt (lt_of_lt_of_eq t.isLt N_4))

/-- The accumulator after point `n`: the zero matrix plus the products of the points `0 … n`, in that order. -/
def acc (c : Dev nD) : ℕ → Vec F S64x64 .f32
  | 0 => accStep (blk V c 1 (pt 0)) (blk V c 0 (pt 0)) accZero
  | n + 1 => accStep (blk V c 1 (pt (n + 1))) (blk V c 0 (pt (n + 1))) (acc c n)

/-- The accumulator's buffer, whole. -/
abbrev scM : Memref sig .tc .vmem S64x64 .f32 := Memref.whole cc4_scratch0

/-- The invariant before point `n`: the accumulator's buffer — after the first point at `acc (n - 1)`, before it at
    anything —, the other scoped buffers, the generator register. -/
def Φat (c : Dev nD) (n : ℕ) : sProp 𝕄 :=
  iprop((iprop(∃ X, ⌜n ≠ 0 → X = acc V c (n - 1)⌝ ∗ owns (c : Thread nD τ) scM fullShare X)
      ∗ Pipeline.scopedRestBut (Ix := Unit) (Name := ℕ) (U := UR sig nD τ) (Lvl := ℕ) (Val := Elt F) spec4 c [cc4_scratch0])
    ∗ ∃ r, prngReg c r)

/-- The proof data of the region on core `c`: the arrays as the region finds them; after the body each input's buffer
    still holds its block; the output's buffer, where the body stores into it, holds the head of the last accumulator;
    the invariant between points carries the accumulator; nothing owed. -/
def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => headOut (acc V c 19) (blk V c 2 t) (blk V c 3 t) (blk V c 4 t) (blk V c 5 t) (blk V c 6 t)
  Φ j := Φat V c j.val
  q _ := fullShare
  owed _ := 0

theorem A_eq (c : Dev nD) (w : Fin cfg4.W) : (dat V c).A w = V c (Pipeline.arrRef spec4 w) := by
  dsimp only [dat]
theorem after_0 (c : Dev nD) (t : Fin cfg4.N) : (dat V c).after 0 t = blk V c 0 t := by dsimp only [dat]
theorem after_1 (c : Dev nD) (t : Fin cfg4.N) : (dat V c).after 1 t = blk V c 1 t := by dsimp only [dat]
theorem after_2 (c : Dev nD) (t : Fin cfg4.N) : (dat V c).after 2 t = blk V c 2 t := by dsimp only [dat]
theorem after_3 (c : Dev nD) (t : Fin cfg4.N) : (dat V c).after 3 t = blk V c 3 t := by dsimp only [dat]
theorem after_4 (c : Dev nD) (t : Fin cfg4.N) : (dat V c).after 4 t = blk V c 4 t := by dsimp only [dat]
theorem after_5 (c : Dev nD) (t : Fin cfg4.N) : (dat V c).after 5 t = blk V c 5 t := by dsimp only [dat]
theorem after_6 (c : Dev nD) (t : Fin cfg4.N) : (dat V c).after 6 t = blk V c 6 t := by dsimp only [dat]
theorem after_7 (c : Dev nD) (t : Fin cfg4.N) :
    (dat V c).after 7 t = headOut (acc V c 19) (blk V c 2 t) (blk V c 3 t) (blk V c 4 t) (blk V c 5 t) (blk V c 6 t) := by dsimp only [dat]

/-- The first condition of the body (the point is the first), as a proposition over the coordinates. -/
abbrev cond1 (i : grid4.Coords) : Prop := (Scalar.cmpi .ne (Scalar.extui (Scalar.cmpi .eq (BitVec.ofNat 32 (i 0).val) 0#32)) 0#32) = 1#1
/-- The second condition (the point is the last). -/
abbrev cond2 (i : grid4.Coords) : Prop := k4_cond2 i = 1#1

/-- The first condition holds at point 0 only; the second at point 19 only: decided over the grid. -/
theorem hcond1 : ∀ t : Fin cfg4.N, cond1 (grid4.coords t) ↔ t.val = 0 :=
  (by decide +kernel : ∀ t : Fin grid4.N, cond1 (grid4.coords t) ↔ t.val = 0)
theorem hcond2 : ∀ t : Fin cfg4.N, cond2 (grid4.coords t) ↔ t.val = 19 :=
  (by decide +kernel : ∀ t : Fin grid4.N, cond2 (grid4.coords t) ↔ t.val = 19)

/-- One store through the whole rectangle covers the buffer. -/
theorem cover64 (p0 : Vec F S64x64 .f32) (y : S64x64.Idx) :
    ∃ pc ∈ ([⟨r64, p0⟩] : List (View.Piece (Elt F) S64x64 .f32)), y ∈ pc.1.set :=
  View.cover_of_tiled [⟨r64, p0⟩] S64x64.size (by rfl) y
theorem cover64x1 (p0 : Vec F S64x1 .f32) (y : S64x1.Idx) :
    ∃ pc ∈ ([⟨r64x1, p0⟩] : List (View.Piece (Elt F) S64x1 .f32)), y ∈ pc.1.set :=
  View.cover_of_tiled [⟨r64x1, p0⟩] S64x1.size (by rfl) y

set_option maxHeartbeats 2000000 in
/-- The body at the first point: the accumulator's buffer, found at anything, is zeroed and ends at the first
    accumulation; the inputs and the output's buffer are handed back as found. -/
theorem sound_first (c : Dev nD) (E : Set ℕ) (i : grid4.Coords) (hc1 : cond1 i) (hc2 : ¬cond2 i)
    (arg1 : Memref sig .tc .vmem S5000x64 .f32) (harg1 : arg1.IsWhole) (arg2 : Memref sig .tc .vmem S5000x64 .bf16) (harg2 : arg2.IsWhole)
    (arg3 : Memref sig .tc .vmem S64x1 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S32x1 .f32) (harg6 : arg6.IsWhole)
    (arg7 : Memref sig .tc .vmem S1x1 .f32) (harg7 : arg7.IsWhole) (arg8 : Memref sig .tc .vmem S64x1 .f32) (harg8 : arg8.IsWhole)
    (arg9 : Memref sig .tc .vmem S64x64 .f32) (harg9 : arg9.IsWhole)
    (x1 : Vec F S5000x64 .f32) (x2 : Vec F S5000x64 .bf16) (x3 : Vec F S64x1 .f32) (x4 : Vec F S64x32 .f32) (x5 : Vec F S1x32 .f32)
    (x6 : Vec F S32x1 .f32) (x7 : Vec F S1x1 .f32) (x8 : Vec F S64x1 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare (accStep x2 x1 accZero)) -∗ K ⟨⟩))
      ⊢ wp frame (wpE (defs₀ (F := F)) Variants.none c none) E (cc4__pool_head_kernel i arg1 harg1 arg2 harg2 arg3 harg3 arg4 harg4 arg5 harg5 arg6 harg6 arg7 harg7 arg8 harg8 arg9 harg9) K := by
  simp only [cc4__pool_head_kernel_eq_skeleton]; unfold cc4__pool_head_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1; subst hf2; subst hf3; subst hf4; subst hf5; subst hf6; subst hf7; subst hf8
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  unfold sound_first.sl.v9 sound_first.sl.H9_1
  rw [View.readCov_eq_canon_ld _ _ r64 (cover64 _), View.writes_cons_drop _ _ _ r64 _ [] (fun y hy => hy)]
  exact View.read_writes_eq_canon _ _ _ (cover64 _)

set_option maxHeartbeats 2000000 in
/-- The body at a point neither first nor last: the accumulator's buffer, found at `a`, ends one accumulation on. -/
theorem sound_mid (c : Dev nD) (E : Set ℕ) (i : grid4.Coords) (hc1 : ¬cond1 i) (hc2 : ¬cond2 i)
    (arg1 : Memref sig .tc .vmem S5000x64 .f32) (harg1 : arg1.IsWhole) (arg2 : Memref sig .tc .vmem S5000x64 .bf16) (harg2 : arg2.IsWhole)
    (arg3 : Memref sig .tc .vmem S64x1 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S32x1 .f32) (harg6 : arg6.IsWhole)
    (arg7 : Memref sig .tc .vmem S1x1 .f32) (harg7 : arg7.IsWhole) (arg8 : Memref sig .tc .vmem S64x1 .f32) (harg8 : arg8.IsWhole)
    (arg9 : Memref sig .tc .vmem S64x64 .f32) (harg9 : arg9.IsWhole)
    (x1 : Vec F S5000x64 .f32) (x2 : Vec F S5000x64 .bf16) (x3 : Vec F S64x1 .f32) (x4 : Vec F S64x32 .f32) (x5 : Vec F S1x32 .f32)
    (x6 : Vec F S32x1 .f32) (x7 : Vec F S1x1 .f32) (x8 : Vec F S64x1 .f32) (a : Vec F S64x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare a
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare (accStep x2 x1 a)) -∗ K ⟨⟩))
      ⊢ wp frame (wpE (defs₀ (F := F)) Variants.none c none) E (cc4__pool_head_kernel i arg1 harg1 arg2 harg2 arg3 harg3 arg4 harg4 arg5 harg5 arg6 harg6 arg7 harg7 arg8 harg8 arg9 harg9) K := by
  simp only [cc4__pool_head_kernel_eq_skeleton]; unfold cc4__pool_head_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1; subst hf2; subst hf3; subst hf4; subst hf5; subst hf6; subst hf7; subst hf8; subst hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover64 _)

set_option maxHeartbeats 2000000 in
/-- The body at the last point: one more accumulation, then the head of the accumulator stored over the output's buffer. -/
theorem sound_last (c : Dev nD) (E : Set ℕ) (i : grid4.Coords) (hc1 : ¬cond1 i) (hc2 : cond2 i)
    (arg1 : Memref sig .tc .vmem S5000x64 .f32) (harg1 : arg1.IsWhole) (arg2 : Memref sig .tc .vmem S5000x64 .bf16) (harg2 : arg2.IsWhole)
    (arg3 : Memref sig .tc .vmem S64x1 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S32x1 .f32) (harg6 : arg6.IsWhole)
    (arg7 : Memref sig .tc .vmem S1x1 .f32) (harg7 : arg7.IsWhole) (arg8 : Memref sig .tc .vmem S64x1 .f32) (harg8 : arg8.IsWhole)
    (arg9 : Memref sig .tc .vmem S64x64 .f32) (harg9 : arg9.IsWhole)
    (x1 : Vec F S5000x64 .f32) (x2 : Vec F S5000x64 .bf16) (x3 : Vec F S64x1 .f32) (x4 : Vec F S64x32 .f32) (x5 : Vec F S1x32 .f32)
    (x6 : Vec F S32x1 .f32) (x7 : Vec F S1x1 .f32) (a : Vec F S64x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d) ∗ owns (c : Thread nD τ) arg9 fullShare a
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare (headOut (accStep x2 x1 a) x3 x4 x5 x6 x7)
            ∗ owns (c : Thread nD τ) arg9 fullShare (accStep x2 x1 a)) -∗ K ⟨⟩))
      ⊢ wp frame (wpE (defs₀ (F := F)) Variants.none c none) E (cc4__pool_head_kernel i arg1 harg1 arg2 harg2 arg3 harg3 arg4 harg4 arg5 harg5 arg6 harg6 arg7 harg7 arg8 harg8 arg9 harg9) K := by
  simp only [cc4__pool_head_kernel_eq_skeleton]; unfold cc4__pool_head_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1; subst hf2; subst hf3; subst hf4; subst hf5; subst hf6; subst hf7; subst hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    unfold sound_last.sl.v17 sound_last.sl.H9_1
    rw [View.readCov_eq_canon_ld _ _ r64 (cover64 _)]
    exact View.read_writes_eq_canon _ _ _ (cover64x1 _)
  iexists _; isplitr
  swap; · iexact H9
  ipureintro
  unfold sound_last.sl.H9_1
  exact View.read_writes_eq_canon _ _ _ (cover64 _)

/-- An input window's staging buffer holds the point's block whether or not the point fetched it: an unfetched
    window's index has not moved since the fetch. -/
theorem before_0 (c : Dev nD) (t : Fin cfg4.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg4.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg4.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg4.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg4.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg4.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)
theorem before_6 (c : Dev nD) (t : Fin cfg4.N) (d) : (dat V c).before 6 t d = blk V c 6 t :=
  ((dat V c).before_in_eq_fetched 6 rfl (fun _ => rfl) (fun _ _ _ => rfl) (fun t => by rw [after_6]; unfold Dat.blockOf blk; rw [A_eq]; try rfl) t d).trans
    (by unfold Dat.fetched Dat.blockOf blk; rw [A_eq]; try rfl)

/-- The accumulator's recursion, at the first point and after it. -/
theorem acc_zero (c : Dev nD) : acc V c 0 = accStep (blk V c 1 (pt 0)) (blk V c 0 (pt 0)) accZero := rfl
theorem acc_succ (c : Dev nD) (n : ℕ) :
    acc V c (n + 1) = accStep (blk V c 1 (pt (n + 1))) (blk V c 0 (pt (n + 1))) (acc V c n) := rfl

theorem acc_at_first (c : Dev nD) (t : Fin cfg4.N) (h0 : t.val = 0) :
    acc V c t.val = accStep (blk V c 1 t) (blk V c 0 t) accZero := by
  have ht : pt 0 = t := by rw [← h0]; exact pt_val t
  rw [h0, acc_zero, ht]

theorem acc_at_pos (c : Dev nD) (t : Fin cfg4.N) (h0 : t.val ≠ 0) :
    acc V c t.val = accStep (blk V c 1 t) (blk V c 0 t) (acc V c (t.val - 1)) := by
  obtain ⟨n, hn⟩ : ∃ n, t.val = n + 1 := Nat.exists_eq_succ_of_ne_zero h0
  have ht : pt (n + 1) = t := by rw [← hn]; exact pt_val t
  rw [hn, acc_succ, ht, Nat.add_sub_cancel]

/-- Where the second condition fails the output window is idle and not written back; where it holds the window is live. -/
theorem idle7 : ∀ t : Fin cfg4.N, ¬cond2 (grid4.coords t) → cfg4.idle 7 (grid4.coords t) = true := by decide +kernel
theorem noflush7 : ∀ t : Fin cfg4.N, ¬cond2 (grid4.coords t) → (cfg4.win 7).flush t = false := by decide +kernel
theorem live7 : ∀ t : Fin cfg4.N, cond2 (grid4.coords t) → cfg4.idle 7 (grid4.coords t) = false := by decide +kernel

/-- The accumulator's buffer at some contents, as a memref owned or as a points-to: the same. -/
theorem scratch_eq (c : Dev nD) :
    (iprop(∃ f : Buf (Elt F) ((c : Thread nD τ).loc cc4_scratch0), ((c : Thread nD τ).loc cc4_scratch0) ↦{fullShare} f) : sProp 𝕄)
      = iprop(∃ X, owns (c : Thread nD τ) scM fullShare X) := by
  simp only [scM, owns_whole]; try rfl

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d))
    ∗ (∃ d, owns (c : Thread nD τ) (st4_7 t) fullShare ((dat V c).before 7 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t)
    ∗ owns (c : Thread nD τ) (st4_6 t) fullShare ((dat V c).after 6 t)
    ∗ (dat V c).leavesExact 7 t)

set_option maxHeartbeats 4000000 in
/-- The body at any point, by the three cases of the point. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3, before_4, before_5, before_6]
  rw [show (dat V c).owesAt () t.succ = (dat V c).owesAt () t.castSucc from rfl,
    show (dat V c).Φ t.castSucc = Φat V c t.val from rfl,
    show (dat V c).Φ t.succ = Φat V c (t.val + 1) from rfl,
    after_0, after_1, after_2, after_3, after_4, after_5, after_6]
  unfold Φat
  have hN : t.val < 20 := lt_of_lt_of_eq t.isLt N_4
  by_cases h0 : t.val = 0
  · have hc1 : cond1 (grid4.coords t) := (hcond1 t).mpr h0
    have hc2 : ¬cond2 (grid4.coords t) := fun h => by have := (hcond2 t).mp h; omega
    rw [Dat.leavesExact_idle (dat V c) 7 t (idle7 t hc2) (noflush7 t hc2)]
    iintro ⟨⟨⟨⟨%X, -, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ _ hc1 hc2 _ _ _ _ _ _ _ _ _ _ _ _ _ _ _ _ _ _ (blk V c 0 t) (blk V c 1 t) (blk V c 2 t) (blk V c 3 t) (blk V c 4 t) (blk V c 5 t) (blk V c 6 t) ((dat V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexists _; iexact HS
    iintro ⟨H0, H1, H2, H3, H4, H5, H6, H7, HS⟩
    isplitl [HS HR Hg]
    · isplitl [HS HR]
      · isplitl [HS]
        · iexists _; isplitr
          swap; · iexact HS
          ipureintro; intro _
          rw [Nat.add_sub_cancel]; exact (acc_at_first V c t h0).symm
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h19 : t.val = 19
    · have hc1 : ¬cond1 (grid4.coords t) := fun h => h0 ((hcond1 t).mp h)
      have hc2 : cond2 (grid4.coords t) := (hcond2 t).mpr h19
      rw [show (dat V c).leavesExact 7 t = owns (c : Thread nD τ) (st4_7 t) fullShare ((dat V c).after 7 t) from by
        unfold Dat.leavesExact; rw [live7 t hc2], after_7,
        (congrArg (acc V c) h19).symm.trans (acc_at_pos V c t h0)]
      iintro ⟨⟨⟨⟨%X, %hX, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hX h0
      iapply (sound_last c Set.univ _ hc1 hc2 _ _ _ _ _ _ _ _ _ _ _ _ _ _ _ _ _ _ (blk V c 0 t) (blk V c 1 t) (blk V c 2 t) (blk V c 3 t) (blk V c 4 t) (blk V c 5 t) (blk V c 6 t) (acc V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]
          · iexists _; isplitr
            swap; · iexact HS
            ipureintro; intro _
            rw [Nat.add_sub_cancel]; exact (acc_at_pos V c t h0).symm
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1 (grid4.coords t) := fun h => h0 ((hcond1 t).mp h)
      have hc2 : ¬cond2 (grid4.coords t) := fun h => h19 ((hcond2 t).mp h)
      rw [Dat.leavesExact_idle (dat V c) 7 t (idle7 t hc2) (noflush7 t hc2)]
      iintro ⟨⟨⟨⟨%X, %hX, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hX h0
      iapply (sound_mid c Set.univ _ hc1 hc2 _ _ _ _ _ _ _ _ _ _ _ _ _ _ _ _ _ _ (blk V c 0 t) (blk V c 1 t) (blk V c 2 t) (blk V c 3 t) (blk V c 4 t) (blk V c 5 t) (blk V c 6 t) ((dat V c).before 7 t d7) (acc V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]
          · iexists _; isplitr
            swap; · iexact HS
            ipureintro; intro _
            rw [Nat.add_sub_cancel]; exact (acc_at_pos V c t h0).symm
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point: the accumulator at anything. -/
theorem Φ_first (c : Dev nD) : (Pipeline.ΦA spec4 c : sProp 𝕄) ⊢ (dat V c).Φ 0 := by
  rw [show (dat V c).Φ 0 = Φat V c 0 from rfl]
  unfold Φat Pipeline.ΦA; rw [scopedRest4_split, scratch_eq]
  iintro ⟨⟨⟨%X, HS⟩, HR⟩, Hg⟩
  isplitl [HS HR]
  · isplitl [HS]
    · iexists X; isplitr
      · ipureintro; intro h; exact absurd rfl h
      iexact HS
    iexact HR
  iexact Hg

/-- After the last point the invariant gives back what the launch handed over: the accumulator's contents forgotten. -/
theorem Φ_last (c : Dev nD) : (dat V c).Φ (Fin.last cfg4.N) ⊢ (Pipeline.ΦA spec4 c : sProp 𝕄) := by
  rw [show (dat V c).Φ (Fin.last cfg4.N) = Φat V c (Fin.last cfg4.N).val from rfl]
  unfold Φat Pipeline.ΦA; rw [scopedRest4_split, scratch_eq]
  iintro ⟨⟨⟨%X, -, HS⟩, HR⟩, Hg⟩
  isplitl [HS HR]
  · isplitl [HS]
    · iexists X; iexact HS
    iexact HR
  iexact Hg

end Cert.Kernel.Pool

end
-- ==== Proof.K.Chain.lean ====
/-
  The contents of the core's buffers between two items of the idealized kernel program's @main: the launch memory, then
  after each host stretch the stretch's operations applied, then after each region the region's output array replaced by
  what its write-backs leave (each region's proof data taken at the contents the region is entered with).
-/
import proofs.«404197_j31937376813167_3_alg».proof.Proof.K.Proj
import proofs.«404197_j31937376813167_3_alg».proof.Proof.K.MlpA
import proofs.«404197_j31937376813167_3_alg».proof.Proof.K.MlpB
import proofs.«404197_j31937376813167_3_alg».proof.Proof.K.MlpC
import proofs.«404197_j31937376813167_3_alg».proof.Proof.K.Pool
import proofs.«404197_j31937376813167_3_alg».proof.Proof.Gen.Kernel.Regions

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- A core's buffers read at the TensorCore's references. -/
abbrev tcv (W : Dev nD → Valuation τ sig (Elt F)) : (c : Dev nD) → (b : Ref sig .tc) → Buf (Elt F) ((c : Thread nD τ).loc b) :=
  fun c b => W c b

abbrev W0 (c : Dev nD) : Valuation τ sig (Elt F) := fun b => m (c, b)
abbrev W1 (c : Dev nD) : Valuation τ sig (Elt F) := StableHlo.after hostOps0 (W0 m c)
/-- What region 0 leaves in its output array: the projected features. -/
def o2 (c : Dev nD) : Buf (Elt F) ((c : Thread nD τ).loc main_v4) := (Proj.dat (tcv (W1 m)) c).arrAt 2 cfg0.N
abbrev W2 (c : Dev nD) : Valuation τ sig (Elt F) := Function.update (W1 m c) main_v4 (o2 m c)
abbrev W3 (c : Dev nD) : Valuation τ sig (Elt F) := StableHlo.after hostOps1 (W2 m c)
/-- What region 1 leaves in its output array: the first layer's node features. -/
def o4 (c : Dev nD) : Buf (Elt F) ((c : Thread nD τ).loc main_v17) := (MlpA.dat (tcv (W3 m)) c).arrAt 5 cfg1.N
abbrev W4 (c : Dev nD) : Valuation τ sig (Elt F) := Function.update (W3 m c) main_v17 (o4 m c)
abbrev W5 (c : Dev nD) : Valuation τ sig (Elt F) := StableHlo.after hostOps2 (W4 m c)
/-- What region 2 leaves: the second layer's node features. -/
def o6 (c : Dev nD) : Buf (Elt F) ((c : Thread nD τ).loc main_v30) := (MlpB.dat (tcv (W5 m)) c).arrAt 6 cfg2.N
abbrev W6 (c : Dev nD) : Valuation τ sig (Elt F) := Function.update (W5 m c) main_v30 (o6 m c)
abbrev W7 (c : Dev nD) : Valuation τ sig (Elt F) := StableHlo.after hostOps3 (W6 m c)
/-- What region 3 leaves: the third layer's node features. -/
def o8 (c : Dev nD) : Buf (Elt F) ((c : Thread nD τ).loc main_v43) := (MlpC.dat (tcv (W7 m)) c).arrAt 6 cfg3.N
abbrev W8 (c : Dev nD) : Valuation τ sig (Elt F) := Function.update (W7 m c) main_v43 (o8 m c)
abbrev W9 (c : Dev nD) : Valuation τ sig (Elt F) := StableHlo.after hostOps4 (W8 m c)
/-- What region 4 leaves: the per-graph read-out. -/
def o10 (c : Dev nD) : Buf (Elt F) ((c : Thread nD τ).loc main_v62) := (Pool.dat (tcv (W9 m)) c).arrAt 7 cfg4.N
abbrev W10 (c : Dev nD) : Valuation τ sig (Elt F) := Function.update (W9 m c) main_v62 (o10 m c)

/-- The regions' outputs as the conditional frame's unknowns: read off the chain above. -/
def outs : Gen.Outs (F := F) := fun J r c =>
  match J with
  | 2 => W2 m c r
  | 4 => W4 m c r
  | 6 => W6 m c r
  | 8 => W8 m c r
  | 10 => W10 m c r
  | _ => m ((c : Thread nD τ).loc r)

theorem V1_eq (c : Dev nD) : Gen.V1 m c = W1 m c := rfl
theorem V2_eq (c : Dev nD) : Gen.V2 m (outs m) c = W2 m c := by
  show Function.update (Gen.V1 m c) main_v4 (W2 m c main_v4) = Function.update (W1 m c) main_v4 (o2 m c)
  rw [show W2 m c main_v4 = o2 m c from by show Function.update (W1 m c) main_v4 (o2 m c) main_v4 = o2 m c; simp only [Function.update_self]]
theorem V3_eq (c : Dev nD) : Gen.V3 m (outs m) c = W3 m c := by
  show StableHlo.after hostOps1 (Gen.V2 m (outs m) c) = _; rw [V2_eq]
theorem V4_eq (c : Dev nD) : Gen.V4 m (outs m) c = W4 m c := by
  show Function.update (Gen.V3 m (outs m) c) main_v17 (W4 m c main_v17) = Function.update (W3 m c) main_v17 (o4 m c)
  rw [V3_eq, show W4 m c main_v17 = o4 m c from by show Function.update (W3 m c) main_v17 (o4 m c) main_v17 = o4 m c; simp only [Function.update_self]]
theorem V5_eq (c : Dev nD) : Gen.V5 m (outs m) c = W5 m c := by
  show StableHlo.after hostOps2 (Gen.V4 m (outs m) c) = _; rw [V4_eq]
theorem V6_eq (c : Dev nD) : Gen.V6 m (outs m) c = W6 m c := by
  show Function.update (Gen.V5 m (outs m) c) main_v30 (W6 m c main_v30) = Function.update (W5 m c) main_v30 (o6 m c)
  rw [V5_eq, show W6 m c main_v30 = o6 m c from by show Function.update (W5 m c) main_v30 (o6 m c) main_v30 = o6 m c; simp only [Function.update_self]]
theorem V7_eq (c : Dev nD) : Gen.V7 m (outs m) c = W7 m c := by
  show StableHlo.after hostOps3 (Gen.V6 m (outs m) c) = _; rw [V6_eq]
theorem V8_eq (c : Dev nD) : Gen.V8 m (outs m) c = W8 m c := by
  show Function.update (Gen.V7 m (outs m) c) main_v43 (W8 m c main_v43) = Function.update (W7 m c) main_v43 (o8 m c)
  rw [V7_eq, show W8 m c main_v43 = o8 m c from by show Function.update (W7 m c) main_v43 (o8 m c) main_v43 = o8 m c; simp only [Function.update_self]]
theorem V9_eq (c : Dev nD) : Gen.V9 m (outs m) c = W9 m c := by
  show StableHlo.after hostOps4 (Gen.V8 m (outs m) c) = _; rw [V8_eq]
theorem V10_eq (c : Dev nD) : Gen.V10 m (outs m) c = W10 m c := by
  show Function.update (Gen.V9 m (outs m) c) main_v62 (W10 m c main_v62) = Function.update (W9 m c) main_v62 (o10 m c)
  rw [V9_eq, show W10 m c main_v62 = o10 m c from by show Function.update (W9 m c) main_v62 (o10 m c) main_v62 = o10 m c; simp only [Function.update_self]]

end Cert.Kernel.Chain

end
-- ==== Proof.K.Run.lean ====
/-
  The idealized kernel program's launch: @main as five kernel regions among host stretches, over the chain of buffer
  contents. From the five region records: the run with every buffer's final contents named, hence the frame claim and
  the value of the result buffer.
-/
import proofs.«404197_j31937376813167_3_alg».proof.Proof.K.Proj
import proofs.«404197_j31937376813167_3_alg».proof.Proof.K.MlpA
import proofs.«404197_j31937376813167_3_alg».proof.Proof.K.MlpB
import proofs.«404197_j31937376813167_3_alg».proof.Proof.K.MlpC
import proofs.«404197_j31937376813167_3_alg».proof.Proof.K.Pool
import proofs.«404197_j31937376813167_3_alg».proof.Proof.Gen.Kernel.Regions
import proofs.«404197_j31937376813167_3_alg».proof.Proof.K.Chain

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen Cert.Kernel.Chain

variable {F : FTy → Type} [FloatOps F]

local notation "𝕄" => MT nD τ sig Unit (Elt F) ℕ (UR sig nD τ) ℕ

variable (m : (ℓ : Loc nD τ sig) → Buf (Elt F) ℓ)

/-! ## The proof data family and what rides beside the buffers -/

/-- Every pipeline's proof data, each at its region's entry contents. -/
def pdats : (p : Fin 5) → (c : Dev nD) → Dat τ (Elt F) Unit ℕ (UR sig nD τ) ℕ (cfgs p) c
  | ⟨0, _⟩ => fun c => Proj.dat (tcv (W1 m)) c
  | ⟨1, _⟩ => fun c => MlpA.dat (tcv (W3 m)) c
  | ⟨2, _⟩ => fun c => MlpB.dat (tcv (W5 m)) c
  | ⟨3, _⟩ => fun c => MlpC.dat (tcv (W7 m)) c
  | ⟨4, _⟩ => fun c => Pool.dat (tcv (W9 m)) c

abbrev 𝒱₀ : Variants := Variants.none
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)

/-! ## Region 0 -/

theorem hrest0 (c : Dev nD) : ∀ b, b ∉ Finset.univ.image (Pipeline.arrRef spec0) → tcv (W2 m) c b = tcv (W1 m) c b := fun b hb =>
  Function.update_of_ne (StableHlo.devRef_ne_of_ne (fun e => hb (Finset.mem_image.mpr ⟨2, Finset.mem_univ _, e.symm⟩))) _ _

set_option maxHeartbeats 2000000 in
theorem hF0 (c : Dev nD) (w : Fin cfg0.W) : (pdats m 0 c).arrAt w cfg0.N = tcv (W2 m) c (Pipeline.arrRef spec0 w) :=
  match w with
  | ⟨0, _⟩ => (((pdats m 0 c).arrAt_in 0 rfl _).trans (Proj.A_eq (tcv (W1 m)) c 0)).trans
      (Function.update_of_ne (StableHlo.devRef_ne_of_ne (by decide)) _ _).symm
  | ⟨1, _⟩ => (((pdats m 0 c).arrAt_in 1 rfl _).trans (Proj.A_eq (tcv (W1 m)) c 1)).trans
      (Function.update_of_ne (StableHlo.devRef_ne_of_ne (by decide)) _ _).symm
  | ⟨2, _⟩ => by
      show o2 m c = Function.update (W1 m c) main_v4 (o2 m c) main_v4
      simp only [Function.update_self]

set_option backward.isDefEq.respectTransparency.types false in
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (tcv (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (tcv (W1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (tcv (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (tcv (W1 m) c) (tcv (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem hrest1 (c : Dev nD) : ∀ b, b ∉ Finset.univ.image (Pipeline.arrRef spec1) → tcv (W4 m) c b = tcv (W3 m) c b := fun b hb =>
  Function.update_of_ne (StableHlo.devRef_ne_of_ne (fun e => hb (Finset.mem_image.mpr ⟨5, Finset.mem_univ _, e.symm⟩))) _ _

set_option maxHeartbeats 2000000 in
theorem hF1 (c : Dev nD) (w : Fin cfg1.W) : (pdats m 1 c).arrAt w cfg1.N = tcv (W4 m) c (Pipeline.arrRef spec1 w) :=
  match w with
  | ⟨0, _⟩ => (((pdats m 1 c).arrAt_in 0 rfl _).trans (MlpA.A_eq (tcv (W3 m)) c 0)).trans
      (Function.update_of_ne (StableHlo.devRef_ne_of_ne (by decide)) _ _).symm
  | ⟨1, _⟩ => (((pdats m 1 c).arrAt_in 1 rfl _).trans (MlpA.A_eq (tcv (W3 m)) c 1)).trans
      (Function.update_of_ne (StableHlo.devRef_ne_of_ne (by decide)) _ _).symm
  | ⟨2, _⟩ => (((pdats m 1 c).arrAt_in 2 rfl _).trans (MlpA.A_eq (tcv (W3 m)) c 2)).trans
      (Function.update_of_ne (StableHlo.devRef_ne_of_ne (by decide)) _ _).symm
  | ⟨3, _⟩ => (((pdats m 1 c).arrAt_in 3 rfl _).trans (MlpA.A_eq (tcv (W3 m)) c 3)).trans
      (Function.update_of_ne (StableHlo.devRef_ne_of_ne (by decide)) _ _).symm
  | ⟨4, _⟩ => (((pdats m 1 c).arrAt_in 4 rfl _).trans (MlpA.A_eq (tcv (W3 m)) c 4)).trans
      (Function.update_of_ne (StableHlo.devRef_ne_of_ne (by decide)) _ _).symm
  | ⟨5, _⟩ => by
      show o4 m c = Function.update (W3 m c) main_v17 (o4 m c) main_v17
      simp only [Function.update_self]

set_option backward.isDefEq.respectTransparency.types false in
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (MlpA.body_obligation (tcv (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (tcv (W3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (tcv (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (tcv (W3 m) c) (tcv (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem hrest2 (c : Dev nD) : ∀ b, b ∉ Finset.univ.image (Pipeline.arrRef spec2) → tcv (W6 m) c b = tcv (W5 m) c b := fun b hb =>
  Function.update_of_ne (StableHlo.devRef_ne_of_ne (fun e => hb (Finset.mem_image.mpr ⟨6, Finset.mem_univ _, e.symm⟩))) _ _

set_option maxHeartbeats 2000000 in
theorem hF2 (c : Dev nD) (w : Fin cfg2.W) : (pdats m 2 c).arrAt w cfg2.N = tcv (W6 m) c (Pipeline.arrRef spec2 w) :=
  match w with
  | ⟨0, _⟩ => (((pdats m 2 c).arrAt_in 0 rfl _).trans (MlpB.A_eq (tcv (W5 m)) c 0)).trans
      (Function.update_of_ne (StableHlo.devRef_ne_of_ne (by decide)) _ _).symm
  | ⟨1, _⟩ => (((pdats m 2 c).arrAt_in 1 rfl _).trans (MlpB.A_eq (tcv (W5 m)) c 1)).trans
      (Function.update_of_ne (StableHlo.devRef_ne_of_ne (by decide)) _ _).symm
  | ⟨2, _⟩ => (((pdats m 2 c).arrAt_in 2 rfl _).trans (MlpB.A_eq (tcv (W5 m)) c 2)).trans
      (Function.update_of_ne (StableHlo.devRef_ne_of_ne (by decide)) _ _).symm
  | ⟨3, _⟩ => (((pdats m 2 c).arrAt_in 3 rfl _).trans (MlpB.A_eq (tcv (W5 m)) c 3)).trans
      (Function.update_of_ne (StableHlo.devRef_ne_of_ne (by decide)) _ _).symm
  | ⟨4, _⟩ => (((pdats m 2 c).arrAt_in 4 rfl _).trans (MlpB.A_eq (tcv (W5 m)) c 4)).trans
      (Function.update_of_ne (StableHlo.devRef_ne_of_ne (by decide)) _ _).symm
  | ⟨5, _⟩ => (((pdats m 2 c).arrAt_in 5 rfl _).trans (MlpB.A_eq (tcv (W5 m)) c 5)).trans
      (Function.update_of_ne (StableHlo.devRef_ne_of_ne (by decide)) _ _).symm
  | ⟨6, _⟩ => by
      show o6 m c = Function.update (W5 m c) main_v30 (o6 m c) main_v30
      simp only [Function.update_self]

set_option backward.isDefEq.respectTransparency.types false in
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (MlpB.body_obligation (tcv (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (tcv (W5 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (tcv (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (tcv (W5 m) c) (tcv (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

theorem hrest3 (c : Dev nD) : ∀ b, b ∉ Finset.univ.image (Pipeline.arrRef spec3) → tcv (W8 m) c b = tcv (W7 m) c b := fun b hb =>
  Function.update_of_ne (StableHlo.devRef_ne_of_ne (fun e => hb (Finset.mem_image.mpr ⟨6, Finset.mem_univ _, e.symm⟩))) _ _

set_option maxHeartbeats 2000000 in
theorem hF3 (c : Dev nD) (w : Fin cfg3.W) : (pdats m 3 c).arrAt w cfg3.N = tcv (W8 m) c (Pipeline.arrRef spec3 w) :=
  match w with
  | ⟨0, _⟩ => (((pdats m 3 c).arrAt_in 0 rfl _).trans (MlpC.A_eq (tcv (W7 m)) c 0)).trans
      (Function.update_of_ne (StableHlo.devRef_ne_of_ne (by decide)) _ _).symm
  | ⟨1, _⟩ => (((pdats m 3 c).arrAt_in 1 rfl _).trans (MlpC.A_eq (tcv (W7 m)) c 1)).trans
      (Function.update_of_ne (StableHlo.devRef_ne_of_ne (by decide)) _ _).symm
  | ⟨2, _⟩ => (((pdats m 3 c).arrAt_in 2 rfl _).trans (MlpC.A_eq (tcv (W7 m)) c 2)).trans
      (Function.update_of_ne (StableHlo.devRef_ne_of_ne (by decide)) _ _).symm
  | ⟨3, _⟩ => (((pdats m 3 c).arrAt_in 3 rfl _).trans (MlpC.A_eq (tcv (W7 m)) c 3)).trans
      (Function.update_of_ne (StableHlo.devRef_ne_of_ne (by decide)) _ _).symm
  | ⟨4, _⟩ => (((pdats m 3 c).arrAt_in 4 rfl _).trans (MlpC.A_eq (tcv (W7 m)) c 4)).trans
      (Function.update_of_ne (StableHlo.devRef_ne_of_ne (by decide)) _ _).symm
  | ⟨5, _⟩ => (((pdats m 3 c).arrAt_in 5 rfl _).trans (MlpC.A_eq (tcv (W7 m)) c 5)).trans
      (Function.update_of_ne (StableHlo.devRef_ne_of_ne (by decide)) _ _).symm
  | ⟨6, _⟩ => by
      show o8 m c = Function.update (W7 m c) main_v43 (o8 m c) main_v43
      simp only [Function.update_self]

set_option backward.isDefEq.respectTransparency.types false in
def reg3 : RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (MlpC.body_obligation (tcv (W7 m)) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (tcv (W7 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (tcv (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (tcv (W7 m) c) (tcv (W8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4: the scratch accumulator enters and leaves through the region's invariant -/

theorem hrest4 (c : Dev nD) : ∀ b, b ∉ Finset.univ.image (Pipeline.arrRef spec4) → tcv (W10 m) c b = tcv (W9 m) c b := fun b hb =>
  Function.update_of_ne (StableHlo.devRef_ne_of_ne (fun e => hb (Finset.mem_image.mpr ⟨7, Finset.mem_univ _, e.symm⟩))) _ _

set_option maxHeartbeats 2000000 in
theorem hF4 (c : Dev nD) (w : Fin cfg4.W) : (pdats m 4 c).arrAt w cfg4.N = tcv (W10 m) c (Pipeline.arrRef spec4 w) :=
  match w with
  | ⟨0, _⟩ => (((pdats m 4 c).arrAt_in 0 rfl _).trans (Pool.A_eq (tcv (W9 m)) c 0)).trans
      (Function.update_of_ne (StableHlo.devRef_ne_of_ne (by decide)) _ _).symm
  | ⟨1, _⟩ => (((pdats m 4 c).arrAt_in 1 rfl _).trans (Pool.A_eq (tcv (W9 m)) c 1)).trans
      (Function.update_of_ne (StableHlo.devRef_ne_of_ne (by decide)) _ _).symm
  | ⟨2, _⟩ => (((pdats m 4 c).arrAt_in 2 rfl _).trans (Pool.A_eq (tcv (W9 m)) c 2)).trans
      (Function.update_of_ne (StableHlo.devRef_ne_of_ne (by decide)) _ _).symm
  | ⟨3, _⟩ => (((pdats m 4 c).arrAt_in 3 rfl _).trans (Pool.A_eq (tcv (W9 m)) c 3)).trans
      (Function.update_of_ne (StableHlo.devRef_ne_of_ne (by decide)) _ _).symm
  | ⟨4, _⟩ => (((pdats m 4 c).arrAt_in 4 rfl _).trans (Pool.A_eq (tcv (W9 m)) c 4)).trans
      (Function.update_of_ne (StableHlo.devRef_ne_of_ne (by decide)) _ _).symm
  | ⟨5, _⟩ => (((pdats m 4 c).arrAt_in 5 rfl _).trans (Pool.A_eq (tcv (W9 m)) c 5)).trans
      (Function.update_of_ne (StableHlo.devRef_ne_of_ne (by decide)) _ _).symm
  | ⟨6, _⟩ => (((pdats m 4 c).arrAt_in 6 rfl _).trans (Pool.A_eq (tcv (W9 m)) c 6)).trans
      (Function.update_of_ne (StableHlo.devRef_ne_of_ne (by decide)) _ _).symm
  | ⟨7, _⟩ => by
      show o10 m c = Function.update (W9 m c) main_v62 (o10 m c) main_v62
      simp only [Function.update_self]

set_option backward.isDefEq.respectTransparency.types false in
def reg4 : RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (Pool.body_obligation (tcv (W9 m)) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (tcv (W9 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (tcv (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Pool.Φ_first (tcv (W9 m)) c
    unfold Pipeline.ΦA at h
    rw [show (pdats m 4 c).Φ 0 = (Pool.dat (tcv (W9 m)) c).Φ 0 from rfl]
    iintro ⟨Hp, -, Hr⟩
    iapply h
    isplitl [Hr]; · iexact Hr
    iexact Hp
  hout c := by
    have h := Pool.Φ_last (tcv (W9 m)) c
    unfold Pipeline.ΦA at h
    rw [Pipeline.ownSems0_none, show (pdats m 4 c).Φ (Fin.last _) = (Pool.dat (tcv (W9 m)) c).Φ (Fin.last cfg4.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (tcv (W9 m) c) (tcv (W10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev E : Fin 6 → Dev nD → sProp 𝕄 := fun _ c => R c

variable (ρ : Dev nD → PrngReg)

/-- What the launch deals a core makes its first thread state: the unscoped buffers held at the launch memory; beside
    them the generator register at its launch state and nothing owed. -/
theorem init_core (c : Dev nD) :
    (iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ iprop(emp)) : sProp 𝕄)
      ⊢ iprop(StableHlo.held (c : Thread nD τ) (Pipeline.ucRefs τ sig) (Gen.V0 m c) ∗ E 0 c) := by
  rw [← Pipeline.unscopedBufs_held (Ix := Unit) (Name := ℕ) (U := UR sig nD τ) (Lvl := ℕ) c (Gen.V0 m c)]
  iintro ⟨Hh, -, HO, -, Hp, -⟩
  isplitl [Hh]; · iexact Hh
  isplitl [Hp]; · iexists _; iexact Hp
  iexists ∅; iexact HO

set_option backward.isDefEq.respectTransparency.types false in
/-- THE RUN: from any memory with zero counters every weakly fair execution of @main terminates, nothing faulting, and in
    every final state each unscoped buffer of each core holds what the chain of contents ends with. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m) (reg3 m) (reg4 m))
    (fun c Q => by
      rewrite [main_chain c, Seg.run_eq_chain,
        show (Gen.segs m (outs m) 𝒱₀ L lv E () (pdats m) (reg0 m) (reg1 m) (reg2 m) (reg3 m) (reg4 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [Gen.segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V10 m (outs m) c))
    (hch := fun c => ⟨.rfl,
      .rfl,
      (show (reg0 m).post c ⊢ iprop(StableHlo.held (c : Thread nD τ) (Pipeline.ucRefs τ sig) (Gen.V2 m (outs m) c) ∗ E 1 c) from by rw [V2_eq]; exact .rfl),
      (show iprop(StableHlo.held (c : Thread nD τ) (Pipeline.ucRefs τ sig) (Gen.V3 m (outs m) c) ∗ E 1 c) ⊢ (reg1 m).pre c from by rw [V3_eq]; exact .rfl),
      (show (reg1 m).post c ⊢ iprop(StableHlo.held (c : Thread nD τ) (Pipeline.ucRefs τ sig) (Gen.V4 m (outs m) c) ∗ E 2 c) from by rw [V4_eq]; exact .rfl),
      (show iprop(StableHlo.held (c : Thread nD τ) (Pipeline.ucRefs τ sig) (Gen.V5 m (outs m) c) ∗ E 2 c) ⊢ (reg2 m).pre c from by rw [V5_eq]; exact .rfl),
      (show (reg2 m).post c ⊢ iprop(StableHlo.held (c : Thread nD τ) (Pipeline.ucRefs τ sig) (Gen.V6 m (outs m) c) ∗ E 3 c) from by rw [V6_eq]; exact .rfl),
      (show iprop(StableHlo.held (c : Thread nD τ) (Pipeline.ucRefs τ sig) (Gen.V7 m (outs m) c) ∗ E 3 c) ⊢ (reg3 m).pre c from by rw [V7_eq]; exact .rfl),
      (show (reg3 m).post c ⊢ iprop(StableHlo.held (c : Thread nD τ) (Pipeline.ucRefs τ sig) (Gen.V8 m (outs m) c) ∗ E 4 c) from by rw [V8_eq]; exact .rfl),
      (show iprop(StableHlo.held (c : Thread nD τ) (Pipeline.ucRefs τ sig) (Gen.V9 m (outs m) c) ∗ E 4 c) ⊢ (reg4 m).pre c from by rw [V9_eq]; exact .rfl),
      (show (reg4 m).post c ⊢ iprop(StableHlo.held (c : Thread nD τ) (Pipeline.ucRefs τ sig) (Gen.V10 m (outs m) c) ∗ ∃ W, owes (c : Thread nD τ) (0 : CellTallies nD τ sig Unit) W) from by
        rw [V10_eq]
        show iprop(StableHlo.held (c : Thread nD τ) (Pipeline.ucRefs τ sig) (W10 m c) ∗ R c) ⊢ _
        iintro ⟨Hh, -, HO⟩
        isplitl [Hh]; · iexact Hh
        iexact HO)⟩)
    (hinit := ?_) (QY := fun c s => ∀ b ∈ Pipeline.ucRefs τ sig, s.mem (((c : Thread nD τ)).1, b) = W10 m c b)
    (hfin := fun c s' => ?_) (hQ := fun _ h => h)
  · -- the launch: the unscoped buffers are held at the launch memory; beside them the generator register and nothing owed
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (bigSep Finset.univ fun c : Dev nD => iprop(StableHlo.held (c : Thread nD τ) (Pipeline.ucRefs τ sig) (Gen.V0 m c) ∗ E 0 c)
            : sProp 𝕄) :=
      bigSep_mono fun c _ => init_core m ρ c
    iintro ⟨H, -⟩
    imodintro
    iapply hsplit
    iexact H
  · -- the end: every unscoped buffer read off the last contents
    rw [V10_eq]
    unfold StableHlo.held
    iintro ⟨Hh, HSI⟩
    ihave Hr := (pointsTo_read_all (Pipeline.ucRefs τ sig) (fun b => ((c : Thread nD τ).1, b)) (W10 m c) s') $$ [Hh HSI]
    · isplitl [Hh] <;> iassumption
    icases Hr with ⟨%h, HSI⟩
    imodintro
    isplitr
    · ipureintro
      exact h
    · iexact HSI

/-- An argument's buffer at the end of the chain is the launch memory's: no host stretch writes it, no region changes it. -/
theorem W10_of_V10 (c : Dev nD) (b : Ref sig .tc) : W10 m c b = Gen.V10 m (outs m) c b := by rw [V10_eq]

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨((h c _ (mem_uc main_arg0 (by decide))).trans (W10_of_V10 m c main_arg0)).trans (Gen.V10_main_arg0 m (outs m) c),
     ((h c _ (mem_uc main_arg1 (by decide))).trans (W10_of_V10 m c main_arg1)).trans (Gen.V10_main_arg1 m (outs m) c),
     ((h c _ (mem_uc main_arg2 (by decide))).trans (W10_of_V10 m c main_arg2)).trans (Gen.V10_main_arg2 m (outs m) c),
     ((h c _ (mem_uc main_arg3 (by decide))).trans (W10_of_V10 m c main_arg3)).trans (Gen.V10_main_arg3 m (outs m) c),
     ((h c _ (mem_uc main_arg4 (by decide))).trans (W10_of_V10 m c main_arg4)).trans (Gen.V10_main_arg4 m (outs m) c),
     ((h c _ (mem_uc main_arg5 (by decide))).trans (W10_of_V10 m c main_arg5)).trans (Gen.V10_main_arg5 m (outs m) c),
     ((h c _ (mem_uc main_arg6 (by decide))).trans (W10_of_V10 m c main_arg6)).trans (Gen.V10_main_arg6 m (outs m) c),
     ((h c _ (mem_uc main_arg7 (by decide))).trans (W10_of_V10 m c main_arg7)).trans (Gen.V10_main_arg7 m (outs m) c),
     ((h c _ (mem_uc main_arg8 (by decide))).trans (W10_of_V10 m c main_arg8)).trans (Gen.V10_main_arg8 m (outs m) c),
     ((h c _ (mem_uc main_arg9 (by decide))).trans (W10_of_V10 m c main_arg9)).trans (Gen.V10_main_arg9 m (outs m) c),
     ((h c _ (mem_uc main_arg10 (by decide))).trans (W10_of_V10 m c main_arg10)).trans (Gen.V10_main_arg10 m (outs m) c),
     ((h c _ (mem_uc main_arg11 (by decide))).trans (W10_of_V10 m c main_arg11)).trans (Gen.V10_main_arg11 m (outs m) c),
     ((h c _ (mem_uc main_arg12 (by decide))).trans (W10_of_V10 m c main_arg12)).trans (Gen.V10_main_arg12 m (outs m) c),
     ((h c _ (mem_uc main_arg13 (by decide))).trans (W10_of_V10 m c main_arg13)).trans (Gen.V10_main_arg13 m (outs m) c),
     ((h c _ (mem_uc main_arg14 (by decide))).trans (W10_of_V10 m c main_arg14)).trans (Gen.V10_main_arg14 m (outs m) c),
     ((h c _ (mem_uc main_arg15 (by decide))).trans (W10_of_V10 m c main_arg15)).trans (Gen.V10_main_arg15 m (outs m) c),
     ((h c _ (mem_uc main_arg16 (by decide))).trans (W10_of_V10 m c main_arg16)).trans (Gen.V10_main_arg16 m (outs m) c),
     ((h c _ (mem_uc main_arg17 (by decide))).trans (W10_of_V10 m c main_arg17)).trans (Gen.V10_main_arg17 m (outs m) c),
     ((h c _ (mem_uc main_arg18 (by decide))).trans (W10_of_V10 m c main_arg18)).trans (Gen.V10_main_arg18 m (outs m) c)⟩)
    (run m ρ)

/-- The result buffer at the end: what region 4 leaves. -/
theorem result_eq (c : Dev nD) : W10 m c main_v62 = o10 m c := by
  show Function.update (W9 m c) main_v62 (o10 m c) main_v62 = _
  simp only [Function.update_self]

end Cert.Kernel.Run

end
-- ==== Proof.KI.Proj.lean ====
/-
  Region 0 of the idealized kernel program: the projection `y = x · W₁`, one grid point per block of 5000 rows.
  At a parameter `V` (what the core's buffers hold when the region is entered): the block of each window at a
  grid point, what the body leaves in the output window's staging buffer (the matrix product of the point's row block
  with the whole weight matrix), the body's triple, the proof data and the body obligation at every point.
-/
import proofs.«404197_j31937376813167_3_alg».proof.Proof.Gen.KernelIdeal.Launch
import proofs.«404197_j31937376813167_3_alg».proof.Proof.Gen.KernelIdeal.Skeleton
import proofs.«404197_j31937376813167_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the rectangle of the window's array (as the region finds it) that the
    point's index map selects. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block whether or not the point fetched it: an unfetched
    window's index has not moved since the fetch. Window 0 (the rows of `x`). -/
theorem before_in0_of {c : Dev nD}
    (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for window 1 (the weights, fetched once). -/
theorem before_in1_of {c : Dev nD}
    (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The one rectangle the body stores through: the whole 5000×64 staging buffer. -/
abbrev rOut : Rect S5000x64 := Rect.unit (s := S5000x64) ![0, 0] S5000x64.size inb_S5000x64_S5000x64_0_0
abbrev rX : Rect S5000x128 := Rect.unit (s := S5000x128) ![0, 0] S5000x128.size inb_S5000x128_S5000x128_0_0
abbrev rW : Rect S128x64 := Rect.unit (s := S128x64) ![0, 0] S128x64.size inb_S128x64_S128x64_0_0

/-- What the body leaves in the output window's buffer: the product of the row block with the weights. -/
def outY (x : Vec F S5000x128 .f32) (w1 : Vec F S128x64 .f32) : Vec F S5000x64 .f32 :=
  View.canon [⟨rOut, k0_pay1 (View.ld x rX) (View.ld w1 rW)⟩]

theorem coverY (p0 : Vec F S5000x64 .f32) (y : S5000x64.Idx) :
    ∃ pc ∈ ([⟨rOut, p0⟩] : List (View.Piece (Elt F) S5000x64 .f32)), y ∈ pc.1.set :=
  View.cover_of_tiled [⟨rOut, p0⟩] S5000x64.size (by rfl) y

set_option maxHeartbeats 1000000 in
/-- The body on whole staging buffers: the inputs are handed back as found, the output buffer ends at `outY`. -/
theorem sound_kernel (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S5000x64 .f32) (harg3 : arg3.IsWhole)
    (x : Vec F S5000x128 .f32) (w1 : Vec F S128x64 .f32) (K : PUnit → sProp 𝕄) :
    iprop(owns (c : Thread nD τ) arg1 fullShare x ∗ owns (c : Thread nD τ) arg2 fullShare w1 ∗ (∃ d, owns (c : Thread nD τ) arg3 fullShare d)
        ∗ (iprop(owns (c : Thread nD τ) arg1 fullShare x ∗ owns (c : Thread nD τ) arg2 fullShare w1 ∗ owns (c : Thread nD τ) arg3 fullShare (outY x w1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverY _)

/-- The proof data of the region on core `c`: the arrays as the region finds them; after the body each input's buffer
    still holds its block and the output's holds `outY` of the two input blocks; the invariant between points is the
    scoped rest and the generator register, untouched; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outY (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = outY (blk V c 0 t) (blk V c 1 t) := by dsimp only [dat]

theorem before_0 (c : Dev nD) (t : Fin cfg0.N) (d) : (dat V c).before 0 t d = blk V c 0 t :=
  before_in0_of V (dat V c) (A_eq V c 0) (after_0 V c) t d
theorem before_1 (c : Dev nD) (t : Fin cfg0.N) (d) : (dat V c).before 1 t d = blk V c 1 t :=
  before_in1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.KI.MlpA.lean ====
/-
  Region 1 of the idealized kernel program: the first graph-network layer, one grid point per block of 5000 rows:
  h = relu (relu ((y + seg) + b1) * W2 + b2), where y are the node's own rows and seg the aggregated neighbour rows.
  At a parameter V (what the core's buffers hold when the region is entered): the block of each window at a
  grid point, what the body leaves in the output window's staging buffer, the body's triple, the proof data and the
  body obligation at every point.
-/
import proofs.«404197_j31937376813167_3_alg».proof.Proof.Gen.KernelIdeal.Launch
import proofs.«404197_j31937376813167_3_alg».proof.Proof.Gen.KernelIdeal.Skeleton
import proofs.«404197_j31937376813167_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.MlpA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t: the rectangle of the window's array (as the region finds it) that the
    point's index map selects. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block whether or not the point fetched it: an unfetched
    window's index has not moved since the fetch. Window 0 (the node's own rows). -/
theorem before_in0_of {c : Dev nD}
    (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for window 1 (the aggregated neighbour rows). -/
theorem before_in1_of {c : Dev nD}
    (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The same for window 2 (the first bias, fetched once). -/
theorem before_in2_of {c : Dev nD}
    (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- The same for window 3 (the second weight matrix, fetched once). -/
theorem before_in3_of {c : Dev nD}
    (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- The same for window 4 (the second bias, fetched once). -/
theorem before_in4_of {c : Dev nD}
    (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The one rectangle the body stores through: the whole 5000×64 staging buffer; and the whole-buffer rectangles
    its loads of the bias rows and of the weight matrix read through. -/
abbrev rOut : Rect S5000x64 := Rect.unit (s := S5000x64) ![0, 0] S5000x64.size inb_S5000x64_S5000x64_0_0
abbrev rRow : Rect S1x64 := Rect.unit (s := S1x64) ![0, 0] S1x64.size inb_S1x64_S1x64_0_0
abbrev rW : Rect S64x64 := Rect.unit (s := S64x64) ![0, 0] S64x64.size inb_S64x64_S64x64_0_0

/-- What the body leaves in the output window's buffer: the layer applied to the point's two row blocks and the
    whole bias rows and weight matrix. -/
def outY (x s : Vec F S5000x64 .f32) (b1 : Vec F S1x64 .f32) (w2 : Vec F S64x64 .f32) (b2 : Vec F S1x64 .f32) : Vec F S5000x64 .f32 :=
  View.canon [⟨rOut, k1_pay1 (View.ld x rOut) (View.ld s rOut) (View.ld b1 rRow) (View.ld w2 rW) (View.ld b2 rRow)⟩]

theorem coverY (p0 : Vec F S5000x64 .f32) (y : S5000x64.Idx) :
    ∃ pc ∈ ([⟨rOut, p0⟩] : List (View.Piece (Elt F) S5000x64 .f32)), y ∈ pc.1.set :=
  View.cover_of_tiled [⟨rOut, p0⟩] S5000x64.size (by rfl) y

set_option maxHeartbeats 1000000 in
/-- The body on whole staging buffers: the inputs are handed back as found, the output buffer ends at outY. -/
theorem sound_kernel (c : Dev nD) (E : Set ℕ) (i : grid1.Coords)
    (arg1 : Memref sig .tc .vmem S5000x64 .f32) (harg1 : arg1.IsWhole)
    (arg2 : Memref sig .tc .vmem S5000x64 .f32) (harg2 : arg2.IsWhole)
    (arg3 : Memref sig .tc .vmem S1x64 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S5000x64 .f32) (harg6 : arg6.IsWhole)
    (x : Vec F S5000x64 .f32) (s : Vec F S5000x64 .f32) (b1 : Vec F S1x64 .f32) (w2 : Vec F S64x64 .f32) (b2 : Vec F S1x64 .f32) (K : PUnit → sProp 𝕄) :
    iprop(owns (c : Thread nD τ) arg1 fullShare x ∗ owns (c : Thread nD τ) arg2 fullShare s ∗ owns (c : Thread nD τ) arg3 fullShare b1 ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare s ∗ owns (c : Thread nD τ) arg3 fullShare b1 ∗ owns (c : Thread nD τ) arg4 fullShare w2 ∗ owns (c : Thread nD τ) arg5 fullShare b2 ∗ owns (c : Thread nD τ) arg6 fullShare (outY x s b1 w2 b2)) -∗ K ⟨⟩))
      ⊢ wp frame (wpE (defs₀ (F := F)) Variants.none c none) E (cc1__gin_mlp_kernel_skip_w1 i arg1 harg1 arg2 harg2 arg3 harg3 arg4 harg4 arg5 harg5 arg6 harg6) K := by
  simp only [cc1__gin_mlp_kernel_skip_w1_eq_skeleton]; unfold cc1__gin_mlp_kernel_skip_w1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverY _)

/-- The proof data of the region on core c: the arrays as the region finds them; after the body each input's buffer
    still holds its block and the output's holds outY of the five input blocks; the invariant between points is the
    scoped rest and the generator register, untouched; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outY (blk V c 0 t) (blk V c 1 t) (blk V c 2 t) (blk V c 3 t) (blk V c 4 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) :
    (dat V c).after 5 t = outY (blk V c 0 t) (blk V c 1 t) (blk V c 2 t) (blk V c 3 t) (blk V c 4 t) := by dsimp only [dat]

theorem before_0 (c : Dev nD) (t : Fin cfg1.N) (d) : (dat V c).before 0 t d = blk V c 0 t :=
  before_in0_of V (dat V c) (A_eq V c 0) (after_0 V c) t d
theorem before_1 (c : Dev nD) (t : Fin cfg1.N) (d) : (dat V c).before 1 t d = blk V c 1 t :=
  before_in1_of V (dat V c) (A_eq V c 1) (after_1 V c) t d
theorem before_2 (c : Dev nD) (t : Fin cfg1.N) (d) : (dat V c).before 2 t d = blk V c 2 t :=
  before_in2_of V (dat V c) (A_eq V c 2) (after_2 V c) t d
theorem before_3 (c : Dev nD) (t : Fin cfg1.N) (d) : (dat V c).before 3 t d = blk V c 3 t :=
  before_in3_of V (dat V c) (A_eq V c 3) (after_3 V c) t d
theorem before_4 (c : Dev nD) (t : Fin cfg1.N) (d) : (dat V c).before 4 t d = blk V c 4 t :=
  before_in4_of V (dat V c) (A_eq V c 4) (after_4 V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W1, bigSep_W1]
  exact sound_body V c t

end Cert.KernelIdeal.MlpA

end
-- ==== Proof.KI.MlpB.lean ====
/-
  Region 2 of the idealized kernel program: one layer of the graph network, `h' = relu(relu((h + s)·W₁ + b₁)·W₂ + b₂)`,
  one grid point per block of 5000 rows. At a parameter `V` (what the core's buffers hold when the region is entered):
  the block of each window at a grid point, what the body leaves in the output window's staging buffer (the layer applied
  to the point's two row blocks with the whole weights and biases), the body's triple, the proof data and the body
  obligation at every point.
-/
import proofs.«404197_j31937376813167_3_alg».proof.Proof.Gen.KernelIdeal.Launch
import proofs.«404197_j31937376813167_3_alg».proof.Proof.Gen.KernelIdeal.Skeleton
import proofs.«404197_j31937376813167_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.MlpB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the rectangle of the window's array (as the region finds it) that the
    point's index map selects. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block whether or not the point fetched it: an unfetched
    window's index has not moved since the fetch. Window 0 (the rows of the node features). -/
theorem before_in0_of {c : Dev nD}
    (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for window 1 (the rows of the aggregated neighbour sum). -/
theorem before_in1_of {c : Dev nD}
    (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The same for window 2 (the first weight matrix, fetched once). -/
theorem before_in2_of {c : Dev nD}
    (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- The same for window 3 (the first bias row, fetched once). -/
theorem before_in3_of {c : Dev nD}
    (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- The same for window 4 (the second weight matrix, fetched once). -/
theorem before_in4_of {c : Dev nD}
    (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- The same for window 5 (the second bias row, fetched once). -/
theorem before_in5_of {c : Dev nD}
    (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through: rows (5000×64), a weight matrix (64×64), a bias row
    (1×64). -/
abbrev rRows : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- What the body leaves in the output window's buffer: the two-layer perceptron of the sum of the two
    row blocks, `relu(relu((h + s)·W₁ + b₁)·W₂ + b₂)`. -/
def outY (h s : Vec F S5000x64 .f32) (w1 : Vec F S64x64 .f32) (b1 : Vec F S1x64 .f32) (w2 : Vec F S64x64 .f32) (b2 : Vec F S1x64 .f32) :
    Vec F S5000x64 .f32 :=
  View.canon [⟨rRows, k2_pay1 (View.ld h rRows) (View.ld s rRows) (View.ld w1 rW) (View.ld b1 rB) (View.ld w2 rW) (View.ld b2 rB)⟩]

theorem coverY (p0 : Vec F S5000x64 .f32) (y : S5000x64.Idx) :
    ∃ pc ∈ ([⟨rRows, p0⟩] : List (View.Piece (Elt F) S5000x64 .f32)), y ∈ pc.1.set :=
  View.cover_of_tiled [⟨rRows, p0⟩] S5000x64.size (by rfl) y

set_option maxHeartbeats 1000000 in
/-- The body on whole staging buffers: the six inputs are handed back as found, the output buffer ends at `outY`. -/
theorem sound_kernel (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (h s : Vec F S5000x64 .f32) (w1 : Vec F S64x64 .f32) (b1 : Vec F S1x64 .f32) (w2 : Vec F S64x64 .f32) (b2 : Vec F S1x64 .f32)
    (K : PUnit → sProp 𝕄) :
    iprop(owns (c : Thread nD τ) arg1 fullShare h ∗ owns (c : Thread nD τ) arg2 fullShare s ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d)
        ∗ (iprop(owns (c : Thread nD τ) arg1 fullShare h ∗ owns (c : Thread nD τ) arg2 fullShare s ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (outY h s w1 b1 w2 b2)) -∗ K ⟨⟩))
      ⊢ wp frame (wpE (defs₀ (F := F)) Variants.none c none) E
          (cc2__gin_mlp_kernel_full i arg1 harg1 arg2 harg2 arg3 harg3 arg4 harg4 arg5 harg5 arg6 harg6 arg7 harg7) K := by
  simp only [cc2__gin_mlp_kernel_full_eq_skeleton]; unfold cc2__gin_mlp_kernel_full_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverY _)

/-- The proof data of the region on core `c`: the arrays as the region finds them; after the body each input's buffer
    still holds its block and the output's holds `outY` of the six input blocks; the invariant between points is the
    scoped rest and the generator register, untouched; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outY (blk V c 0 t) (blk V c 1 t) (blk V c 2 t) (blk V c 3 t) (blk V c 4 t) (blk V c 5 t)
  Φ _ := Pipeline.ΦA spec2 c
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_6 (c : Dev nD) (t : Fin cfg2.N) :
    (dat V c).after 6 t = outY (blk V c 0 t) (blk V c 1 t) (blk V c 2 t) (blk V c 3 t) (blk V c 4 t) (blk V c 5 t) := by dsimp only [dat]

theorem before_0 (c : Dev nD) (t : Fin cfg2.N) (d) : (dat V c).before 0 t d = blk V c 0 t :=
  before_in0_of V (dat V c) (A_eq V c 0) (after_0 V c) t d
theorem before_1 (c : Dev nD) (t : Fin cfg2.N) (d) : (dat V c).before 1 t d = blk V c 1 t :=
  before_in1_of V (dat V c) (A_eq V c 1) (after_1 V c) t d
theorem before_2 (c : Dev nD) (t : Fin cfg2.N) (d) : (dat V c).before 2 t d = blk V c 2 t :=
  before_in2_of V (dat V c) (A_eq V c 2) (after_2 V c) t d
theorem before_3 (c : Dev nD) (t : Fin cfg2.N) (d) : (dat V c).before 3 t d = blk V c 3 t :=
  before_in3_of V (dat V c) (A_eq V c 3) (after_3 V c) t d
theorem before_4 (c : Dev nD) (t : Fin cfg2.N) (d) : (dat V c).before 4 t d = blk V c 4 t :=
  before_in4_of V (dat V c) (A_eq V c 4) (after_4 V c) t d
theorem before_5 (c : Dev nD) (t : Fin cfg2.N) (d) : (dat V c).before 5 t d = blk V c 5 t :=
  before_in5_of V (dat V c) (A_eq V c 5) (after_5 V c) t d

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W2, bigSep_W2]
  exact sound_body V c t

end Cert.KernelIdeal.MlpB

end
-- ==== Proof.KI.MlpC.lean ====
/-
  Region 3 of the idealized kernel program: the last layer of the graph network, `h' = relu((h + s)·W₁ + b₁)·W₂ + b₂`
  (no outer rectifier), one grid point per block of 5000 rows. At a parameter `V` (what the core's buffers hold when the
  region is entered): the block of each window at a grid point, what the body leaves in the output window's staging
  buffer (the layer applied to the point's two row blocks with the whole weights and biases), the body's triple, the
  proof data and the body obligation at every point.
-/
import proofs.«404197_j31937376813167_3_alg».proof.Proof.Gen.KernelIdeal.Launch
import proofs.«404197_j31937376813167_3_alg».proof.Proof.Gen.KernelIdeal.Skeleton
import proofs.«404197_j31937376813167_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.MlpC

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the rectangle of the window's array (as the region finds it) that the
    point's index map selects. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the point's block whether or not the point fetched it: an unfetched
    window's index has not moved since the fetch. Window 0 (the rows of the node features). -/
theorem before_in0_of {c : Dev nD}
    (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The same for window 1 (the rows of the aggregated neighbour sum). -/
theorem before_in1_of {c : Dev nD}
    (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The same for window 2 (the first weight matrix, fetched once). -/
theorem before_in2_of {c : Dev nD}
    (dat : Dat τ (Elt F) Unit ℕ (UR sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- The same for window 3 (the first bias row, fetched once). -/
theorem before_in3_of {c : Dev nD}
    (dat : Dat τ (Elt F) Unit ℕ (UR sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- The same for window 4 (the second weight matrix, fetched once). -/
theorem before_in4_of {c : Dev nD}
    (dat : Dat τ (Elt F) Unit ℕ (UR sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- The same for window 5 (the second bias row, fetched once). -/
theorem before_in5_of {c : Dev nD}
    (dat : Dat τ (Elt F) Unit ℕ (UR sig nD τ) ℕ cfg3 c) (hA : dat.A 5 = V c (Pipeline.arrRef spec3 5))
    (hafter : ∀ t, dat.after 5 t = blk V c 5 t) (t : Fin cfg3.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through: rows (5000×64), a weight matrix (64×64), a bias row
    (1×64). -/
abbrev rRows : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-- What the body leaves in the output window's buffer: the two-layer perceptron of the sum of the two
    row blocks, `relu((h + s)·W₁ + b₁)·W₂ + b₂`, with no rectifier on the second layer. -/
def outY (h s : Vec F S5000x64 .f32) (w1 : Vec F S64x64 .f32) (b1 : Vec F S1x64 .f32) (w2 : Vec F S64x64 .f32) (b2 : Vec F S1x64 .f32) :
    Vec F S5000x64 .f32 :=
  View.canon [⟨rRows, k3_pay1 (View.ld h rRows) (View.ld s rRows) (View.ld w1 rW) (View.ld b1 rB) (View.ld w2 rW) (View.ld b2 rB)⟩]

theorem coverY (p0 : Vec F S5000x64 .f32) (y : S5000x64.Idx) :
    ∃ pc ∈ ([⟨rRows, p0⟩] : List (View.Piece (Elt F) S5000x64 .f32)), y ∈ pc.1.set :=
  View.cover_of_tiled [⟨rRows, p0⟩] S5000x64.size (by rfl) y

set_option maxHeartbeats 1000000 in
/-- The body on whole staging buffers: the six inputs are handed back as found, the output buffer ends at `outY`. -/
theorem sound_kernel (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (h s : Vec F S5000x64 .f32) (w1 : Vec F S64x64 .f32) (b1 : Vec F S1x64 .f32) (w2 : Vec F S64x64 .f32) (b2 : Vec F S1x64 .f32)
    (K : PUnit → sProp 𝕄) :
    iprop(owns (c : Thread nD τ) arg1 fullShare h ∗ owns (c : Thread nD τ) arg2 fullShare s ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d)
        ∗ (iprop(owns (c : Thread nD τ) arg1 fullShare h ∗ owns (c : Thread nD τ) arg2 fullShare s ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (outY h s w1 b1 w2 b2)) -∗ K ⟨⟩))
      ⊢ wp frame (wpE (defs₀ (F := F)) Variants.none c none) E
          (cc3__gin_mlp_kernel_full i arg1 harg1 arg2 harg2 arg3 harg3 arg4 harg4 arg5 harg5 arg6 harg6 arg7 harg7) K := by
  simp only [cc3__gin_mlp_kernel_full_eq_skeleton]; unfold cc3__gin_mlp_kernel_full_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverY _)

/-- The proof data of the region on core `c`: the arrays as the region finds them; after the body each input's buffer
    still holds its block and the output's holds `outY` of the six input blocks; the invariant between points is the
    scoped rest and the generator register, untouched; nothing owed. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outY (blk V c 0 t) (blk V c 1 t) (blk V c 2 t) (blk V c 3 t) (blk V c 4 t) (blk V c 5 t)
  Φ _ := Pipeline.ΦA spec3 c
  q _ := fullShare
  owed _ := 0

theorem A_eq (c : Dev nD) (w : Fin cfg3.W) : (dat V c).A w = V c (Pipeline.arrRef spec3 w) := by
  dsimp only [dat]
theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = blk V c 3 t := by dsimp only [dat]
theorem after_4 (c : Dev nD) (t : Fin cfg3.N) : (dat V c).after 4 t = blk V c 4 t := by dsimp only [dat]
theorem after_5 (c : Dev nD) (t : Fin cfg3.N) : (dat V c).after 5 t = blk V c 5 t := by dsimp only [dat]
theorem after_6 (c : Dev nD) (t : Fin cfg3.N) :
    (dat V c).after 6 t = outY (blk V c 0 t) (blk V c 1 t) (blk V c 2 t) (blk V c 3 t) (blk V c 4 t) (blk V c 5 t) := by dsimp only [dat]

theorem before_0 (c : Dev nD) (t : Fin cfg3.N) (d) : (dat V c).before 0 t d = blk V c 0 t :=
  before_in0_of V (dat V c) (A_eq V c 0) (after_0 V c) t d
theorem before_1 (c : Dev nD) (t : Fin cfg3.N) (d) : (dat V c).before 1 t d = blk V c 1 t :=
  before_in1_of V (dat V c) (A_eq V c 1) (after_1 V c) t d
theorem before_2 (c : Dev nD) (t : Fin cfg3.N) (d) : (dat V c).before 2 t d = blk V c 2 t :=
  before_in2_of V (dat V c) (A_eq V c 2) (after_2 V c) t d
theorem before_3 (c : Dev nD) (t : Fin cfg3.N) (d) : (dat V c).before 3 t d = blk V c 3 t :=
  before_in3_of V (dat V c) (A_eq V c 3) (after_3 V c) t d
theorem before_4 (c : Dev nD) (t : Fin cfg3.N) (d) : (dat V c).before 4 t d = blk V c 4 t :=
  before_in4_of V (dat V c) (A_eq V c 4) (after_4 V c) t d
theorem before_5 (c : Dev nD) (t : Fin cfg3.N) (d) : (dat V c).before 5 t d = blk V c 5 t :=
  before_in5_of V (dat V c) (A_eq V c 5) (after_5 V c) t d

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W3, bigSep_W3]
  exact sound_body V c t

end Cert.KernelIdeal.MlpC

end
-- ==== Proof.KI.Pool.lean ====
/-
  Region 4 of the idealized kernel program: the pooling head. Over the grid's 20 points the body adds, into an
  accumulator it carries from point to point, the product of the transposed one-hot row block with the point's row block
  (the first point zeroes the accumulator before adding); the last point stores, over the output, the logistic of the two
  dense layers applied to the accumulator scaled row by row.
  At a parameter `V` (what the core's buffers hold when the region is entered): the block of each window at a grid
  point, the accumulator after each point (`acc`), what the last point leaves in the output window's staging buffer
  (`headOut` of the last accumulator), the body's triple in the three cases of the point (first, last, neither), the proof
  data — its invariant between points holds the accumulator's buffer at `acc` — and the body obligation at every point.
-/
import proofs.«404197_j31937376813167_3_alg».proof.Proof.Gen.KernelIdeal.Launch
import proofs.«404197_j31937376813167_3_alg».proof.Proof.Gen.KernelIdeal.Skeleton
import proofs.«404197_j31937376813167_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`: the rectangle of the window's array (as the region finds it) that the
    point's index map selects. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole rectangles the body loads and stores through, one per shape. -/
abbrev r5k : Rect S5000x64 := Rect.unit (s := S5000x64) ![0, 0] S5000x64.size inb_S5000x64_S5000x64_0_0
abbrev r64 : Rect S64x64 := Rect.unit (s := S64x64) ![0, 0] S64x64.size inb_S64x64_S64x64_0_0
abbrev r64x1 : Rect S64x1 := Rect.unit (s := S64x1) ![0, 0] S64x1.size inb_S64x1_S64x1_0_0
abbrev r64x32 : Rect S64x32 := Rect.unit (s := S64x32) ![0, 0] S64x32.size inb_S64x32_S64x32_0_0
abbrev r1x32 : Rect S1x32 := Rect.unit (s := S1x32) ![0, 0] S1x32.size inb_S1x32_S1x32_0_0
abbrev r32x1 : Rect S32x1 := Rect.unit (s := S32x1) ![0, 0] S32x1.size inb_S32x1_S32x1_0_0
abbrev r1x1 : Rect S1x1 := Rect.unit (s := S1x1) ![0, 0] S1x1.size inb_S1x1_S1x1_0_0

/-- The accumulator as the first point resets it: all zeros. -/
def accZero : Vec F S64x64 .f32 := View.canon [⟨r64, k4_pay1 (F := F)⟩]

/-- One accumulation: the accumulator `a` plus the product of the transposed one-hot row block `oh` with the row
    block `h`. -/
def accStep (oh : Vec F S5000x64 .bf16) (h : Vec F S5000x64 .f32) (a : Vec F S64x64 .f32) : Vec F S64x64 .f32 :=
  View.canon [⟨r64, k4_pay2 (View.ld oh r5k) (View.ld h r5k) (View.ld a r64)⟩]

/-- The head: the logistic of the two dense layers over the accumulator scaled row by row by `x3`. -/
def headOut (a : Vec F S64x64 .f32) (x3 : Vec F S64x1 .f32) (x4 : Vec F S64x32 .f32) (x5 : Vec F S1x32 .f32)
    (x6 : Vec F S32x1 .f32) (x7 : Vec F S1x1 .f32) : Vec F S64x1 .f32 :=
  View.canon [⟨r64x1, k4_pay3 (View.ld a r64) (View.ld x3 r64x1) (View.ld x4 r64x32) (View.ld x5 r1x32) (View.ld x6 r32x1) (View.ld x7 r1x1)⟩]

/-- The grid point numbered `n` (modulo the grid's 20 points). -/
def pt (n : ℕ) : Fin cfg4.N := ⟨n % 20, lt_of_lt_of_eq (Nat.mod_lt n (by decide)) N_4.symm⟩

theorem pt_val (t : Fin cfg4.N) : pt t.val = t :=
  Fin.ext (Nat.mod_eq_of_lt (lt_of_lt_of_eq t.isLt N_4))

/-- The accumulator after point `n`: the zero matrix plus the products of the points `0 … n`, in that order. -/
def acc (c : Dev nD) : ℕ → Vec F S64x64 .f32
  | 0 => accStep (blk V c 1 (pt 0)) (blk V c 0 (pt 0)) accZero
  | n + 1 => accStep (blk V c 1 (pt (n + 1))) (blk V c 0 (pt (n + 1))) (acc c n)

/-- The accumulator's buffer, whole. -/
abbrev scM : Memref sig .tc .vmem S64x64 .f32 := Memref.whole cc4_scratch0

/-- The invariant before point `n`: the accumulator's buffer — after the first point at `acc (n - 1)`, before it at
    anything —, the other scoped buffers, the generator register. -/
def Φat (c : Dev nD) (n : ℕ) : sProp 𝕄 :=
  iprop((iprop(∃ X, ⌜n ≠ 0 → X = acc V c (n - 1)⌝ ∗ owns (c : Thread nD τ) scM fullShare X)
      ∗ Pipeline.scopedRestBut (Ix := Unit) (Name := ℕ) (U := UR sig nD τ) (Lvl := ℕ) (Val := Elt F) spec4 c [cc4_scratch0])
    ∗ ∃ r, prngReg c r)

/-- The proof data of the region on core `c`: the arrays as the region finds them; after the body each input's buffer
    still holds its block; the output's buffer, where the body stores into it, holds the head of the last accumulator;
    the invariant between points carries the accumulator; nothing owed. -/
def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => headOut (acc V c 19) (blk V c 2 t) (blk V c 3 t) (blk V c 4 t) (blk V c 5 t) (blk V c 6 t)
  Φ j := Φat V c j.val
  q _ := fullShare
  owed _ := 0

theorem A_eq (c : Dev nD) (w : Fin cfg4.W) : (dat V c).A w = V c (Pipeline.arrRef spec4 w) := by
  dsimp only [dat]
theorem after_0 (c : Dev nD) (t : Fin cfg4.N) : (dat V c).after 0 t = blk V c 0 t := by dsimp only [dat]
theorem after_1 (c : Dev nD) (t : Fin cfg4.N) : (dat V c).after 1 t = blk V c 1 t := by dsimp only [dat]
theorem after_2 (c : Dev nD) (t : Fin cfg4.N) : (dat V c).after 2 t = blk V c 2 t := by dsimp only [dat]
theorem after_3 (c : Dev nD) (t : Fin cfg4.N) : (dat V c).after 3 t = blk V c 3 t := by dsimp only [dat]
theorem after_4 (c : Dev nD) (t : Fin cfg4.N) : (dat V c).after 4 t = blk V c 4 t := by dsimp only [dat]
theorem after_5 (c : Dev nD) (t : Fin cfg4.N) : (dat V c).after 5 t = blk V c 5 t := by dsimp only [dat]
theorem after_6 (c : Dev nD) (t : Fin cfg4.N) : (dat V c).after 6 t = blk V c 6 t := by dsimp only [dat]
theorem after_7 (c : Dev nD) (t : Fin cfg4.N) :
    (dat V c).after 7 t = headOut (acc V c 19) (blk V c 2 t) (blk V c 3 t) (blk V c 4 t) (blk V c 5 t) (blk V c 6 t) := by dsimp only [dat]

/-- The first condition of the body (the point is the first), as a proposition over the coordinates. -/
abbrev cond1 (i : grid4.Coords) : Prop := (Scalar.cmpi .ne (Scalar.extui (Scalar.cmpi .eq (BitVec.ofNat 32 (i 0).val) 0#32)) 0#32) = 1#1
/-- The second condition (the point is the last). -/
abbrev cond2 (i : grid4.Coords) : Prop := k4_cond2 i = 1#1

/-- The first condition holds at point 0 only; the second at point 19 only: decided over the grid. -/
theorem hcond1 : ∀ t : Fin cfg4.N, cond1 (grid4.coords t) ↔ t.val = 0 :=
  (by decide +kernel : ∀ t : Fin grid4.N, cond1 (grid4.coords t) ↔ t.val = 0)
theorem hcond2 : ∀ t : Fin cfg4.N, cond2 (grid4.coords t) ↔ t.val = 19 :=
  (by decide +kernel : ∀ t : Fin grid4.N, cond2 (grid4.coords t) ↔ t.val = 19)

/-- One store through the whole rectangle covers the buffer. -/
theorem cover64 (p0 : Vec F S64x64 .f32) (y : S64x64.Idx) :
    ∃ pc ∈ ([⟨r64, p0⟩] : List (View.Piece (Elt F) S64x64 .f32)), y ∈ pc.1.set :=
  View.cover_of_tiled [⟨r64, p0⟩] S64x64.size (by rfl) y
theorem cover64x1 (p0 : Vec F S64x1 .f32) (y : S64x1.Idx) :
    ∃ pc ∈ ([⟨r64x1, p0⟩] : List (View.Piece (Elt F) S64x1 .f32)), y ∈ pc.1.set :=
  View.cover_of_tiled [⟨r64x1, p0⟩] S64x1.size (by rfl) y

set_option maxHeartbeats 2000000 in
/-- The body at the first point: the accumulator's buffer, found at anything, is zeroed and ends at the first
    accumulation; the inputs and the output's buffer are handed back as found. -/
theorem sound_first (c : Dev nD) (E : Set ℕ) (i : grid4.Coords) (hc1 : cond1 i) (hc2 : ¬cond2 i)
    (arg1 : Memref sig .tc .vmem S5000x64 .f32) (harg1 : arg1.IsWhole) (arg2 : Memref sig .tc .vmem S5000x64 .bf16) (harg2 : arg2.IsWhole)
    (arg3 : Memref sig .tc .vmem S64x1 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S32x1 .f32) (harg6 : arg6.IsWhole)
    (arg7 : Memref sig .tc .vmem S1x1 .f32) (harg7 : arg7.IsWhole) (arg8 : Memref sig .tc .vmem S64x1 .f32) (harg8 : arg8.IsWhole)
    (arg9 : Memref sig .tc .vmem S64x64 .f32) (harg9 : arg9.IsWhole)
    (x1 : Vec F S5000x64 .f32) (x2 : Vec F S5000x64 .bf16) (x3 : Vec F S64x1 .f32) (x4 : Vec F S64x32 .f32) (x5 : Vec F S1x32 .f32)
    (x6 : Vec F S32x1 .f32) (x7 : Vec F S1x1 .f32) (x8 : Vec F S64x1 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d)
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare (accStep x2 x1 accZero)) -∗ K ⟨⟩))
      ⊢ wp frame (wpE (defs₀ (F := F)) Variants.none c none) E (cc4__pool_head_kernel i arg1 harg1 arg2 harg2 arg3 harg3 arg4 harg4 arg5 harg5 arg6 harg6 arg7 harg7 arg8 harg8 arg9 harg9) K := by
  simp only [cc4__pool_head_kernel_eq_skeleton]; unfold cc4__pool_head_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1; subst hf2; subst hf3; subst hf4; subst hf5; subst hf6; subst hf7; subst hf8
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  unfold sound_first.sl.v9 sound_first.sl.H9_1
  rw [View.readCov_eq_canon_ld _ _ r64 (cover64 _), View.writes_cons_drop _ _ _ r64 _ [] (fun y hy => hy)]
  exact View.read_writes_eq_canon _ _ _ (cover64 _)

set_option maxHeartbeats 2000000 in
/-- The body at a point neither first nor last: the accumulator's buffer, found at `a`, ends one accumulation on. -/
theorem sound_mid (c : Dev nD) (E : Set ℕ) (i : grid4.Coords) (hc1 : ¬cond1 i) (hc2 : ¬cond2 i)
    (arg1 : Memref sig .tc .vmem S5000x64 .f32) (harg1 : arg1.IsWhole) (arg2 : Memref sig .tc .vmem S5000x64 .bf16) (harg2 : arg2.IsWhole)
    (arg3 : Memref sig .tc .vmem S64x1 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S32x1 .f32) (harg6 : arg6.IsWhole)
    (arg7 : Memref sig .tc .vmem S1x1 .f32) (harg7 : arg7.IsWhole) (arg8 : Memref sig .tc .vmem S64x1 .f32) (harg8 : arg8.IsWhole)
    (arg9 : Memref sig .tc .vmem S64x64 .f32) (harg9 : arg9.IsWhole)
    (x1 : Vec F S5000x64 .f32) (x2 : Vec F S5000x64 .bf16) (x3 : Vec F S64x1 .f32) (x4 : Vec F S64x32 .f32) (x5 : Vec F S1x32 .f32)
    (x6 : Vec F S32x1 .f32) (x7 : Vec F S1x1 .f32) (x8 : Vec F S64x1 .f32) (a : Vec F S64x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare a
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare (accStep x2 x1 a)) -∗ K ⟨⟩))
      ⊢ wp frame (wpE (defs₀ (F := F)) Variants.none c none) E (cc4__pool_head_kernel i arg1 harg1 arg2 harg2 arg3 harg3 arg4 harg4 arg5 harg5 arg6 harg6 arg7 harg7 arg8 harg8 arg9 harg9) K := by
  simp only [cc4__pool_head_kernel_eq_skeleton]; unfold cc4__pool_head_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1; subst hf2; subst hf3; subst hf4; subst hf5; subst hf6; subst hf7; subst hf8; subst hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover64 _)

set_option maxHeartbeats 2000000 in
/-- The body at the last point: one more accumulation, then the head of the accumulator stored over the output's buffer. -/
theorem sound_last (c : Dev nD) (E : Set ℕ) (i : grid4.Coords) (hc1 : ¬cond1 i) (hc2 : cond2 i)
    (arg1 : Memref sig .tc .vmem S5000x64 .f32) (harg1 : arg1.IsWhole) (arg2 : Memref sig .tc .vmem S5000x64 .bf16) (harg2 : arg2.IsWhole)
    (arg3 : Memref sig .tc .vmem S64x1 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S32x1 .f32) (harg6 : arg6.IsWhole)
    (arg7 : Memref sig .tc .vmem S1x1 .f32) (harg7 : arg7.IsWhole) (arg8 : Memref sig .tc .vmem S64x1 .f32) (harg8 : arg8.IsWhole)
    (arg9 : Memref sig .tc .vmem S64x64 .f32) (harg9 : arg9.IsWhole)
    (x1 : Vec F S5000x64 .f32) (x2 : Vec F S5000x64 .bf16) (x3 : Vec F S64x1 .f32) (x4 : Vec F S64x32 .f32) (x5 : Vec F S1x32 .f32)
    (x6 : Vec F S32x1 .f32) (x7 : Vec F S1x1 .f32) (a : Vec F S64x64 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d) ∗ owns (c : Thread nD τ) arg9 fullShare a
        ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare (headOut (accStep x2 x1 a) x3 x4 x5 x6 x7)
            ∗ owns (c : Thread nD τ) arg9 fullShare (accStep x2 x1 a)) -∗ K ⟨⟩))
      ⊢ wp frame (wpE (defs₀ (F := F)) Variants.none c none) E (cc4__pool_head_kernel i arg1 harg1 arg2 harg2 arg3 harg3 arg4 harg4 arg5 harg5 arg6 harg6 arg7 harg7 arg8 harg8 arg9 harg9) K := by
  simp only [cc4__pool_head_kernel_eq_skeleton]; unfold cc4__pool_head_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1; subst hf2; subst hf3; subst hf4; subst hf5; subst hf6; subst hf7; subst hf9
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    unfold sound_last.sl.v17 sound_last.sl.H9_1
    rw [View.readCov_eq_canon_ld _ _ r64 (cover64 _)]
    exact View.read_writes_eq_canon _ _ _ (cover64x1 _)
  iexists _; isplitr
  swap; · iexact H9
  ipureintro
  unfold sound_last.sl.H9_1
  exact View.read_writes_eq_canon _ _ _ (cover64 _)

/-- An input window's staging buffer holds the point's block whether or not the point fetched it: an unfetched
    window's index has not moved since the fetch. -/
theorem before_0 (c : Dev nD) (t : Fin cfg4.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg4.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg4.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg4.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg4.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg4.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)
theorem before_6 (c : Dev nD) (t : Fin cfg4.N) (d) : (dat V c).before 6 t d = blk V c 6 t :=
  ((dat V c).before_in_eq_fetched 6 rfl (fun _ => rfl) (fun _ _ _ => rfl) (fun t => by rw [after_6]; unfold Dat.blockOf blk; rw [A_eq]; try rfl) t d).trans
    (by unfold Dat.fetched Dat.blockOf blk; rw [A_eq]; try rfl)

/-- The accumulator's recursion, at the first point and after it. -/
theorem acc_zero (c : Dev nD) : acc V c 0 = accStep (blk V c 1 (pt 0)) (blk V c 0 (pt 0)) accZero := rfl
theorem acc_succ (c : Dev nD) (n : ℕ) :
    acc V c (n + 1) = accStep (blk V c 1 (pt (n + 1))) (blk V c 0 (pt (n + 1))) (acc V c n) := rfl

theorem acc_at_first (c : Dev nD) (t : Fin cfg4.N) (h0 : t.val = 0) :
    acc V c t.val = accStep (blk V c 1 t) (blk V c 0 t) accZero := by
  have ht : pt 0 = t := by rw [← h0]; exact pt_val t
  rw [h0, acc_zero, ht]

theorem acc_at_pos (c : Dev nD) (t : Fin cfg4.N) (h0 : t.val ≠ 0) :
    acc V c t.val = accStep (blk V c 1 t) (blk V c 0 t) (acc V c (t.val - 1)) := by
  obtain ⟨n, hn⟩ : ∃ n, t.val = n + 1 := Nat.exists_eq_succ_of_ne_zero h0
  have ht : pt (n + 1) = t := by rw [← hn]; exact pt_val t
  rw [hn, acc_succ, ht, Nat.add_sub_cancel]

/-- Where the second condition fails the output window is idle and not written back; where it holds the window is live. -/
theorem idle7 : ∀ t : Fin cfg4.N, ¬cond2 (grid4.coords t) → cfg4.idle 7 (grid4.coords t) = true := by decide +kernel
theorem noflush7 : ∀ t : Fin cfg4.N, ¬cond2 (grid4.coords t) → (cfg4.win 7).flush t = false := by decide +kernel
theorem live7 : ∀ t : Fin cfg4.N, cond2 (grid4.coords t) → cfg4.idle 7 (grid4.coords t) = false := by decide +kernel

/-- The accumulator's buffer at some contents, as a memref owned or as a points-to: the same. -/
theorem scratch_eq (c : Dev nD) :
    (iprop(∃ f : Buf (Elt F) ((c : Thread nD τ).loc cc4_scratch0), ((c : Thread nD τ).loc cc4_scratch0) ↦{fullShare} f) : sProp 𝕄)
      = iprop(∃ X, owns (c : Thread nD τ) scM fullShare X) := by
  simp only [scM, owns_whole]; try rfl

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d))
    ∗ (∃ d, owns (c : Thread nD τ) (st4_7 t) fullShare ((dat V c).before 7 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t)
    ∗ owns (c : Thread nD τ) (st4_6 t) fullShare ((dat V c).after 6 t)
    ∗ (dat V c).leavesExact 7 t)

set_option maxHeartbeats 4000000 in
/-- The body at any point, by the three cases of the point. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3, before_4, before_5, before_6]
  rw [show (dat V c).owesAt () t.succ = (dat V c).owesAt () t.castSucc from rfl,
    show (dat V c).Φ t.castSucc = Φat V c t.val from rfl,
    show (dat V c).Φ t.succ = Φat V c (t.val + 1) from rfl,
    after_0, after_1, after_2, after_3, after_4, after_5, after_6]
  unfold Φat
  have hN : t.val < 20 := lt_of_lt_of_eq t.isLt N_4
  by_cases h0 : t.val = 0
  · have hc1 : cond1 (grid4.coords t) := (hcond1 t).mpr h0
    have hc2 : ¬cond2 (grid4.coords t) := fun h => by have := (hcond2 t).mp h; omega
    rw [Dat.leavesExact_idle (dat V c) 7 t (idle7 t hc2) (noflush7 t hc2)]
    iintro ⟨⟨⟨⟨%X, -, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ _ hc1 hc2 _ _ _ _ _ _ _ _ _ _ _ _ _ _ _ _ _ _ (blk V c 0 t) (blk V c 1 t) (blk V c 2 t) (blk V c 3 t) (blk V c 4 t) (blk V c 5 t) (blk V c 6 t) ((dat V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexists _; iexact HS
    iintro ⟨H0, H1, H2, H3, H4, H5, H6, H7, HS⟩
    isplitl [HS HR Hg]
    · isplitl [HS HR]
      · isplitl [HS]
        · iexists _; isplitr
          swap; · iexact HS
          ipureintro; intro _
          rw [Nat.add_sub_cancel]; exact (acc_at_first V c t h0).symm
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h19 : t.val = 19
    · have hc1 : ¬cond1 (grid4.coords t) := fun h => h0 ((hcond1 t).mp h)
      have hc2 : cond2 (grid4.coords t) := (hcond2 t).mpr h19
      rw [show (dat V c).leavesExact 7 t = owns (c : Thread nD τ) (st4_7 t) fullShare ((dat V c).after 7 t) from by
        unfold Dat.leavesExact; rw [live7 t hc2], after_7,
        (congrArg (acc V c) h19).symm.trans (acc_at_pos V c t h0)]
      iintro ⟨⟨⟨⟨%X, %hX, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hX h0
      iapply (sound_last c Set.univ _ hc1 hc2 _ _ _ _ _ _ _ _ _ _ _ _ _ _ _ _ _ _ (blk V c 0 t) (blk V c 1 t) (blk V c 2 t) (blk V c 3 t) (blk V c 4 t) (blk V c 5 t) (blk V c 6 t) (acc V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]
          · iexists _; isplitr
            swap; · iexact HS
            ipureintro; intro _
            rw [Nat.add_sub_cancel]; exact (acc_at_pos V c t h0).symm
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1 (grid4.coords t) := fun h => h0 ((hcond1 t).mp h)
      have hc2 : ¬cond2 (grid4.coords t) := fun h => h19 ((hcond2 t).mp h)
      rw [Dat.leavesExact_idle (dat V c) 7 t (idle7 t hc2) (noflush7 t hc2)]
      iintro ⟨⟨⟨⟨%X, %hX, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain rfl := hX h0
      iapply (sound_mid c Set.univ _ hc1 hc2 _ _ _ _ _ _ _ _ _ _ _ _ _ _ _ _ _ _ (blk V c 0 t) (blk V c 1 t) (blk V c 2 t) (blk V c 3 t) (blk V c 4 t) (blk V c 5 t) (blk V c 6 t) ((dat V c).before 7 t d7) (acc V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]
          · iexists _; isplitr
            swap; · iexact HS
            ipureintro; intro _
            rw [Nat.add_sub_cancel]; exact (acc_at_pos V c t h0).symm
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point: the accumulator at anything. -/
theorem Φ_first (c : Dev nD) : (Pipeline.ΦA spec4 c : sProp 𝕄) ⊢ (dat V c).Φ 0 := by
  rw [show (dat V c).Φ 0 = Φat V c 0 from rfl]
  unfold Φat Pipeline.ΦA; rw [scopedRest4_split, scratch_eq]
  iintro ⟨⟨⟨%X, HS⟩, HR⟩, Hg⟩
  isplitl [HS HR]
  · isplitl [HS]
    · iexists X; isplitr
      · ipureintro; intro h; exact absurd rfl h
      iexact HS
    iexact HR
  iexact Hg

/-- After the last point the invariant gives back what the launch handed over: the accumulator's contents forgotten. -/
theorem Φ_last (c : Dev nD) : (dat V c).Φ (Fin.last cfg4.N) ⊢ (Pipeline.ΦA spec4 c : sProp 𝕄) := by
  rw [show (dat V c).Φ (Fin.last cfg4.N) = Φat V c (Fin.last cfg4.N).val from rfl]
  unfold Φat Pipeline.ΦA; rw [scopedRest4_split, scratch_eq]
  iintro ⟨⟨⟨%X, -, HS⟩, HR⟩, Hg⟩
  isplitl [HS HR]
  · isplitl [HS]
    · iexists X; iexact HS
    iexact HR
  iexact Hg

end Cert.KernelIdeal.Pool

end
-- ==== Proof.KI.Chain.lean ====
/-
  The contents of the core's buffers between two items of the idealized kernel program's @main: the launch memory, then
  after each host stretch the stretch's operations applied, then after each region the region's output array replaced by
  what its write-backs leave (each region's proof data taken at the contents the region is entered with).
-/
import proofs.«404197_j31937376813167_3_alg».proof.Proof.KI.Proj
import proofs.«404197_j31937376813167_3_alg».proof.Proof.KI.MlpA
import proofs.«404197_j31937376813167_3_alg».proof.Proof.KI.MlpB
import proofs.«404197_j31937376813167_3_alg».proof.Proof.KI.MlpC
import proofs.«404197_j31937376813167_3_alg».proof.Proof.KI.Pool
import proofs.«404197_j31937376813167_3_alg».proof.Proof.Gen.KernelIdeal.Regions

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- A core's buffers read at the TensorCore's references. -/
abbrev tcv (W : Dev nD → Valuation τ sig (Elt F)) : (c : Dev nD) → (b : Ref sig .tc) → Buf (Elt F) ((c : Thread nD τ).loc b) :=
  fun c b => W c b

abbrev W0 (c : Dev nD) : Valuation τ sig (Elt F) := fun b => m (c, b)
abbrev W1 (c : Dev nD) : Valuation τ sig (Elt F) := StableHlo.after hostOps0 (W0 m c)
/-- What region 0 leaves in its output array: the projected features. -/
def o2 (c : Dev nD) : Buf (Elt F) ((c : Thread nD τ).loc main_v4) := (Proj.dat (tcv (W1 m)) c).arrAt 2 cfg0.N
abbrev W2 (c : Dev nD) : Valuation τ sig (Elt F) := Function.update (W1 m c) main_v4 (o2 m c)
abbrev W3 (c : Dev nD) : Valuation τ sig (Elt F) := StableHlo.after hostOps1 (W2 m c)
/-- What region 1 leaves in its output array: the first layer's node features. -/
def o4 (c : Dev nD) : Buf (Elt F) ((c : Thread nD τ).loc main_v17) := (MlpA.dat (tcv (W3 m)) c).arrAt 5 cfg1.N
abbrev W4 (c : Dev nD) : Valuation τ sig (Elt F) := Function.update (W3 m c) main_v17 (o4 m c)
abbrev W5 (c : Dev nD) : Valuation τ sig (Elt F) := StableHlo.after hostOps2 (W4 m c)
/-- What region 2 leaves: the second layer's node features. -/
def o6 (c : Dev nD) : Buf (Elt F) ((c : Thread nD τ).loc main_v30) := (MlpB.dat (tcv (W5 m)) c).arrAt 6 cfg2.N
abbrev W6 (c : Dev nD) : Valuation τ sig (Elt F) := Function.update (W5 m c) main_v30 (o6 m c)
abbrev W7 (c : Dev nD) : Valuation τ sig (Elt F) := StableHlo.after hostOps3 (W6 m c)
/-- What region 3 leaves: the third layer's node features. -/
def o8 (c : Dev nD) : Buf (Elt F) ((c : Thread nD τ).loc main_v43) := (MlpC.dat (tcv (W7 m)) c).arrAt 6 cfg3.N
abbrev W8 (c : Dev nD) : Valuation τ sig (Elt F) := Function.update (W7 m c) main_v43 (o8 m c)
abbrev W9 (c : Dev nD) : Valuation τ sig (Elt F) := StableHlo.after hostOps4 (W8 m c)
/-- What region 4 leaves: the per-graph read-out. -/
def o10 (c : Dev nD) : Buf (Elt F) ((c : Thread nD τ).loc main_v62) := (Pool.dat (tcv (W9 m)) c).arrAt 7 cfg4.N
abbrev W10 (c : Dev nD) : Valuation τ sig (Elt F) := Function.update (W9 m c) main_v62 (o10 m c)

/-- The regions' outputs as the conditional frame's unknowns: read off the chain above. -/
def outs : Gen.Outs (F := F) := fun J r c =>
  match J with
  | 2 => W2 m c r
  | 4 => W4 m c r
  | 6 => W6 m c r
  | 8 => W8 m c r
  | 10 => W10 m c r
  | _ => m ((c : Thread nD τ).loc r)

theorem V1_eq (c : Dev nD) : Gen.V1 m c = W1 m c := rfl
theorem V2_eq (c : Dev nD) : Gen.V2 m (outs m) c = W2 m c := by
  show Function.update (Gen.V1 m c) main_v4 (W2 m c main_v4) = Function.update (W1 m c) main_v4 (o2 m c)
  rw [show W2 m c main_v4 = o2 m c from by show Function.update (W1 m c) main_v4 (o2 m c) main_v4 = o2 m c; simp only [Function.update_self]]
theorem V3_eq (c : Dev nD) : Gen.V3 m (outs m) c = W3 m c := by
  show StableHlo.after hostOps1 (Gen.V2 m (outs m) c) = _; rw [V2_eq]
theorem V4_eq (c : Dev nD) : Gen.V4 m (outs m) c = W4 m c := by
  show Function.update (Gen.V3 m (outs m) c) main_v17 (W4 m c main_v17) = Function.update (W3 m c) main_v17 (o4 m c)
  rw [V3_eq, show W4 m c main_v17 = o4 m c from by show Function.update (W3 m c) main_v17 (o4 m c) main_v17 = o4 m c; simp only [Function.update_self]]
theorem V5_eq (c : Dev nD) : Gen.V5 m (outs m) c = W5 m c := by
  show StableHlo.after hostOps2 (Gen.V4 m (outs m) c) = _; rw [V4_eq]
theorem V6_eq (c : Dev nD) : Gen.V6 m (outs m) c = W6 m c := by
  show Function.update (Gen.V5 m (outs m) c) main_v30 (W6 m c main_v30) = Function.update (W5 m c) main_v30 (o6 m c)
  rw [V5_eq, show W6 m c main_v30 = o6 m c from by show Function.update (W5 m c) main_v30 (o6 m c) main_v30 = o6 m c; simp only [Function.update_self]]
theorem V7_eq (c : Dev nD) : Gen.V7 m (outs m) c = W7 m c := by
  show StableHlo.after hostOps3 (Gen.V6 m (outs m) c) = _; rw [V6_eq]
theorem V8_eq (c : Dev nD) : Gen.V8 m (outs m) c = W8 m c := by
  show Function.update (Gen.V7 m (outs m) c) main_v43 (W8 m c main_v43) = Function.update (W7 m c) main_v43 (o8 m c)
  rw [V7_eq, show W8 m c main_v43 = o8 m c from by show Function.update (W7 m c) main_v43 (o8 m c) main_v43 = o8 m c; simp only [Function.update_self]]
theorem V9_eq (c : Dev nD) : Gen.V9 m (outs m) c = W9 m c := by
  show StableHlo.after hostOps4 (Gen.V8 m (outs m) c) = _; rw [V8_eq]
theorem V10_eq (c : Dev nD) : Gen.V10 m (outs m) c = W10 m c := by
  show Function.update (Gen.V9 m (outs m) c) main_v62 (W10 m c main_v62) = Function.update (W9 m c) main_v62 (o10 m c)
  rw [V9_eq, show W10 m c main_v62 = o10 m c from by show Function.update (W9 m c) main_v62 (o10 m c) main_v62 = o10 m c; simp only [Function.update_self]]

end Cert.KernelIdeal.Chain

end
-- ==== Proof.KI.Run.lean ====
/-
  The idealized kernel program's launch: @main as five kernel regions among host stretches, over the chain of buffer
  contents. From the five region records: the run with every buffer's final contents named, hence the frame claim and
  the value of the result buffer.
-/
import proofs.«404197_j31937376813167_3_alg».proof.Proof.KI.Proj
import proofs.«404197_j31937376813167_3_alg».proof.Proof.KI.MlpA
import proofs.«404197_j31937376813167_3_alg».proof.Proof.KI.MlpB
import proofs.«404197_j31937376813167_3_alg».proof.Proof.KI.MlpC
import proofs.«404197_j31937376813167_3_alg».proof.Proof.KI.Pool
import proofs.«404197_j31937376813167_3_alg».proof.Proof.Gen.KernelIdeal.Regions
import proofs.«404197_j31937376813167_3_alg».proof.Proof.KI.Chain

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen Cert.KernelIdeal.Chain

variable {F : FTy → Type} [FloatOps F]

local notation "𝕄" => MT nD τ sig Unit (Elt F) ℕ (UR sig nD τ) ℕ

variable (m : (ℓ : Loc nD τ sig) → Buf (Elt F) ℓ)

/-! ## The proof data family and what rides beside the buffers -/

/-- Every pipeline's proof data, each at its region's entry contents. -/
def pdats : (p : Fin 5) → (c : Dev nD) → Dat τ (Elt F) Unit ℕ (UR sig nD τ) ℕ (cfgs p) c
  | ⟨0, _⟩ => fun c => Proj.dat (tcv (W1 m)) c
  | ⟨1, _⟩ => fun c => MlpA.dat (tcv (W3 m)) c
  | ⟨2, _⟩ => fun c => MlpB.dat (tcv (W5 m)) c
  | ⟨3, _⟩ => fun c => MlpC.dat (tcv (W7 m)) c
  | ⟨4, _⟩ => fun c => Pool.dat (tcv (W9 m)) c

abbrev 𝒱₀ : Variants := Variants.none
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)

/-! ## Region 0 -/

theorem hrest0 (c : Dev nD) : ∀ b, b ∉ Finset.univ.image (Pipeline.arrRef spec0) → tcv (W2 m) c b = tcv (W1 m) c b := fun b hb =>
  Function.update_of_ne (StableHlo.devRef_ne_of_ne (fun e => hb (Finset.mem_image.mpr ⟨2, Finset.mem_univ _, e.symm⟩))) _ _

set_option maxHeartbeats 2000000 in
theorem hF0 (c : Dev nD) (w : Fin cfg0.W) : (pdats m 0 c).arrAt w cfg0.N = tcv (W2 m) c (Pipeline.arrRef spec0 w) :=
  match w with
  | ⟨0, _⟩ => (((pdats m 0 c).arrAt_in 0 rfl _).trans (Proj.A_eq (tcv (W1 m)) c 0)).trans
      (Function.update_of_ne (StableHlo.devRef_ne_of_ne (by decide)) _ _).symm
  | ⟨1, _⟩ => (((pdats m 0 c).arrAt_in 1 rfl _).trans (Proj.A_eq (tcv (W1 m)) c 1)).trans
      (Function.update_of_ne (StableHlo.devRef_ne_of_ne (by decide)) _ _).symm
  | ⟨2, _⟩ => by
      show o2 m c = Function.update (W1 m c) main_v4 (o2 m c) main_v4
      simp only [Function.update_self]

set_option backward.isDefEq.respectTransparency.types false in
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (tcv (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (tcv (W1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (tcv (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (tcv (W1 m) c) (tcv (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem hrest1 (c : Dev nD) : ∀ b, b ∉ Finset.univ.image (Pipeline.arrRef spec1) → tcv (W4 m) c b = tcv (W3 m) c b := fun b hb =>
  Function.update_of_ne (StableHlo.devRef_ne_of_ne (fun e => hb (Finset.mem_image.mpr ⟨5, Finset.mem_univ _, e.symm⟩))) _ _

set_option maxHeartbeats 2000000 in
theorem hF1 (c : Dev nD) (w : Fin cfg1.W) : (pdats m 1 c).arrAt w cfg1.N = tcv (W4 m) c (Pipeline.arrRef spec1 w) :=
  match w with
  | ⟨0, _⟩ => (((pdats m 1 c).arrAt_in 0 rfl _).trans (MlpA.A_eq (tcv (W3 m)) c 0)).trans
      (Function.update_of_ne (StableHlo.devRef_ne_of_ne (by decide)) _ _).symm
  | ⟨1, _⟩ => (((pdats m 1 c).arrAt_in 1 rfl _).trans (MlpA.A_eq (tcv (W3 m)) c 1)).trans
      (Function.update_of_ne (StableHlo.devRef_ne_of_ne (by decide)) _ _).symm
  | ⟨2, _⟩ => (((pdats m 1 c).arrAt_in 2 rfl _).trans (MlpA.A_eq (tcv (W3 m)) c 2)).trans
      (Function.update_of_ne (StableHlo.devRef_ne_of_ne (by decide)) _ _).symm
  | ⟨3, _⟩ => (((pdats m 1 c).arrAt_in 3 rfl _).trans (MlpA.A_eq (tcv (W3 m)) c 3)).trans
      (Function.update_of_ne (StableHlo.devRef_ne_of_ne (by decide)) _ _).symm
  | ⟨4, _⟩ => (((pdats m 1 c).arrAt_in 4 rfl _).trans (MlpA.A_eq (tcv (W3 m)) c 4)).trans
      (Function.update_of_ne (StableHlo.devRef_ne_of_ne (by decide)) _ _).symm
  | ⟨5, _⟩ => by
      show o4 m c = Function.update (W3 m c) main_v17 (o4 m c) main_v17
      simp only [Function.update_self]

set_option backward.isDefEq.respectTransparency.types false in
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (MlpA.body_obligation (tcv (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (tcv (W3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (tcv (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (tcv (W3 m) c) (tcv (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem hrest2 (c : Dev nD) : ∀ b, b ∉ Finset.univ.image (Pipeline.arrRef spec2) → tcv (W6 m) c b = tcv (W5 m) c b := fun b hb =>
  Function.update_of_ne (StableHlo.devRef_ne_of_ne (fun e => hb (Finset.mem_image.mpr ⟨6, Finset.mem_univ _, e.symm⟩))) _ _

set_option maxHeartbeats 2000000 in
theorem hF2 (c : Dev nD) (w : Fin cfg2.W) : (pdats m 2 c).arrAt w cfg2.N = tcv (W6 m) c (Pipeline.arrRef spec2 w) :=
  match w with
  | ⟨0, _⟩ => (((pdats m 2 c).arrAt_in 0 rfl _).trans (MlpB.A_eq (tcv (W5 m)) c 0)).trans
      (Function.update_of_ne (StableHlo.devRef_ne_of_ne (by decide)) _ _).symm
  | ⟨1, _⟩ => (((pdats m 2 c).arrAt_in 1 rfl _).trans (MlpB.A_eq (tcv (W5 m)) c 1)).trans
      (Function.update_of_ne (StableHlo.devRef_ne_of_ne (by decide)) _ _).symm
  | ⟨2, _⟩ => (((pdats m 2 c).arrAt_in 2 rfl _).trans (MlpB.A_eq (tcv (W5 m)) c 2)).trans
      (Function.update_of_ne (StableHlo.devRef_ne_of_ne (by decide)) _ _).symm
  | ⟨3, _⟩ => (((pdats m 2 c).arrAt_in 3 rfl _).trans (MlpB.A_eq (tcv (W5 m)) c 3)).trans
      (Function.update_of_ne (StableHlo.devRef_ne_of_ne (by decide)) _ _).symm
  | ⟨4, _⟩ => (((pdats m 2 c).arrAt_in 4 rfl _).trans (MlpB.A_eq (tcv (W5 m)) c 4)).trans
      (Function.update_of_ne (StableHlo.devRef_ne_of_ne (by decide)) _ _).symm
  | ⟨5, _⟩ => (((pdats m 2 c).arrAt_in 5 rfl _).trans (MlpB.A_eq (tcv (W5 m)) c 5)).trans
      (Function.update_of_ne (StableHlo.devRef_ne_of_ne (by decide)) _ _).symm
  | ⟨6, _⟩ => by
      show o6 m c = Function.update (W5 m c) main_v30 (o6 m c) main_v30
      simp only [Function.update_self]

set_option backward.isDefEq.respectTransparency.types false in
def reg2 : RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (MlpB.body_obligation (tcv (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (tcv (W5 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (tcv (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (tcv (W5 m) c) (tcv (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

theorem hrest3 (c : Dev nD) : ∀ b, b ∉ Finset.univ.image (Pipeline.arrRef spec3) → tcv (W8 m) c b = tcv (W7 m) c b := fun b hb =>
  Function.update_of_ne (StableHlo.devRef_ne_of_ne (fun e => hb (Finset.mem_image.mpr ⟨6, Finset.mem_univ _, e.symm⟩))) _ _

set_option maxHeartbeats 2000000 in
theorem hF3 (c : Dev nD) (w : Fin cfg3.W) : (pdats m 3 c).arrAt w cfg3.N = tcv (W8 m) c (Pipeline.arrRef spec3 w) :=
  match w with
  | ⟨0, _⟩ => (((pdats m 3 c).arrAt_in 0 rfl _).trans (MlpC.A_eq (tcv (W7 m)) c 0)).trans
      (Function.update_of_ne (StableHlo.devRef_ne_of_ne (by decide)) _ _).symm
  | ⟨1, _⟩ => (((pdats m 3 c).arrAt_in 1 rfl _).trans (MlpC.A_eq (tcv (W7 m)) c 1)).trans
      (Function.update_of_ne (StableHlo.devRef_ne_of_ne (by decide)) _ _).symm
  | ⟨2, _⟩ => (((pdats m 3 c).arrAt_in 2 rfl _).trans (MlpC.A_eq (tcv (W7 m)) c 2)).trans
      (Function.update_of_ne (StableHlo.devRef_ne_of_ne (by decide)) _ _).symm
  | ⟨3, _⟩ => (((pdats m 3 c).arrAt_in 3 rfl _).trans (MlpC.A_eq (tcv (W7 m)) c 3)).trans
      (Function.update_of_ne (StableHlo.devRef_ne_of_ne (by decide)) _ _).symm
  | ⟨4, _⟩ => (((pdats m 3 c).arrAt_in 4 rfl _).trans (MlpC.A_eq (tcv (W7 m)) c 4)).trans
      (Function.update_of_ne (StableHlo.devRef_ne_of_ne (by decide)) _ _).symm
  | ⟨5, _⟩ => (((pdats m 3 c).arrAt_in 5 rfl _).trans (MlpC.A_eq (tcv (W7 m)) c 5)).trans
      (Function.update_of_ne (StableHlo.devRef_ne_of_ne (by decide)) _ _).symm
  | ⟨6, _⟩ => by
      show o8 m c = Function.update (W7 m c) main_v43 (o8 m c) main_v43
      simp only [Function.update_self]

set_option backward.isDefEq.respectTransparency.types false in
def reg3 : RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (MlpC.body_obligation (tcv (W7 m)) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (tcv (W7 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (tcv (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (tcv (W7 m) c) (tcv (W8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4: the scratch accumulator enters and leaves through the region's invariant -/

theorem hrest4 (c : Dev nD) : ∀ b, b ∉ Finset.univ.image (Pipeline.arrRef spec4) → tcv (W10 m) c b = tcv (W9 m) c b := fun b hb =>
  Function.update_of_ne (StableHlo.devRef_ne_of_ne (fun e => hb (Finset.mem_image.mpr ⟨7, Finset.mem_univ _, e.symm⟩))) _ _

set_option maxHeartbeats 2000000 in
theorem hF4 (c : Dev nD) (w : Fin cfg4.W) : (pdats m 4 c).arrAt w cfg4.N = tcv (W10 m) c (Pipeline.arrRef spec4 w) :=
  match w with
  | ⟨0, _⟩ => (((pdats m 4 c).arrAt_in 0 rfl _).trans (Pool.A_eq (tcv (W9 m)) c 0)).trans
      (Function.update_of_ne (StableHlo.devRef_ne_of_ne (by decide)) _ _).symm
  | ⟨1, _⟩ => (((pdats m 4 c).arrAt_in 1 rfl _).trans (Pool.A_eq (tcv (W9 m)) c 1)).trans
      (Function.update_of_ne (StableHlo.devRef_ne_of_ne (by decide)) _ _).symm
  | ⟨2, _⟩ => (((pdats m 4 c).arrAt_in 2 rfl _).trans (Pool.A_eq (tcv (W9 m)) c 2)).trans
      (Function.update_of_ne (StableHlo.devRef_ne_of_ne (by decide)) _ _).symm
  | ⟨3, _⟩ => (((pdats m 4 c).arrAt_in 3 rfl _).trans (Pool.A_eq (tcv (W9 m)) c 3)).trans
      (Function.update_of_ne (StableHlo.devRef_ne_of_ne (by decide)) _ _).symm
  | ⟨4, _⟩ => (((pdats m 4 c).arrAt_in 4 rfl _).trans (Pool.A_eq (tcv (W9 m)) c 4)).trans
      (Function.update_of_ne (StableHlo.devRef_ne_of_ne (by decide)) _ _).symm
  | ⟨5, _⟩ => (((pdats m 4 c).arrAt_in 5 rfl _).trans (Pool.A_eq (tcv (W9 m)) c 5)).trans
      (Function.update_of_ne (StableHlo.devRef_ne_of_ne (by decide)) _ _).symm
  | ⟨6, _⟩ => (((pdats m 4 c).arrAt_in 6 rfl _).trans (Pool.A_eq (tcv (W9 m)) c 6)).trans
      (Function.update_of_ne (StableHlo.devRef_ne_of_ne (by decide)) _ _).symm
  | ⟨7, _⟩ => by
      show o10 m c = Function.update (W9 m c) main_v62 (o10 m c) main_v62
      simp only [Function.update_self]

set_option backward.isDefEq.respectTransparency.types false in
def reg4 : RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (Pool.body_obligation (tcv (W9 m)) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (tcv (W9 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (tcv (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Pool.Φ_first (tcv (W9 m)) c
    unfold Pipeline.ΦA at h
    rw [show (pdats m 4 c).Φ 0 = (Pool.dat (tcv (W9 m)) c).Φ 0 from rfl]
    iintro ⟨Hp, -, Hr⟩
    iapply h
    isplitl [Hr]; · iexact Hr
    iexact Hp
  hout c := by
    have h := Pool.Φ_last (tcv (W9 m)) c
    unfold Pipeline.ΦA at h
    rw [Pipeline.ownSems0_none, show (pdats m 4 c).Φ (Fin.last _) = (Pool.dat (tcv (W9 m)) c).Φ (Fin.last cfg4.N) from rfl]
    iintro Hf
    ihave H := h $$ Hf
    icases H with ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (tcv (W9 m) c) (tcv (W10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev E : Fin 6 → Dev nD → sProp 𝕄 := fun _ c => R c

variable (ρ : Dev nD → PrngReg)

/-- What the launch deals a core makes its first thread state: the unscoped buffers held at the launch memory; beside
    them the generator register at its launch state and nothing owed. -/
theorem init_core (c : Dev nD) :
    (iprop(unscopedBufs c (fun b => m ((c.tc : Thread nD τ).loc b)) ∗ unscopedSems0 c
        ∗ owes (c.tc : Thread nD τ) ((0 : Dev nD → CellTallies nD τ sig Unit) c) ∅ ∗ Pipeline.launchCred (0 : Dev nD → CellTallies nD τ sig Unit) c ∗ prngReg c (ρ c) ∗ iprop(emp)) : sProp 𝕄)
      ⊢ iprop(StableHlo.held (c : Thread nD τ) (Pipeline.ucRefs τ sig) (Gen.V0 m c) ∗ E 0 c) := by
  rw [← Pipeline.unscopedBufs_held (Ix := Unit) (Name := ℕ) (U := UR sig nD τ) (Lvl := ℕ) c (Gen.V0 m c)]
  iintro ⟨Hh, -, HO, -, Hp, -⟩
  isplitl [Hh]; · iexact Hh
  isplitl [Hp]; · iexists _; iexact Hp
  iexists ∅; iexact HO

set_option backward.isDefEq.respectTransparency.types false in
/-- THE RUN: from any memory with zero counters every weakly fair execution of @main terminates, nothing faulting, and in
    every final state each unscoped buffer of each core holds what the chain of contents ends with. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m) (reg3 m) (reg4 m))
    (fun c Q => by
      rewrite [main_chain c, Seg.run_eq_chain,
        show (Gen.segs m (outs m) 𝒱₀ L lv E () (pdats m) (reg0 m) (reg1 m) (reg2 m) (reg3 m) (reg4 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [Gen.segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V10 m (outs m) c))
    (hch := fun c => ⟨.rfl,
      .rfl,
      (show (reg0 m).post c ⊢ iprop(StableHlo.held (c : Thread nD τ) (Pipeline.ucRefs τ sig) (Gen.V2 m (outs m) c) ∗ E 1 c) from by rw [V2_eq]; exact .rfl),
      (show iprop(StableHlo.held (c : Thread nD τ) (Pipeline.ucRefs τ sig) (Gen.V3 m (outs m) c) ∗ E 1 c) ⊢ (reg1 m).pre c from by rw [V3_eq]; exact .rfl),
      (show (reg1 m).post c ⊢ iprop(StableHlo.held (c : Thread nD τ) (Pipeline.ucRefs τ sig) (Gen.V4 m (outs m) c) ∗ E 2 c) from by rw [V4_eq]; exact .rfl),
      (show iprop(StableHlo.held (c : Thread nD τ) (Pipeline.ucRefs τ sig) (Gen.V5 m (outs m) c) ∗ E 2 c) ⊢ (reg2 m).pre c from by rw [V5_eq]; exact .rfl),
      (show (reg2 m).post c ⊢ iprop(StableHlo.held (c : Thread nD τ) (Pipeline.ucRefs τ sig) (Gen.V6 m (outs m) c) ∗ E 3 c) from by rw [V6_eq]; exact .rfl),
      (show iprop(StableHlo.held (c : Thread nD τ) (Pipeline.ucRefs τ sig) (Gen.V7 m (outs m) c) ∗ E 3 c) ⊢ (reg3 m).pre c from by rw [V7_eq]; exact .rfl),
      (show (reg3 m).post c ⊢ iprop(StableHlo.held (c : Thread nD τ) (Pipeline.ucRefs τ sig) (Gen.V8 m (outs m) c) ∗ E 4 c) from by rw [V8_eq]; exact .rfl),
      (show iprop(StableHlo.held (c : Thread nD τ) (Pipeline.ucRefs τ sig) (Gen.V9 m (outs m) c) ∗ E 4 c) ⊢ (reg4 m).pre c from by rw [V9_eq]; exact .rfl),
      (show (reg4 m).post c ⊢ iprop(StableHlo.held (c : Thread nD τ) (Pipeline.ucRefs τ sig) (Gen.V10 m (outs m) c) ∗ ∃ W, owes (c : Thread nD τ) (0 : CellTallies nD τ sig Unit) W) from by
        rw [V10_eq]
        show iprop(StableHlo.held (c : Thread nD τ) (Pipeline.ucRefs τ sig) (W10 m c) ∗ R c) ⊢ _
        iintro ⟨Hh, -, HO⟩
        isplitl [Hh]; · iexact Hh
        iexact HO)⟩)
    (hinit := ?_) (QY := fun c s => ∀ b ∈ Pipeline.ucRefs τ sig, s.mem (((c : Thread nD τ)).1, b) = W10 m c b)
    (hfin := fun c s' => ?_) (hQ := fun _ h => h)
  · -- the launch: the unscoped buffers are held at the launch memory; beside them the generator register and nothing owed
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (bigSep Finset.univ fun c : Dev nD => iprop(StableHlo.held (c : Thread nD τ) (Pipeline.ucRefs τ sig) (Gen.V0 m c) ∗ E 0 c)
            : sProp 𝕄) :=
      bigSep_mono fun c _ => init_core m ρ c
    iintro ⟨H, -⟩
    imodintro
    iapply hsplit
    iexact H
  · -- the end: every unscoped buffer read off the last contents
    rw [V10_eq]
    unfold StableHlo.held
    iintro ⟨Hh, HSI⟩
    ihave Hr := (pointsTo_read_all (Pipeline.ucRefs τ sig) (fun b => ((c : Thread nD τ).1, b)) (W10 m c) s') $$ [Hh HSI]
    · isplitl [Hh] <;> iassumption
    icases Hr with ⟨%h, HSI⟩
    imodintro
    isplitr
    · ipureintro
      exact h
    · iexact HSI

/-- An argument's buffer at the end of the chain is the launch memory's: no host stretch writes it, no region changes it. -/
theorem W10_of_V10 (c : Dev nD) (b : Ref sig .tc) : W10 m c b = Gen.V10 m (outs m) c b := by rw [V10_eq]

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨((h c _ (mem_uc main_arg0 (by decide))).trans (W10_of_V10 m c main_arg0)).trans (Gen.V10_main_arg0 m (outs m) c),
     ((h c _ (mem_uc main_arg1 (by decide))).trans (W10_of_V10 m c main_arg1)).trans (Gen.V10_main_arg1 m (outs m) c),
     ((h c _ (mem_uc main_arg2 (by decide))).trans (W10_of_V10 m c main_arg2)).trans (Gen.V10_main_arg2 m (outs m) c),
     ((h c _ (mem_uc main_arg3 (by decide))).trans (W10_of_V10 m c main_arg3)).trans (Gen.V10_main_arg3 m (outs m) c),
     ((h c _ (mem_uc main_arg4 (by decide))).trans (W10_of_V10 m c main_arg4)).trans (Gen.V10_main_arg4 m (outs m) c),
     ((h c _ (mem_uc main_arg5 (by decide))).trans (W10_of_V10 m c main_arg5)).trans (Gen.V10_main_arg5 m (outs m) c),
     ((h c _ (mem_uc main_arg6 (by decide))).trans (W10_of_V10 m c main_arg6)).trans (Gen.V10_main_arg6 m (outs m) c),
     ((h c _ (mem_uc main_arg7 (by decide))).trans (W10_of_V10 m c main_arg7)).trans (Gen.V10_main_arg7 m (outs m) c),
     ((h c _ (mem_uc main_arg8 (by decide))).trans (W10_of_V10 m c main_arg8)).trans (Gen.V10_main_arg8 m (outs m) c),
     ((h c _ (mem_uc main_arg9 (by decide))).trans (W10_of_V10 m c main_arg9)).trans (Gen.V10_main_arg9 m (outs m) c),
     ((h c _ (mem_uc main_arg10 (by decide))).trans (W10_of_V10 m c main_arg10)).trans (Gen.V10_main_arg10 m (outs m) c),
     ((h c _ (mem_uc main_arg11 (by decide))).trans (W10_of_V10 m c main_arg11)).trans (Gen.V10_main_arg11 m (outs m) c),
     ((h c _ (mem_uc main_arg12 (by decide))).trans (W10_of_V10 m c main_arg12)).trans (Gen.V10_main_arg12 m (outs m) c),
     ((h c _ (mem_uc main_arg13 (by decide))).trans (W10_of_V10 m c main_arg13)).trans (Gen.V10_main_arg13 m (outs m) c),
     ((h c _ (mem_uc main_arg14 (by decide))).trans (W10_of_V10 m c main_arg14)).trans (Gen.V10_main_arg14 m (outs m) c),
     ((h c _ (mem_uc main_arg15 (by decide))).trans (W10_of_V10 m c main_arg15)).trans (Gen.V10_main_arg15 m (outs m) c),
     ((h c _ (mem_uc main_arg16 (by decide))).trans (W10_of_V10 m c main_arg16)).trans (Gen.V10_main_arg16 m (outs m) c),
     ((h c _ (mem_uc main_arg17 (by decide))).trans (W10_of_V10 m c main_arg17)).trans (Gen.V10_main_arg17 m (outs m) c),
     ((h c _ (mem_uc main_arg18 (by decide))).trans (W10_of_V10 m c main_arg18)).trans (Gen.V10_main_arg18 m (outs m) c)⟩)
    (run m ρ)

/-- The result buffer at the end: what region 4 leaves. -/
theorem result_eq (c : Dev nD) : W10 m c main_v62 = o10 m c := by
  show Function.update (W9 m c) main_v62 (o10 m c) main_v62 = _
  simp only [Function.update_self]

end Cert.KernelIdeal.Run

end
-- ==== Proof.KI.Result.lean ====
/-
  The idealized kernel program's run with its result buffer named and its arguments unchanged.
-/
import proofs.«404197_j31937376813167_3_alg».proof.Proof.KI.Run

noncomputable section

namespace Cert.KernelIdeal.Result

open Idealize.ShloMosaic Idealize.ShloMosaic.TcCoe Idealize.SL.Sem
open Cert.KernelIdeal Cert.KernelIdeal.Gen Cert.KernelIdeal.Chain Cert.KernelIdeal.Run

variable {F : FTy → Type} [FloatOps F]
variable (m : (ℓ : Loc nD τ sig) → Buf (Elt F) ℓ) (ρ : Dev nD → PrngReg)

/-- Every weakly fair execution terminates; the result buffer ends at what region 4 leaves, the arguments as launched. -/
theorem run_result : θ_run defs (onTc (τ := τ) (main (F := F))) ⟨m, fun _ => 0, ρ⟩ (fun r => ∀ c : Dev nD,
      r.2.mem ((c.tc : Thread nD τ).loc main_v62) = o10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v62 (by decide))).trans (result_eq m c),
     ((h c _ (mem_uc main_arg0 (by decide))).trans (W10_of_V10 m c main_arg0)).trans (Gen.V10_main_arg0 m (outs m) c),
     ((h c _ (mem_uc main_arg1 (by decide))).trans (W10_of_V10 m c main_arg1)).trans (Gen.V10_main_arg1 m (outs m) c),
     ((h c _ (mem_uc main_arg2 (by decide))).trans (W10_of_V10 m c main_arg2)).trans (Gen.V10_main_arg2 m (outs m) c),
     ((h c _ (mem_uc main_arg3 (by decide))).trans (W10_of_V10 m c main_arg3)).trans (Gen.V10_main_arg3 m (outs m) c),
     ((h c _ (mem_uc main_arg4 (by decide))).trans (W10_of_V10 m c main_arg4)).trans (Gen.V10_main_arg4 m (outs m) c),
     ((h c _ (mem_uc main_arg5 (by decide))).trans (W10_of_V10 m c main_arg5)).trans (Gen.V10_main_arg5 m (outs m) c),
     ((h c _ (mem_uc main_arg6 (by decide))).trans (W10_of_V10 m c main_arg6)).trans (Gen.V10_main_arg6 m (outs m) c),
     ((h c _ (mem_uc main_arg7 (by decide))).trans (W10_of_V10 m c main_arg7)).trans (Gen.V10_main_arg7 m (outs m) c),
     ((h c _ (mem_uc main_arg8 (by decide))).trans (W10_of_V10 m c main_arg8)).trans (Gen.V10_main_arg8 m (outs m) c),
     ((h c _ (mem_uc main_arg9 (by decide))).trans (W10_of_V10 m c main_arg9)).trans (Gen.V10_main_arg9 m (outs m) c),
     ((h c _ (mem_uc main_arg10 (by decide))).trans (W10_of_V10 m c main_arg10)).trans (Gen.V10_main_arg10 m (outs m) c),
     ((h c _ (mem_uc main_arg11 (by decide))).trans (W10_of_V10 m c main_arg11)).trans (Gen.V10_main_arg11 m (outs m) c),
     ((h c _ (mem_uc main_arg12 (by decide))).trans (W10_of_V10 m c main_arg12)).trans (Gen.V10_main_arg12 m (outs m) c),
     ((h c _ (mem_uc main_arg13 (by decide))).trans (W10_of_V10 m c main_arg13)).trans (Gen.V10_main_arg13 m (outs m) c),
     ((h c _ (mem_uc main_arg14 (by decide))).trans (W10_of_V10 m c main_arg14)).trans (Gen.V10_main_arg14 m (outs m) c),
     ((h c _ (mem_uc main_arg15 (by decide))).trans (W10_of_V10 m c main_arg15)).trans (Gen.V10_main_arg15 m (outs m) c),
     ((h c _ (mem_uc main_arg16 (by decide))).trans (W10_of_V10 m c main_arg16)).trans (Gen.V10_main_arg16 m (outs m) c),
     ((h c _ (mem_uc main_arg17 (by decide))).trans (W10_of_V10 m c main_arg17)).trans (Gen.V10_main_arg17 m (outs m) c),
     ((h c _ (mem_uc main_arg18 (by decide))).trans (W10_of_V10 m c main_arg18)).trans (Gen.V10_main_arg18 m (outs m) c)⟩)
    (run m ρ)

end Cert.KernelIdeal.Result

end
-- ==== Proof.Spec.lean ====
/-
  The network's layers as functions of arrays over the extended reals, index by index: what both programs compute.
  A matrix is a function on the index type of a rank-2 shape of literal extents.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An `n × k` array of extended reals. -/
abbrev Mat (n k : ℕ) : Type := (⟨2, ![n, k]⟩ : Shape).Idx → EReal
/-- A vector of `k` extended reals. -/
abbrev Vc (k : ℕ) : Type := (⟨1, ![k]⟩ : Shape).Idx → EReal

/-- Rows times a weight matrix: `(a · w)[r, j] = ∑ q, a[r, q] · w[q, j]`. -/
def mm {n k j : ℕ} (a : Mat n k) (w : Mat k j) : Mat n j :=
  fun i => ∑ q : Fin k, a (ix2 (i 0) q) * w (ix2 q (i 1))

/-- Entrywise sum of two arrays. -/
def add {n k : ℕ} (a b : Mat n k) : Mat n k := fun i => a i + b i

/-- A `1 × k` row added to every row. -/
def addRow {n k : ℕ} (a : Mat n k) (b : Mat 1 k) : Mat n k := fun i => a i + b (ix2 0 (i 1))

/-- A vector laid out as a single row. -/
def row {k : ℕ} (b : Vc k) : Mat 1 k := fun i => b (ix1 (i 1))

/-- A vector laid out as a single column. -/
def col {k : ℕ} (b : Vc k) : Mat k 1 := fun i => b (ix1 (i 0))

/-- The positive part, entrywise. -/
def relu {n k : ℕ} (a : Mat n k) : Mat n k := fun i => max (a i) 0

/-- The first layer's node update once the projection has been applied before aggregation:
    `relu (relu ((y + s) + b₁) · W₂ + b₂)`. -/
def mlpSkip {n : ℕ} (y s : Mat n 64) (b1 : Mat 1 64) (w2 : Mat 64 64) (b2 : Mat 1 64) : Mat n 64 :=
  relu (addRow (mm (relu (addRow (add y s) b1)) w2) b2)

/-- A later layer's node update before the optional outer positive part:
    `relu ((h + s) · W₁ + b₁) · W₂ + b₂`. -/
def mlpFull {n k : ℕ} (h s : Mat n k) (w1 : Mat k 64) (b1 : Mat 1 64) (w2 : Mat 64 64) (b2 : Mat 1 64) : Mat n 64 :=
  addRow (mm (relu (addRow (mm (add h s) w1) b1)) w2) b2

/-- Per-graph sums through a membership matrix: `pool[g, j] = ∑ r, e[r, g] · h[r, j]`. -/
def pool {n : ℕ} (e : Mat n 64) (h : Mat n 64) : Mat 64 64 :=
  fun i => ∑ r : Fin n, e (ix2 r (i 0)) * h (ix2 r (i 1))

/-- The read-out: `σ (((p ∘ c) · W₁ + b₁) · W₂ + b₂)` with `c` a column scaling each row of `p`. -/
def head (p : Mat 64 64) (c : Mat 64 1) (w1 : Mat 64 32) (b1 : Mat 1 32) (w2 : Mat 32 1) (b2 : Mat 1 1) : Mat 64 1 :=
  fun i => Ideal.logistic (addRow (mm (addRow (mm (fun j => p j * c (ix2 (j 0) 0)) w1) b1) w2) b2 i)

end Cert.Spec

end
-- ==== Proof.KI.ProjVal.lean ====
/-
  Region 0 of the idealized kernel program, read as values over the extended reals: the array the region's output
  window ends holding is the product of the 100000 x 128 array of rows with the 128 x 64 weight matrix, index by index.
  The body's arithmetic at an index of a block; each input block read where the output's rectangle says; the blocks of
  the twenty points cover the rows.
-/
import proofs.«404197_j31937376813167_3_alg».proof.Proof.KI.Proj
import proofs.«404197_j31937376813167_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.ProjVal

open Idealize.ShloMosaic Idealize.ShloMosaic.TcCoe Idealize.ShloMosaic.ValueIdx
open Idealize.ShloMosaic.Pipeline (Dat Cfg Window)
open Cert.KernelIdeal Cert.KernelIdeal.Gen

/-! ## The product of a block of rows with the weights, at an index -/

/-- The left operand's row coordinate is the result's row. -/
theorem lhs_dot_S5000x128_S128x64_S5000x64_1_0_0_1_n_n_0 (j : S5000x64.Idx) (k : dot_S5000x128_S128x64_S5000x64_1_0_0_1_n_n.contr.Idx) :
    (dot_S5000x128_S128x64_S5000x64_1_0_0_1_n_n.lhsIdx j k (0 : Fin 2)).val = (j (0 : Fin 2)).val := by
  simp [DotDims.lhsIdx, dot_S5000x128_S128x64_S5000x64_1_0_0_1_n_n]; rfl

/-- The left operand's column coordinate is the contraction position. -/
theorem lhs_dot_S5000x128_S128x64_S5000x64_1_0_0_1_n_n_1 (j : S5000x64.Idx) (k : dot_S5000x128_S128x64_S5000x64_1_0_0_1_n_n.contr.Idx) :
    (dot_S5000x128_S128x64_S5000x64_1_0_0_1_n_n.lhsIdx j k (1 : Fin 2)).val = (k ⟨0, by decide⟩).val :=
  DotDims.lhsIdx_val_of_single dot_S5000x128_S128x64_S5000x64_1_0_0_1_n_n rfl j k

/-- The right operand's row coordinate is the contraction position. -/
theorem rhs_dot_S5000x128_S128x64_S5000x64_1_0_0_1_n_n_0 (j : S5000x64.Idx) (k : dot_S5000x128_S128x64_S5000x64_1_0_0_1_n_n.contr.Idx) :
    (dot_S5000x128_S128x64_S5000x64_1_0_0_1_n_n.rhsIdx j k (0 : Fin 2)).val = (k ⟨0, by decide⟩).val :=
  DotDims.rhsIdx_val_of_single dot_S5000x128_S128x64_S5000x64_1_0_0_1_n_n rfl j k

/-- The right operand's column coordinate is the result's column. -/
theorem rhs_dot_S5000x128_S128x64_S5000x64_1_0_0_1_n_n_1 (j : S5000x64.Idx) (k : dot_S5000x128_S128x64_S5000x64_1_0_0_1_n_n.contr.Idx) :
    (dot_S5000x128_S128x64_S5000x64_1_0_0_1_n_n.rhsIdx j k (1 : Fin 2)).val = (j (1 : Fin 2)).val := by
  simp [DotDims.rhsIdx, dot_S5000x128_S128x64_S5000x64_1_0_0_1_n_n]; rfl

/-- A block of rows times the weights, into the zero splat, read at row p and column q: the sum over the 128 shared
    positions of the products. -/
theorem matmul_5000x128_128x64_apply {φ₁ φ₂ : FTy} (a : FVec Ideal S5000x128 φ₁) (w : FVec Ideal S128x64 φ₂) (p : Fin 5000) (q : Fin 64) :
    matmul dot_S5000x128_S128x64_S5000x64_1_0_0_1_n_n none a w (constant (F := Ideal) S5000x64 .f32 0x00000000#32) (ix2 p q)
      = ∑ k : Fin 128, a (ix2 p k) * w (ix2 k q) := by
  refine (Ideal.matmul_constant_zero_apply dot_S5000x128_S128x64_S5000x64_1_0_0_1_n_n none a w (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have hl : dot_S5000x128_S128x64_S5000x64_1_0_0_1_n_n.lhsIdx (ix2 p q) ((contrEquiv1 dot_S5000x128_S128x64_S5000x64_1_0_0_1_n_n 128 rfl rfl).symm k) = ix2 p k := by
    funext ax; apply Fin.ext
    match ax with
    | ⟨0, _⟩ => exact lhs_dot_S5000x128_S128x64_S5000x64_1_0_0_1_n_n_0 _ _
    | ⟨1, _⟩ => exact (lhs_dot_S5000x128_S128x64_S5000x64_1_0_0_1_n_n_1 _ _).trans hk
  have hr : dot_S5000x128_S128x64_S5000x64_1_0_0_1_n_n.rhsIdx (ix2 p q) ((contrEquiv1 dot_S5000x128_S128x64_S5000x64_1_0_0_1_n_n 128 rfl rfl).symm k) = ix2 k q := by
    funext ax; apply Fin.ext
    match ax with
    | ⟨0, _⟩ => exact (rhs_dot_S5000x128_S128x64_S5000x64_1_0_0_1_n_n_0 _ _).trans hk
    | ⟨1, _⟩ => exact rhs_dot_S5000x128_S128x64_S5000x64_1_0_0_1_n_n_1 _ _
  rw [hl, hr]

/-! ## The body's arithmetic at an index -/

/-- The body's arithmetic at row p and column q of the block: the row times the column of the weights. -/
theorem pay0_apply (x : Vec Ideal S5000x128 .f32) (w1 : Vec Ideal S128x64 .f32) (p : Fin 5000) (q : Fin 64) :
    k0_pay1 (F := Ideal) x w1 (ix2 p q) = ∑ k : Fin 128, x (ix2 p k) * w1 (ix2 k q) := by
  unfold k0_pay1
  rw [matmul_5000x128_128x64_apply]
  refine Finset.sum_congr rfl fun k _ => ?_
  rw [truncf_apply, truncf_apply]

/-- The body's arithmetic at an index of the block is the product of whole arrays at an index i of the big array, when
    the block's rows are the array's row of i, the weights are the whole weight array, and q is i's column. -/
theorem pay0_eq_mm (x0 : Spec.Mat 100000 128) (u1 : Spec.Mat 128 64)
    (x : Vec Ideal S5000x128 .f32) (w1 : Vec Ideal S128x64 .f32)
    (i : S100000x64.Idx) (p : Fin 5000) (q : Fin 64) (hq : i (1 : Fin 2) = q)
    (hx : ∀ k : Fin 128, x (ix2 p k) = x0 (ix2 (i (0 : Fin 2)) k))
    (hw : ∀ k : Fin 128, w1 (ix2 k q) = u1 (ix2 k q)) :
    k0_pay1 (F := Ideal) x w1 (ix2 p q) = Spec.mm x0 u1 i := by
  rw [pay0_apply]
  unfold Spec.mm
  show _ = ∑ k : Fin 128, x0 (ix2 (i (0 : Fin 2)) k) * u1 (ix2 k (i (1 : Fin 2)))
  rw [hq]
  refine Finset.sum_congr rfl fun k _ => ?_
  rw [hx k, hw k]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the input's row block moves with the output's row block, the
    weights stay at their one block, and the output's block row is the point's number, below twenty. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array the output window ends holding: the rows times the weights. -/
abbrev G (c : Dev nD) : Spec.Mat 100000 64 := Spec.mm (V c main_arg0) (V c main_arg3)

/-- What point t writes back is block t of G. -/
theorem flushed_eq (c : Dev nD) (t : Fin cfg0.N) :
    (Proj.dat (F := Ideal) V c).flushed 2 t = ((cfg0.win 2).blk t).view.read (Elt Ideal) (G V c) := by
  show (cfg0.win 2).cut (grid0.coords t) ((Proj.dat (F := Ideal) V c).after 2 t) = _
  rw [Proj.after_2]
  unfold Proj.outY
  rw [View.canon_unit_zero hz]
  simp only [View.ld_unit_zero (S := S5000x128) hz, View.ld_unit_zero (S := S128x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  show k0_pay1 (F := Ideal) (Proj.blk V c 0 t) (Proj.blk V c 1 t) (ix2 p q)
    = G V c (((cfg0.win 2).blk t).view.emb (ix2 p q))
  refine pay0_eq_mm (V c main_arg0) (V c main_arg3) _ _
    (((cfg0.win 2).blk t).view.emb (ix2 p q)) p q ?_ ?_ ?_
  · apply Fin.ext
    show win0_2.index t (1 : Fin 2) * 64 + 1 * q.val = q.val
    omega
  · intro k
    show V c main_arg0 (((cfg0.win 0).blk t).view.emb (ix2 p k)) = V c main_arg0 (ix2 ((((cfg0.win 2).blk t).view.emb (ix2 p q)) (0 : Fin 2)) k)
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · intro k
    show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v4).slice (win0_2.rect t)).set ↔ _
  rw [View.set_slice_whole, Rect.mem_set_unit]
  exact Iff.rfl

/-- Every index of the array is in some point's block: row r is in the block of point r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 5000, by show (i 0).val / 5000 < 20; omega⟩, flush0_2 _, ?_⟩
  rw [mem_blk]
  obtain ⟨e00, e01, e10, e11, e20, e21⟩ := idx_facts ⟨(i 0).val / 5000, by show (i 0).val / 5000 < 20; omega⟩
  have e20' : win0_2.index ⟨(i 0).val / 5000, by show (i 0).val / 5000 < 20; omega⟩ (0 : Fin 2) = (i 0).val / 5000 := e20
  intro a
  match a with
  | ⟨0, _⟩ =>
    show win0_2.index _ (0 : Fin 2) * 5000 ≤ (i 0).val ∧ (i 0).val < win0_2.index _ (0 : Fin 2) * 5000 + 5000
    omega
  | ⟨1, _⟩ =>
    show win0_2.index _ (1 : Fin 2) * 64 ≤ (i 1).val ∧ (i 1).val < win0_2.index _ (1 : Fin 2) * 64 + 64
    omega

/-- The array the region's output window ends holding is the rows times the weights. -/
theorem final (c : Dev nD) :
    (Proj.dat (F := Ideal) V c).arrAt 2 cfg0.N = Spec.mm (V c main_arg0) (V c main_arg3) :=
  (Proj.dat (F := Ideal) V c).arrAt_eq_of_cover 2 (G V c) (fun t _ => flushed_eq V c t) cover

end Cert.KernelIdeal.ProjVal

end
-- ==== Proof.KI.MlpAVal.lean ====
/-
  Region 1 of the idealized kernel program, read as values over the extended reals: the array the region's output
  window ends holding is one function of the arrays the region is entered with, the first layer's node update
  relu (relu ((y + seg) + b1) * W2 + b2), index by index. The body's arithmetic at an index of a block; each input
  block read where the output's rectangle says; the blocks of the twenty points cover the rows.
-/
import proofs.«404197_j31937376813167_3_alg».proof.Proof.KI.MlpA
import proofs.«404197_j31937376813167_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.MlpAVal

open Idealize.ShloMosaic Idealize.ShloMosaic.TcCoe Idealize.ShloMosaic.ValueIdx
open Idealize.ShloMosaic.Pipeline (Dat Cfg Window)
open Cert.KernelIdeal Cert.KernelIdeal.Gen

/-! ## The product of a block of rows with the weights, at an index -/

/-- The left operand's row coordinate is the result's row. -/
theorem lhs_dot_S5000x64_S64x64_S5000x64_1_0_0_1_n_n_0 (j : S5000x64.Idx) (k : dot_S5000x64_S64x64_S5000x64_1_0_0_1_n_n.contr.Idx) :
    (dot_S5000x64_S64x64_S5000x64_1_0_0_1_n_n.lhsIdx j k (0 : Fin 2)).val = (j (0 : Fin 2)).val := by
  simp [DotDims.lhsIdx, dot_S5000x64_S64x64_S5000x64_1_0_0_1_n_n]; rfl

/-- The left operand's column coordinate is the contraction position. -/
theorem lhs_dot_S5000x64_S64x64_S5000x64_1_0_0_1_n_n_1 (j : S5000x64.Idx) (k : dot_S5000x64_S64x64_S5000x64_1_0_0_1_n_n.contr.Idx) :
    (dot_S5000x64_S64x64_S5000x64_1_0_0_1_n_n.lhsIdx j k (1 : Fin 2)).val = (k ⟨0, by decide⟩).val :=
  DotDims.lhsIdx_val_of_single dot_S5000x64_S64x64_S5000x64_1_0_0_1_n_n rfl j k

/-- The right operand's row coordinate is the contraction position. -/
theorem rhs_dot_S5000x64_S64x64_S5000x64_1_0_0_1_n_n_0 (j : S5000x64.Idx) (k : dot_S5000x64_S64x64_S5000x64_1_0_0_1_n_n.contr.Idx) :
    (dot_S5000x64_S64x64_S5000x64_1_0_0_1_n_n.rhsIdx j k (0 : Fin 2)).val = (k ⟨0, by decide⟩).val :=
  DotDims.rhsIdx_val_of_single dot_S5000x64_S64x64_S5000x64_1_0_0_1_n_n rfl j k

/-- The right operand's column coordinate is the result's column. -/
theorem rhs_dot_S5000x64_S64x64_S5000x64_1_0_0_1_n_n_1 (j : S5000x64.Idx) (k : dot_S5000x64_S64x64_S5000x64_1_0_0_1_n_n.contr.Idx) :
    (dot_S5000x64_S64x64_S5000x64_1_0_0_1_n_n.rhsIdx j k (1 : Fin 2)).val = (j (1 : Fin 2)).val := by
  simp [DotDims.rhsIdx, dot_S5000x64_S64x64_S5000x64_1_0_0_1_n_n]; rfl

/-- A block of rows times the weights, into the zero splat, read at row p and column q: the sum over the 64 shared
    positions of the products. -/
theorem matmul_5000x64_64x64_apply {φ₁ φ₂ : FTy} (a : FVec Ideal S5000x64 φ₁) (w : FVec Ideal S64x64 φ₂) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  refine (Ideal.matmul_constant_zero_apply dot_S5000x64_S64x64_S5000x64_1_0_0_1_n_n none a w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 p q) ((contrEquiv1 dot_S5000x64_S64x64_S5000x64_1_0_0_1_n_n 64 rfl rfl).symm k) = ix2 p k := by
    funext ax; apply Fin.ext
    match ax with
    | ⟨0, _⟩ => exact lhs_dot_S5000x64_S64x64_S5000x64_1_0_0_1_n_n_0 _ _
    | ⟨1, _⟩ => exact (lhs_dot_S5000x64_S64x64_S5000x64_1_0_0_1_n_n_1 _ _).trans hk
  have hr : dot_S5000x64_S64x64_S5000x64_1_0_0_1_n_n.rhsIdx (ix2 p q) ((contrEquiv1 dot_S5000x64_S64x64_S5000x64_1_0_0_1_n_n 64 rfl rfl).symm k) = ix2 k q := by
    funext ax; apply Fin.ext
    match ax with
    | ⟨0, _⟩ => exact (rhs_dot_S5000x64_S64x64_S5000x64_1_0_0_1_n_n_0 _ _).trans hk
    | ⟨1, _⟩ => exact rhs_dot_S5000x64_S64x64_S5000x64_1_0_0_1_n_n_1 _ _
  rw [hl, hr]

/-! ## The body's arithmetic at an index -/

/-- The body's arithmetic at row p and column q of the block: the positive part of the row's sum with the first bias,
    times the weights, plus the second bias, and the positive part of that. -/
theorem pay1_apply (x s : Vec Ideal S5000x64 .f32) (b1 : Vec Ideal S1x64 .f32) (w2 : Vec Ideal S64x64 .f32) (b2 : Vec Ideal S1x64 .f32)
    (p : Fin 5000) (q : Fin 64) :
    k1_pay1 (F := Ideal) x s b1 w2 b2 (ix2 p q)
      = max ((∑ k : Fin 64, max ((x (ix2 p k) + s (ix2 p k)) + b1 (ix2 (0 : Fin 1) k)) 0 * w2 (ix2 k q)) + b2 (ix2 (0 : Fin 1) q)) 0 := by
  unfold k1_pay1
  simp only [shapeCast_self]
  rw [maximumf_apply, addf_apply, matmul_5000x64_64x64_apply, broadcastTo_1b_ab_apply, broadcast_apply]
  show max (_ + b2 (ix2 (0 : Fin 1) q)) (Ideal.ofBits .f32 0x00000000#32) = _
  rw [Ideal.ofBits_zero_f32]
  refine congrArg (fun z => max (z + b2 (ix2 (0 : Fin 1) q)) 0) (Finset.sum_congr rfl fun k _ => ?_)
  rw [truncf_apply, truncf_apply, maximumf_apply, addf_apply, addf_apply, broadcastTo_1b_ab_apply, broadcast_apply]
  show max _ (Ideal.ofBits .f32 0x00000000#32) * _ = _
  rw [Ideal.ofBits_zero_f32]

/-- The body's arithmetic at an index of the block is the layer of whole arrays at an index i of the big array, when
    the block's rows are the arrays' row of i, the bias rows and the weights are the whole small arrays, and q is i's column. -/
theorem pay1_eq_mlpSkip (y0 s0 : Spec.Mat 100000 64) (c1 : Spec.Mat 1 64) (u2 : Spec.Mat 64 64) (c2 : Spec.Mat 1 64)
    (x s : Vec Ideal S5000x64 .f32) (b1 : Vec Ideal S1x64 .f32) (w2 : Vec Ideal S64x64 .f32) (b2 : Vec Ideal S1x64 .f32)
    (i : S100000x64.Idx) (p : Fin 5000) (q : Fin 64) (hq : i (1 : Fin 2) = q)
    (hx : ∀ k : Fin 64, x (ix2 p k) = y0 (ix2 (i (0 : Fin 2)) k))
    (hs : ∀ k : Fin 64, s (ix2 p k) = s0 (ix2 (i (0 : Fin 2)) k))
    (hb1 : ∀ k : Fin 64, b1 (ix2 (0 : Fin 1) k) = c1 (ix2 (0 : Fin 1) k))
    (hw : ∀ k : Fin 64, w2 (ix2 k q) = u2 (ix2 k q))
    (hb2 : b2 (ix2 (0 : Fin 1) q) = c2 (ix2 (0 : Fin 1) q)) :
    k1_pay1 (F := Ideal) x s b1 w2 b2 (ix2 p q) = Spec.mlpSkip y0 s0 c1 u2 c2 i := by
  rw [pay1_apply]
  unfold Spec.mlpSkip Spec.relu Spec.addRow Spec.mm Spec.add
  show _ = max ((∑ k : Fin 64, max ((y0 (ix2 (i (0 : Fin 2)) k) + s0 (ix2 (i (0 : Fin 2)) k)) + c1 (ix2 (0 : Fin 1) k)) 0 * u2 (ix2 k (i (1 : Fin 2))))
      + c2 (ix2 (0 : Fin 1) (i (1 : Fin 2)))) 0
  rw [hq, hb2]
  refine congrArg (fun z => max (z + c2 (ix2 (0 : Fin 1) q)) 0) (Finset.sum_congr rfl fun k _ => ?_)
  rw [hx k, hs k, hb1 k, hw k]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row-block inputs move with the output's row block, the
    small operands stay at their one block, and the output's block row is the point's number, below twenty. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array the output window ends holding: the layer of the arrays the region is entered with. -/
abbrev G (c : Dev nD) : Spec.Mat 100000 64 :=
  Spec.mlpSkip (V c main_v4) (V c main_v14) (V c main_v15) (V c main_arg5) (V c main_v16)

/-- What point t writes back is block t of G. -/
theorem flushed_eq (c : Dev nD) (t : Fin cfg1.N) :
    (MlpA.dat (F := Ideal) V c).flushed 5 t = ((cfg1.win 5).blk t).view.read (Elt Ideal) (G V c) := by
  show (cfg1.win 5).cut (grid1.coords t) ((MlpA.dat (F := Ideal) V c).after 5 t) = _
  rw [MlpA.after_5]
  unfold MlpA.outY
  rw [View.canon_unit_zero hz]
  simp only [View.ld_unit_zero (S := S5000x64) hz, View.ld_unit_zero (S := S1x64) hz, View.ld_unit_zero (S := S64x64) hz]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, eq_ix2 j⟩
  show k1_pay1 (F := Ideal) (MlpA.blk V c 0 t) (MlpA.blk V c 1 t) (MlpA.blk V c 2 t) (MlpA.blk V c 3 t) (MlpA.blk V c 4 t) (ix2 p q)
    = G V c (((cfg1.win 5).blk t).view.emb (ix2 p q))
  refine pay1_eq_mlpSkip (V c main_v4) (V c main_v14) (V c main_v15) (V c main_arg5) (V c main_v16) _ _ _ _ _
    (((cfg1.win 5).blk t).view.emb (ix2 p q)) p q ?_ ?_ ?_ ?_ ?_ ?_
  · apply Fin.ext
    show win1_5.index t (1 : Fin 2) * 64 + 1 * q.val = q.val
    omega
  · intro k
    show V c main_v4 (((cfg1.win 0).blk t).view.emb (ix2 p k)) = V c main_v4 (ix2 ((((cfg1.win 5).blk t).view.emb (ix2 p q)) (0 : Fin 2)) k)
    refine congrArg (V c main_v4) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * k.val = k.val; omega
  · intro k
    show V c main_v14 (((cfg1.win 1).blk t).view.emb (ix2 p k)) = V c main_v14 (ix2 ((((cfg1.win 5).blk t).view.emb (ix2 p q)) (0 : Fin 2)) k)
    refine congrArg (V c main_v14) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 64 + 1 * k.val = k.val; omega
  · intro k
    show V c main_v15 (((cfg1.win 2).blk t).view.emb (ix2 (0 : Fin 1) k)) = V c main_v15 (ix2 (0 : Fin 1) k)
    refine congrArg (V c main_v15) (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · intro k
    show V c main_arg5 (((cfg1.win 3).blk t).view.emb (ix2 k q)) = V c main_arg5 (ix2 k q)
    refine congrArg (V c main_arg5) (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  · show V c main_v16 (((cfg1.win 4).blk t).view.emb (ix2 (0 : Fin 1) q)) = V c main_v16 (ix2 (0 : Fin 1) q)
    refine congrArg (V c main_v16) (funext fun a => Fin.ext ?_)
    match a with
    | ⟨0, _⟩ => show win1_4.index t (0 : Fin 2) * 1 + 1 * 0 = 0; omega
    | ⟨1, _⟩ => show win1_4.index t (1 : Fin 2) * 64 + 1 * q.val = q.val; omega

/-- An index of the array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v17).slice (win1_5.rect t)).set ↔ _
  rw [View.set_slice_whole, Rect.mem_set_unit]
  exact Iff.rfl

/-- Every index of the array is in some point's block: row r is in the block of point r / 5000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  refine ⟨⟨(i 0).val / 5000, by show (i 0).val / 5000 < 20; omega⟩, flush1_5 _, ?_⟩
  rw [mem_blk]
  obtain ⟨e00, e01, e10, e11, e20, e21, e30, e31, e40, e41, e50, e51⟩ := idx_facts ⟨(i 0).val / 5000, by show (i 0).val / 5000 < 20; omega⟩
  have e50' : win1_5.index ⟨(i 0).val / 5000, by show (i 0).val / 5000 < 20; omega⟩ (0 : Fin 2) = (i 0).val / 5000 := e50
  intro a
  match a with
  | ⟨0, _⟩ =>
    show win1_5.index _ (0 : Fin 2) * 5000 ≤ (i 0).val ∧ (i 0).val < win1_5.index _ (0 : Fin 2) * 5000 + 5000
    omega
  | ⟨1, _⟩ =>
    show win1_5.index _ (1 : Fin 2) * 64 ≤ (i 1).val ∧ (i 1).val < win1_5.index _ (1 : Fin 2) * 64 + 64
    omega

/-- The array the region's output window ends holding is the layer of the arrays the region is entered with. -/
theorem final (c : Dev nD) :
    (MlpA.dat (F := Ideal) V c).arrAt 5 cfg1.N = Spec.mlpSkip (V c main_v4) (V c main_v14) (V c main_v15) (V c main_arg5) (V c main_v16) :=
  (MlpA.dat (F := Ideal) V c).arrAt_eq_of_cover 5 (G V c) (fun t _ => flushed_eq V c t) cover

end Cert.KernelIdeal.MlpAVal

end
-- ==== Proof.KI.MlpBVal.lean ====
/-
  Region 2 of the idealized kernel program, read as a value over the extended reals: the layer's output array after
  the run is ONE function of the arrays the region is entered with, the rectified two-layer perceptron of the sum of
  the feature rows and the aggregated rows. First the body's arithmetic at one entry of a row block (two matrix products
  against the whole weight matrices, the bias rows broadcast down the rows, the rectifier), then each row block as rows
  of the whole arrays, then the twenty row blocks as a cover of the array.
-/
import proofs.«404197_j31937376813167_3_alg».proof.Proof.KI.MlpB
import proofs.«404197_j31937376813167_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MlpBVal

open Idealize.ShloMosaic Idealize.ShloMosaic.TcCoe Idealize.ShloMosaic.ValueIdx
open Idealize.SL.Sem
open Idealize.ShloMosaic.Pipeline (Dat)
open Cert.KernelIdeal Cert.KernelIdeal.Gen

/-! ## The block product at an entry -/

/-- The operand indices of the rows-times-weights product, axis by axis: the left operand is read at the output's row
    and the contraction position, the right one at the contraction position and the output's column. -/
theorem rowsByWeights_lhs_0 (j : S5000x64.Idx) (k : dot_S5000x64_S64x64_S5000x64_1_0_0_1_n_n.contr.Idx) :
    (dot_S5000x64_S64x64_S5000x64_1_0_0_1_n_n.lhsIdx j k 0 : ℕ) = j 0 := by
  simp [DotDims.lhsIdx, dot_S5000x64_S64x64_S5000x64_1_0_0_1_n_n]; rfl
theorem rowsByWeights_lhs_1 (j : S5000x64.Idx) (k : dot_S5000x64_S64x64_S5000x64_1_0_0_1_n_n.contr.Idx) :
    (dot_S5000x64_S64x64_S5000x64_1_0_0_1_n_n.lhsIdx j k 1 : ℕ) = k ⟨0, by decide⟩ := by
  simp [DotDims.lhsIdx, dot_S5000x64_S64x64_S5000x64_1_0_0_1_n_n]; rfl
theorem rowsByWeights_rhs_0 (j : S5000x64.Idx) (k : dot_S5000x64_S64x64_S5000x64_1_0_0_1_n_n.contr.Idx) :
    (dot_S5000x64_S64x64_S5000x64_1_0_0_1_n_n.rhsIdx j k 0 : ℕ) = k ⟨0, by decide⟩ := by
  simp [DotDims.rhsIdx, dot_S5000x64_S64x64_S5000x64_1_0_0_1_n_n]; rfl
theorem rowsByWeights_rhs_1 (j : S5000x64.Idx) (k : dot_S5000x64_S64x64_S5000x64_1_0_0_1_n_n.contr.Idx) :
    (dot_S5000x64_S64x64_S5000x64_1_0_0_1_n_n.rhsIdx j k 1 : ℕ) = j 1 := by
  simp [DotDims.rhsIdx, dot_S5000x64_S64x64_S5000x64_1_0_0_1_n_n]; rfl

/-- A block of 5000 rows times a 64×64 weight matrix, into the zero accumulator, at entry `(p, q)`: the sum over the 64
    contraction positions of the row's entry times the weight's. -/
theorem rowsByWeights_apply {φ₁ φ₂ : FTy} (a : FVec Ideal S5000x64 φ₁) (w : FVec Ideal S64x64 φ₂) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  congr 2
  · funext ax
    apply Fin.ext
    match ax with
    | ⟨0, _⟩ => exact rowsByWeights_lhs_0 _ _
    | ⟨1, _⟩ => exact (rowsByWeights_lhs_1 _ _).trans (contrEquiv1_symm_val _ 64 rfl rfl k)
  · funext ax
    apply Fin.ext
    match ax with
    | ⟨0, _⟩ => exact (rowsByWeights_rhs_0 _ _).trans (contrEquiv1_symm_val _ 64 rfl rfl k)
    | ⟨1, _⟩ => exact rowsByWeights_rhs_1 _ _

/-! ## The body's arithmetic is the layer -/

/-- The payload of the body's one store, over whole loaded blocks, is the rectified layer of the specification at the
    block's 5000 rows. -/
theorem pay_eq (h s : Vec Ideal S5000x64 .f32) (w1 : Vec Ideal S64x64 .f32) (b1 : Vec Ideal S1x64 .f32)
    (w2 : Vec Ideal S64x64 .f32) (b2 : Vec Ideal S1x64 .f32) :
    k2_pay1 h s w1 b1 w2 b2 = Spec.relu (Spec.mlpFull h s w1 b1 w2 b2) := by
  funext j
  obtain ⟨p, q, rfl⟩ : ∃ (p : Fin 5000) (q : Fin 64), j = ix2 p q := ⟨j 0, j 1, eq_ix2 j⟩
  unfold k2_pay1
  simp only [shapeCast_self]
  rw [maximumf_apply, addf_apply, rowsByWeights_apply, broadcastTo_1b_ab_apply, broadcast_apply]
  simp only [truncf_apply, maximumf_apply, addf_apply, rowsByWeights_apply, broadcastTo_1b_ab_apply, broadcast_apply,
    Ideal.ofBits_def, Ideal.ofBits_zero_f32]
  rfl

/-! ## From the row blocks to the array -/

variable (V : (c : Dev nD) → (b : Ref sig .tc) → Buf (Elt Ideal) ((c : Thread nD τ).loc b))

theorem hz : (![0, 0] : Fin 2 → Nat) = fun _ => 0 := funext fun a => by fin_cases a <;> rfl

/-- What the body leaves in the output buffer is the rectified layer of the loaded blocks: its one store covers the
    buffer and every load reads a whole buffer. -/
theorem outY_eq (h s : Vec Ideal S5000x64 .f32) (w1 : Vec Ideal S64x64 .f32) (b1 : Vec Ideal S1x64 .f32)
    (w2 : Vec Ideal S64x64 .f32) (b2 : Vec Ideal S1x64 .f32) :
    MlpB.outY h s w1 b1 w2 b2 = Spec.relu (Spec.mlpFull h s w1 b1 w2 b2) := by
  unfold MlpB.outY
  rw [View.canon_unit_zero hz]
  simp only [View.ld_unit_zero (S := S5000x64) hz, View.ld_unit_zero (S := S64x64) hz, View.ld_unit_zero (S := S1x64) hz]
  exact pay_eq h s w1 b1 w2 b2

/-- The layer at a row reads only that row of the two row arrays: a block of rows and the whole array agree wherever
    their rows do. -/
theorem layer_row (H S : Spec.Mat 100000 64) (h s : Spec.Mat 5000 64) (w1 : Spec.Mat 64 64) (b1 : Spec.Mat 1 64)
    (w2 : Spec.Mat 64 64) (b2 : Spec.Mat 1 64) (j : S5000x64.Idx) (i : S100000x64.Idx)
    (hh : ∀ k : Fin 64, h (ix2 (j 0) k) = H (ix2 (i 0) k)) (hs : ∀ k : Fin 64, s (ix2 (j 0) k) = S (ix2 (i 0) k))
    (hq : j 1 = i 1) :
    Spec.relu (Spec.mlpFull h s w1 b1 w2 b2) j = Spec.relu (Spec.mlpFull H S w1 b1 w2 b2) i := by
  show max ((∑ k : Fin 64, max ((∑ k' : Fin 64, (h (ix2 (j 0) k') + s (ix2 (j 0) k')) * w1 (ix2 k' k)) + b1 (ix2 0 k)) 0
        * w2 (ix2 k (j 1))) + b2 (ix2 0 (j 1))) 0
      = max ((∑ k : Fin 64, max ((∑ k' : Fin 64, (H (ix2 (i 0) k') + S (ix2 (i 0) k')) * w1 (ix2 k' k)) + b1 (ix2 0 k)) 0
        * w2 (ix2 k (i 1))) + b2 (ix2 0 (i 1))) 0
  simp only [hh, hs, hq]

/-- The printed index maps, decided over the twenty points: the two row windows move with the output's row block,
    which is block `t` at point `t`; every other block index is zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The feature rows' block at point `t`, at row `p`, is row `5000 t + p` of the array. -/
theorem blk0_apply (c : Dev nD) (t : Fin cfg2.N) (y : S5000x64.Idx) (i : S100000x64.Idx)
    (h0 : (i 0).val = 5000 * t.val + (y 0).val) (h1 : (i 1).val = (y 1).val) :
    (MlpB.blk V c 0 t : Vec Ideal S5000x64 .f32) y = (V c main_v17 : S100000x64.Idx → EReal) i := by
  obtain ⟨e0, e1, -⟩ := idx_facts t
  unfold MlpB.blk
  rw [View.read_apply]
  show V c main_v17 _ = V c main_v17 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 64 + 1 * (y 1).val = (i 1).val; rw [e1, h1]; omega

/-- The aggregated rows' block likewise. -/
theorem blk1_apply (c : Dev nD) (t : Fin cfg2.N) (y : S5000x64.Idx) (i : S100000x64.Idx)
    (h0 : (i 0).val = 5000 * t.val + (y 0).val) (h1 : (i 1).val = (y 1).val) :
    (MlpB.blk V c 1 t : Vec Ideal S5000x64 .f32) y = (V c main_v27 : S100000x64.Idx → EReal) i := by
  obtain ⟨-, -, e0, e1, -⟩ := idx_facts t
  unfold MlpB.blk
  rw [View.read_apply]
  show V c main_v27 _ = V c main_v27 _
  congr 1
  funext a
  apply Fin.ext
  match a with
  | ⟨0, _⟩ => show win2_1.index t (0 : Fin 2) * 5000 + 1 * (y 0).val = (i 0).val; rw [e0, h0]; omega
  | ⟨1, _⟩ => show win2_1.index t (1 : Fin 2) * 64 + 1 * (y 1).val = (i 1).val; rw [e1, h1]; omega

/-- The first weight matrix's block is the whole matrix at every point. -/
theorem blk2_eq (c : Dev nD) (t : Fin cfg2.N) : (MlpB.blk V c 2 t : Vec Ideal S64x64 .f32) = (V c main_arg7 : S64x64.Idx → EReal) := by
  obtain ⟨-, -, -, -, e0, e1, -⟩ := idx_facts t
  funext y
  unfold MlpB.blk
  rw [View.read_apply]
  show V c main_arg7 _ = V c main_arg7 y
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- The first bias row's block is the whole row. -/
theorem blk3_eq (c : Dev nD) (t : Fin cfg2.N) : (MlpB.blk V c 3 t : Vec Ideal S1x64 .f32) = (V c main_v28 : S1x64.Idx → EReal) := by
  obtain ⟨-, -, -, -, -, -, e0, e1, -⟩ := idx_facts t
  funext y
  unfold MlpB.blk
  rw [View.read_apply]
  show V c main_v28 _ = V c main_v28 y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- The second weight matrix's block is the whole matrix. -/
theorem blk4_eq (c : Dev nD) (t : Fin cfg2.N) : (MlpB.blk V c 4 t : Vec Ideal S64x64 .f32) = (V c main_arg9 : S64x64.Idx → EReal) := by
  obtain ⟨-, -, -, -, -, -, -, -, e0, e1, -⟩ := idx_facts t
  funext y
  unfold MlpB.blk
  rw [View.read_apply]
  show V c main_arg9 _ = V c main_arg9 y
  congr 1
  funext a
  apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

/-- The second bias row's block is the whole row. -/
theorem blk5_eq (c : Dev nD) (t : Fin cfg2.N) : (MlpB.blk V c 5 t : Vec Ideal S1x64 .f32) = (V c main_v29 : S1x64.Idx → EReal) := by
  obtain ⟨-, -, -, -, -, -, -, -, -, -, e0, e1, -⟩ := idx_facts t
  funext y
  unfold MlpB.blk
  rw [View.read_apply]
  show V c main_v29 _ = V c main_v29 y
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-- The layer of the whole arrays the region is entered with. -/
abbrev G (c : Dev nD) : S100000x64.Idx → EReal :=
  Spec.relu (Spec.mlpFull (V c main_v17) (V c main_v27) (V c main_arg7) (V c main_v28) (V c main_arg9) (V c main_v29))

/-- What point `t` writes back is block `t` of the layer of the whole arrays. -/
theorem flushed_eq (c : Dev nD) (t : Fin cfg2.N) :
    (MlpB.dat (F := Ideal) V c).flushed 6 t = ((cfg2.win 6).blk t).view.read (Elt Ideal) (G V c) := by
  obtain ⟨-, -, -, -, -, -, -, -, -, -, -, -, e0, e1⟩ := idx_facts t
  show (cfg2.win 6).cut (grid2.coords t) ((MlpB.dat V c).after 6 t) = _
  rw [MlpB.after_6, outY_eq, blk2_eq, blk3_eq, blk4_eq, blk5_eq]
  funext j
  rw [View.read_apply]
  show Spec.relu (Spec.mlpFull (MlpB.blk V c 0 t) (MlpB.blk V c 1 t) (V c main_arg7) (V c main_v28) (V c main_arg9) (V c main_v29)) j
    = G V c (((cfg2.win 6).blk t).view.emb j)
  have r0 : ((((cfg2.win 6).blk t).view.emb j) 0).val = 5000 * t.val + (j 0).val := by
    show win2_6.index t (0 : Fin 2) * 5000 + 1 * (j 0).val = _; rw [e0]; omega
  have r1 : ((((cfg2.win 6).blk t).view.emb j) 1).val = (j 1).val := by
    show win2_6.index t (1 : Fin 2) * 64 + 1 * (j 1).val = _; rw [e1]; omega
  refine layer_row _ _ _ _ _ _ _ _ j _ (fun k => ?_) (fun k => ?_) (Fin.ext r1.symm)
  · exact blk0_apply V c t _ _ r0 rfl
  · exact blk1_apply V c t _ _ r0 rfl

/-- An index of the array is in point `t`'s block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v30).slice (win2_6.rect t)).set ↔ _
  rw [View.set_slice_whole, Rect.mem_set_unit]
  exact Iff.rfl

/-- Every row is in some point's block: row `r` in block `r / 5000`. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_6 _, ?_⟩
  obtain ⟨-, -, -, -, -, -, -, -, -, -, -, -, e0, e1⟩ := idx_facts ⟨(i 0).val / 5000, by rw [hN]; omega⟩
  rw [mem_blk]
  intro a
  match a with
  | ⟨0, _⟩ =>
    show win2_6.index ⟨(i 0).val / 5000, _⟩ (0 : Fin 2) * 5000 ≤ (i 0).val ∧ (i 0).val < win2_6.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, _⟩ (1 : Fin 2) * 64 ≤ (i 1).val ∧ (i 1).val < win2_6.index ⟨(i 0).val / 5000, _⟩ (1 : Fin 2) * 64 + 64
    rw [e1]; omega

/-- THE ARRAY after the region: the rectified layer of the arrays it was entered with. -/
theorem final (c : Dev nD) : (MlpB.dat (F := Ideal) V c).arrAt 6 cfg2.N
    = Spec.relu (Spec.mlpFull (V c main_v17) (V c main_v27) (V c main_arg7) (V c main_v28) (V c main_arg9) (V c main_v29)) :=
  (MlpB.dat (F := Ideal) V c).arrAt_eq_of_cover 6 (G V c) (fun t _ => flushed_eq V c t) cover

end Cert.KernelIdeal.MlpBVal

end
-- ==== Proof.KI.MlpCVal.lean ====
/-
  Region 3 of the idealized kernel program, read as a value over the extended reals: the last layer's output array
  after the run is ONE function of the arrays the region is entered with, the two-layer perceptron of the sum of the
  feature rows and the aggregated rows, with no rectifier on the second layer. The body's arithmetic at one entry of a
  row block (the block product is the one region 2 reads), then each row block as rows of the whole arrays, then the
  twenty row blocks as a cover of the array.
-/
import proofs.«404197_j31937376813167_3_alg».proof.Proof.KI.MlpC
import proofs.«404197_j31937376813167_3_alg».proof.Proof.KI.MlpBVal
import proofs.«404197_j31937376813167_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MlpCVal

open Idealize.ShloMosaic Idealize.ShloMosaic.TcCoe Idealize.ShloMosaic.ValueIdx
open Idealize.SL.Sem
open Idealize.ShloMosaic.Pipeline (Dat)
open Cert.KernelIdeal Cert.KernelIdeal.Gen

/-! ## The body's arithmetic is the layer -/

/-- The payload of the body's one store, over whole loaded blocks, is the layer of the specification at the block's
    5000 rows: the second product plus its bias row, not rectified. -/
theorem pay_eq (h s : Vec Ideal S5000x64 .f32) (w1 : Vec Ideal S64x64 .f32) (b1 : Vec Ideal S1x64 .f32)
    (w2 : Vec Ideal S64x64 .f32) (b2 : Vec Ideal S1x64 .f32) :
    k3_pay1 h s w1 b1 w2 b2 = Spec.mlpFull h s w1 b1 w2 b2 := by
  funext j
  obtain ⟨p, q, rfl⟩ : ∃ (p : Fin 5000) (q : Fin 64), j = ix2 p q := ⟨j 0, j 1, eq_ix2 j⟩
  unfold k3_pay1
  simp only [shapeCast_self]
  rw [addf_apply, MlpBVal.rowsByWeights_apply, broadcastTo_1b_ab_apply]
  simp only [truncf_apply, maximumf_apply, addf_apply, MlpBVal.rowsByWeights_apply, broadcastTo_1b_ab_apply, broadcast_apply,
    Ideal.ofBits_def, Ideal.ofBits_zero_f32]
  rfl

/-! ## From the row blocks to the array -/

variable (V : (c : Dev nD) → (b : Ref sig .tc) → Buf (Elt Ideal) ((c : Thread nD τ).loc b))

/-- What the body leaves in the output buffer is the layer of the loaded blocks: its one store covers the buffer and
    every load reads a whole buffer. -/
theorem outY_eq (h s : Vec Ideal S5000x64 .f32) (w1 : Vec Ideal S64x64 .f32) (b1 : Vec Ideal S1x64 .f32)
    (w2 : Vec Ideal S64x64 .f32) (b2 : Vec Ideal S1x64 .f32) :
    MlpC.outY h s w1 b1 w2 b2 = Spec.mlpFull h s w1 b1 w2 b2 := by
  unfold MlpC.outY
  rw [View.canon_unit_zero MlpBVal.hz]
  simp only [View.ld_unit_zero (S := S5000x64) MlpBVal.hz, View.ld_unit_zero (S := S64x64) MlpBVal.hz,
    View.ld_unit_zero (S := S1x64) MlpBVal.hz]
  exact pay_eq h s w1 b1 w2 b2

/-- The layer at a row reads only that row of the two row arrays: a block of rows and the whole array agree wherever
    their rows do. -/
theorem layer_row (H S : Spec.Mat 100000 64) (h s : Spec.Mat 5000 64) (w1 : Spec.Mat 64 64) (b1 : Spec.Mat 1 64)
    (w2 : Spec.Mat 64 64) (b2 : Spec.Mat 1 64) (j : S5000x64.Idx) (i : S100000x64.Idx)
    (hh : ∀ k : Fin 64, h (ix2 (j 0) k) = H (ix2 (i 0) k)) (hs : ∀ k : Fin 64, s (ix2 (j 0) k) = S (ix2 (i 0) k))
    (hq : j 1 = i 1) :
    Spec.mlpFull h s w1 b1 w2 b2 j = Spec.mlpFull H S w1 b1 w2 b2 i := by
  show (∑ k : Fin 64, max ((∑ k' : Fin 64, (h (ix2 (j 0) k') + s (ix2 (j 0) k')) * w1 (ix2 k' k)) + b1 (ix2 0 k)) 0
        * w2 (ix2 k (j 1))) + b2 (ix2 0 (j 1))
      = (∑ k : Fin 64, max ((∑ k' : Fin 64, (H (ix2 (i 0) k') + S (ix2 (i 0) k')) * w1 (ix2 k' k)) + b1 (ix2 0 k)) 0
        * w2 (ix2 k (i 1))) + b2 (ix2 0 (i 1))
  simp only [hh, hs, hq]

/-- The printed index maps, decided over the twenty points: the two row windows move with the output's row block,
    which is block `t` at point `t`; every other block index is zero. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The feature rows' block at point `t`, at row `p`, is row `5000 t + p` of the array. -/
theorem blk0_apply (c : Dev nD) (t : Fin cfg3.N) (y : S5000x64.Idx) (i : S100000x64.Idx)
    (h0 : (i 0).val = 5000 * t.val + (y 0).val) (h1 : (i 1).val = (y 1).val) :
    (MlpC.blk V c 0 t : Vec Ideal S5000x64 .f32) y = (V c main_v30 : S100000x64.Idx → EReal) i := by
  obtain ⟨e0, e1, -⟩ := idx_facts t
  unfold MlpC.blk
  rw [View.read_apply]
  show V c main_v30 _ = V c main_v30 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The aggregated rows' block likewise. -/
theorem blk1_apply (c : Dev nD) (t : Fin cfg3.N) (y : S5000x64.Idx) (i : S100000x64.Idx)
    (h0 : (i 0).val = 5000 * t.val + (y 0).val) (h1 : (i 1).val = (y 1).val) :
    (MlpC.blk V c 1 t : Vec Ideal S5000x64 .f32) y = (V c main_v40 : S100000x64.Idx → EReal) i := by
  obtain ⟨-, -, e0, e1, -⟩ := idx_facts t
  unfold MlpC.blk
  rw [View.read_apply]
  show V c main_v40 _ = V c main_v40 _
  congr 1
  funext a
  apply Fin.ext
  match a with
  | ⟨0, _⟩ => show win3_1.index t (0 : Fin 2) * 5000 + 1 * (y 0).val = (i 0).val; rw [e0, h0]; omega
  | ⟨1, _⟩ => show win3_1.index t (1 : Fin 2) * 64 + 1 * (y 1).val = (i 1).val; rw [e1, h1]; omega

/-- The first weight matrix's block is the whole matrix at every point. -/
theorem blk2_eq (c : Dev nD) (t : Fin cfg3.N) : (MlpC.blk V c 2 t : Vec Ideal S64x64 .f32) = (V c main_arg11 : S64x64.Idx → EReal) := by
  obtain ⟨-, -, -, -, e0, e1, -⟩ := idx_facts t
  funext y
  unfold MlpC.blk
  rw [View.read_apply]
  show V c main_arg11 _ = V c main_arg11 y
  congr 1
  funext a
  apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- The first bias row's block is the whole row. -/
theorem blk3_eq (c : Dev nD) (t : Fin cfg3.N) : (MlpC.blk V c 3 t : Vec Ideal S1x64 .f32) = (V c main_v41 : S1x64.Idx → EReal) := by
  obtain ⟨-, -, -, -, -, -, e0, e1, -⟩ := idx_facts t
  funext y
  unfold MlpC.blk
  rw [View.read_apply]
  show V c main_v41 _ = V c main_v41 y
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-- The second weight matrix's block is the whole matrix. -/
theorem blk4_eq (c : Dev nD) (t : Fin cfg3.N) : (MlpC.blk V c 4 t : Vec Ideal S64x64 .f32) = (V c main_arg13 : S64x64.Idx → EReal) := by
  obtain ⟨-, -, -, -, -, -, -, -, e0, e1, -⟩ := idx_facts t
  funext y
  unfold MlpC.blk
  rw [View.read_apply]
  show V c main_arg13 _ = V c main_arg13 y
  congr 1
  funext a
  apply Fin.ext
  match a with
  | ⟨0, _⟩ => show win3_4.index t (0 : Fin 2) * 64 + 1 * (y 0).val = (y 0).val; rw [e0]; omega
  | ⟨1, _⟩ => show win3_4.index t (1 : Fin 2) * 64 + 1 * (y 1).val = (y 1).val; rw [e1]; omega

/-- The second bias row's block is the whole row. -/
theorem blk5_eq (c : Dev nD) (t : Fin cfg3.N) : (MlpC.blk V c 5 t : Vec Ideal S1x64 .f32) = (V c main_v42 : S1x64.Idx → EReal) := by
  obtain ⟨-, -, -, -, -, -, -, -, -, -, e0, e1, -⟩ := idx_facts t
  funext y
  unfold MlpC.blk
  rw [View.read_apply]
  show V c main_v42 _ = V c main_v42 y
  congr 1
  funext a
  apply Fin.ext
  match a with
  | ⟨0, _⟩ => show win3_5.index t (0 : Fin 2) * 1 + 1 * (y 0).val = (y 0).val; rw [e0]; omega
  | ⟨1, _⟩ => show win3_5.index t (1 : Fin 2) * 64 + 1 * (y 1).val = (y 1).val; rw [e1]; omega

/-- The layer of the whole arrays the region is entered with. -/
abbrev G (c : Dev nD) : S100000x64.Idx → EReal :=
  Spec.mlpFull (V c main_v30) (V c main_v40) (V c main_arg11) (V c main_v41) (V c main_arg13) (V c main_v42)

/-- What point `t` writes back is block `t` of the layer of the whole arrays. -/
theorem flushed_eq (c : Dev nD) (t : Fin cfg3.N) :
    (MlpC.dat (F := Ideal) V c).flushed 6 t = ((cfg3.win 6).blk t).view.read (Elt Ideal) (G V c) := by
  obtain ⟨-, -, -, -, -, -, -, -, -, -, -, -, e0, e1⟩ := idx_facts t
  show (cfg3.win 6).cut (grid3.coords t) ((MlpC.dat V c).after 6 t) = _
  rw [MlpC.after_6, outY_eq, blk2_eq, blk3_eq, blk4_eq, blk5_eq]
  funext j
  rw [View.read_apply]
  show Spec.mlpFull (MlpC.blk V c 0 t) (MlpC.blk V c 1 t) (V c main_arg11) (V c main_v41) (V c main_arg13) (V c main_v42) j
    = G V c (((cfg3.win 6).blk t).view.emb j)
  have r0 : ((((cfg3.win 6).blk t).view.emb j) 0).val = 5000 * t.val + (j 0).val := by
    show win3_6.index t (0 : Fin 2) * 5000 + 1 * (j 0).val = _; rw [e0]; omega
  have r1 : ((((cfg3.win 6).blk t).view.emb j) 1).val = (j 1).val := by
    show win3_6.index t (1 : Fin 2) * 64 + 1 * (j 1).val = _; rw [e1]; omega
  refine layer_row _ _ _ _ _ _ _ _ j _ (fun k => ?_) (fun k => ?_) (Fin.ext r1.symm)
  · exact blk0_apply V c t _ _ r0 rfl
  · exact blk1_apply V c t _ _ r0 rfl

/-- An index of the array is in point `t`'s block iff each coordinate is in the block's range on its axis. -/
theorem mem_blk (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v43).slice (win3_6.rect t)).set ↔ _
  rw [View.set_slice_whole, Rect.mem_set_unit]
  exact Iff.rfl

/-- Every row is in some point's block: row `r` in block `r / 5000`. -/
theorem cover (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_6 _, ?_⟩
  obtain ⟨-, -, -, -, -, -, -, -, -, -, -, -, e0, e1⟩ := idx_facts ⟨(i 0).val / 5000, by rw [hN]; omega⟩
  rw [mem_blk]
  intro a
  match a with
  | ⟨0, _⟩ =>
    show win3_6.index ⟨(i 0).val / 5000, _⟩ (0 : Fin 2) * 5000 ≤ (i 0).val ∧ (i 0).val < win3_6.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, _⟩ (1 : Fin 2) * 64 ≤ (i 1).val ∧ (i 1).val < win3_6.index ⟨(i 0).val / 5000, _⟩ (1 : Fin 2) * 64 + 64
    rw [e1]; omega

/-- THE ARRAY after the region: the layer of the arrays it was entered with. -/
theorem final (c : Dev nD) : (MlpC.dat (F := Ideal) V c).arrAt 6 cfg3.N
    = Spec.mlpFull (V c main_v30) (V c main_v40) (V c main_arg11) (V c main_v41) (V c main_arg13) (V c main_v42) :=
  (MlpC.dat (F := Ideal) V c).arrAt_eq_of_cover 6 (G V c) (fun t _ => flushed_eq V c t) cover

end Cert.KernelIdeal.MlpCVal

end
-- ==== Proof.Seg.lean ====
/-
  Aggregation over a graph's edges, as mathematics over the extended reals: a row gather read at an index, a row
  scatter-add read at an index, the aggregate `seg` they compose to, and its commutation with a row-wise linear map.
-/
import Idealize.ShloMosaic.PureOps.Ideal
import Idealize.ShloMosaic.PureOps.Ideal.Laws
import Idealize.ShloMosaic.PureOps.ShapeOps
import Idealize.ShloMosaic.PureOps.Contract
import Idealize.ShloMosaic.Lib.ValueIdx
import proofs.«404197_j31937376813167_3_alg».proof.Proof.Spec

noncomputable section

namespace Cert.Seg

open Idealize.ShloMosaic Idealize.ShloMosaic.ValueIdx Cert.Spec

/-- The dimension numbers of a ROW gather `x[idx]`: operand N×C, start indices E×1, result E×C. -/
abbrev rowGather (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a ROW scatter `.at[idx].add(upd)`: operand N×C, scatter indices E×1, updates E×C. -/
abbrev rowScatter (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row a start index selects: read signed, clamped into [0, N-1] (the slice on the row axis has size 1, so the
    gather's clamp `min v (N - slice)` of the signed reading's natural part is `min v (N - 1)`). -/
def clampRow (N : ℕ) (hN : 0 < N) (v : BitVec 32) : Fin N := ⟨min v.toInt.toNat (N - 1), by omega⟩

/-- THE ROW GATHER READ AT (e, j): the operand's row `clamp idx[e,0]`, column j. -/
theorem rowGather_apply {α : Type} {N E C : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (j : Fin C) :
    Host.gather (rowGather N E C wf) x idx (ix2 e j) = x (ix2 (clampRow N hN (idx (ix2 e 0))) j) := by
  have h10 : (1 : Fin 2) ∉ ([0] : List (Fin 2)) := by decide
  -- the row axis: collapsed (no offset), its start the clamped start index
  have h0 : (rowGather N E C wf).start (ix2 e j) idx 0 + (rowGather N E C wf).batchCoord (ix2 e j) 0
      + (rowGather N E C wf).offCoord (ix2 e j) 0 = (clampRow N hN (idx (ix2 e 0))).val := by
    rw [GatherDims.batchCoord_eq_zero _ _ _ List.not_mem_nil, Nat.add_zero,
      GatherDims.offCoord_eq_zero _ _ _
        (fun h => ((GatherDims.mem_sKept _ _).mp h).1 (List.mem_singleton.mpr rfl)), Nat.add_zero]
    unfold GatherDims.start
    rw [dif_pos (show (0 : Fin 2) ∈ (rowGather N E C wf).startIndexMap from List.mem_singleton.mpr rfl)]
    have hsi : (rowGather N E C wf).siIdx (ix2 e j) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- the column axis: not in the start index map (start 0), its offset the result's column
  have h1 : (rowGather N E C wf).start (ix2 e j) idx 1 + (rowGather N E C wf).batchCoord (ix2 e j) 1
      + (rowGather N E C wf).offCoord (ix2 e j) 1 = j.val := by
    rw [GatherDims.batchCoord_eq_zero _ _ _ List.not_mem_nil, Nat.add_zero]
    unfold GatherDims.start
    rw [dif_neg (show (1 : Fin 2) ∉ (rowGather N E C wf).startIndexMap from h10), Nat.zero_add]
    unfold GatherDims.offCoord
    rw [dif_pos (show (1 : Fin 2) ∈ (rowGather N E C wf).sKept from
      (GatherDims.mem_sKept _ _).mpr ⟨h10, List.not_mem_nil⟩)]
    rfl
  unfold Host.gather
  congr 1
  funext a
  refine Fin.ext ?_
  match a with
  | ⟨0, _⟩ => exact h0
  | ⟨1, _⟩ => exact h1

section RowScatter

variable {N E C : ℕ} (wf : ScatterDims.WF ⟨2, ![N, C]⟩ ⟨2, ![E, 1]⟩ ⟨2, ![E, C]⟩ [1] [0] [0] 1)
  (idx : IVec ⟨2, ![E, 1]⟩ 32) (e : Fin E) (j' : Fin C)

/-- On the row axis an update's window starts at its scatter index, read signed. -/
theorem rowScatter_start0 : (rowScatter N E C wf).start (ix2 e j') idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e j')
      ⟨List.idxOf (0 : Fin 2) (rowScatter N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The row axis is an inserted window axis: no window coordinate. -/
theorem rowScatter_window0 : (rowScatter N E C wf).window (ix2 e j') 0 = 0 := by
  unfold ScatterDims.window
  have h : (0 : Fin 2) ∉ (List.finRange 2).filter (· ∉ ([0] : List (Fin 2))) := by decide
  rw [dif_neg (show (0 : Fin 2) ∉ (rowScatter N E C wf).sKept from h)]

/-- The column axis is not named by the scatter map: its window starts at 0. -/
theorem rowScatter_start1 : (rowScatter N E C wf).start (ix2 e j') idx 1 = 0 := by
  unfold ScatterDims.start
  have h : (1 : Fin 2) ∉ ([0] : List (Fin 2)) := by decide
  rw [dif_neg (show (1 : Fin 2) ∉ (rowScatter N E C wf).scatterDimsToOperandDims from h)]

/-- On the column axis the window coordinate is the update's column. -/
theorem rowScatter_window1 : (rowScatter N E C wf).window (ix2 e j') 1 = j'.val := by
  unfold ScatterDims.window
  have h : (1 : Fin 2) ∈ (List.finRange 2).filter (· ∉ ([0] : List (Fin 2))) := by decide
  rw [dif_pos (show (1 : Fin 2) ∈ (rowScatter N E C wf).sKept from h)]
  rfl

/-- Update (e, j') lands at (n, j) exactly when its scatter index, read signed, is n and its column is j. -/
theorem rowScatter_resultIdx_iff (n : Fin N) (j : Fin C) :
    (rowScatter N E C wf).resultIdx? (ix2 e j') idx = some (ix2 n j)
      ↔ (idx (ix2 e 0)).toInt = (n.val : ℤ) ∧ j' = j := by
  unfold ScatterDims.resultIdx?
  split
  · rename_i hall
    have h0 : 0 ≤ (idx (ix2 e 0)).toInt + ((0 : ℕ) : ℤ) ∧ (idx (ix2 e 0)).toInt + ((0 : ℕ) : ℤ) < (N : ℤ) := by
      have := hall 0; rwa [rowScatter_start0, rowScatter_window0] at this
    rw [Option.some.injEq]
    constructor
    · intro h
      have e0 : ((rowScatter N E C wf).start (ix2 e j') idx 0
          + ((rowScatter N E C wf).window (ix2 e j') 0 : ℤ)).toNat = n.val := congrArg Fin.val (congrFun h 0)
      have e1 : ((rowScatter N E C wf).start (ix2 e j') idx 1
          + ((rowScatter N E C wf).window (ix2 e j') 1 : ℤ)).toNat = j.val := congrArg Fin.val (congrFun h 1)
      rw [rowScatter_start0, rowScatter_window0] at e0
      rw [rowScatter_start1, rowScatter_window1] at e1
      exact ⟨by omega, Fin.ext (by omega)⟩
    · rintro ⟨hn, rfl⟩
      funext a; refine Fin.ext ?_
      match a with
      | ⟨0, _⟩ =>
        show ((rowScatter N E C wf).start (ix2 e j') idx 0
          + ((rowScatter N E C wf).window (ix2 e j') 0 : ℤ)).toNat = n.val
        rw [rowScatter_start0, rowScatter_window0]; omega
      | ⟨1, _⟩ =>
        show ((rowScatter N E C wf).start (ix2 e j') idx 1
          + ((rowScatter N E C wf).window (ix2 e j') 1 : ℤ)).toNat = j'.val
        rw [rowScatter_start1, rowScatter_window1]; omega
  · rename_i hall
    constructor
    · intro h; cases h
    · rintro ⟨hn, rfl⟩
      exfalso; apply hall
      intro a
      match a with
      | ⟨0, _⟩ =>
        show 0 ≤ (rowScatter N E C wf).start (ix2 e j') idx 0 + ((rowScatter N E C wf).window (ix2 e j') 0 : ℤ)
          ∧ (rowScatter N E C wf).start (ix2 e j') idx 0 + ((rowScatter N E C wf).window (ix2 e j') 0 : ℤ) < (N : ℤ)
        rw [rowScatter_start0, rowScatter_window0]
        have := n.isLt; omega
      | ⟨1, _⟩ =>
        show 0 ≤ (rowScatter N E C wf).start (ix2 e j') idx 1 + ((rowScatter N E C wf).window (ix2 e j') 1 : ℤ)
          ∧ (rowScatter N E C wf).start (ix2 e j') idx 1 + ((rowScatter N E C wf).window (ix2 e j') 1 : ℤ) < (C : ℤ)
        rw [rowScatter_start1, rowScatter_window1]
        have := j'.isLt; omega

end RowScatter

/-- THE ROW SCATTER-ADD READ AT (n, j), over the extended reals: the operand's entry plus the sum of the updates'
    entries (e, j) over the updates e whose index, read signed and NOT clamped, is n (an index outside [0, N) lands
    nowhere). -/
theorem rowScatter_apply {N E C : ℕ}
    (wf : ScatterDims.WF ⟨2, ![N, C]⟩ ⟨2, ![E, 1]⟩ ⟨2, ![E, C]⟩ [1] [0] [0] 1)
    (z : Mat N C) (idx : IVec ⟨2, ![E, 1]⟩ 32) (upd : Mat E C) (n : Fin N) (j : Fin C) :
    Host.scatterAdd (F := Ideal) (φ := .f32) (rowScatter N E C wf) z idx upd (ix2 n j)
      = z (ix2 n j)
        + ∑ e ∈ Finset.univ.filter (fun e : Fin E => (idx (ix2 e 0)).toInt = (n.val : ℤ)), upd (ix2 e j) := by
  show z (ix2 n j) + ∑ p ∈ Finset.univ.filter
      (fun p => (rowScatter N E C wf).resultIdx? p idx = some (ix2 n j)), upd p = _
  congr 1
  -- the landing updates are the pairs (e, j) with e's index n: sum over the pairs by rows, then one column survives
  rw [Finset.sum_filter, Finset.sum_filter, sum_idx2]
  refine Finset.sum_congr rfl fun e _ => ?_
  rw [Finset.sum_eq_single j]
  · exact if_congr ((rowScatter_resultIdx_iff wf idx e j n j).trans (and_iff_left rfl)) rfl rfl
  · intro j' _ hne
    rw [if_neg]
    intro h
    exact hne ((rowScatter_resultIdx_iff wf idx e j' n j).mp h).2
  · intro h; exact absurd (Finset.mem_univ _) h

/-- Rows aggregated over incoming edges: scatter-add, at the destination indices and into zeros, of the rows gathered
    at the source indices. -/
def seg (N E C : ℕ)
    (wfG : GatherDims.WF ⟨2, ![N, C]⟩ ⟨2, ![E, 1]⟩ ⟨2, ![E, C]⟩ [1] [0] [] [0] [] 1 ![1, C])
    (wfD : ScatterDims.WF ⟨2, ![N, C]⟩ ⟨2, ![E, 1]⟩ ⟨2, ![E, C]⟩ [1] [0] [0] 1)
    (src dst : IVec ⟨2, ![E, 1]⟩ 32) (x : Mat N C) : Mat N C :=
  Host.scatterAdd (F := Ideal) (φ := .f32) (rowScatter N E C wfD) (fun _ => (0 : EReal)) dst
    (Host.gather (rowGather N E C wfG) x src)

/-- The aggregate read at (n, j): the sum, over the edges whose destination is n, of the source row's entry j. -/
theorem seg_apply {N E C : ℕ} (hN : 0 < N)
    (wfG : GatherDims.WF ⟨2, ![N, C]⟩ ⟨2, ![E, 1]⟩ ⟨2, ![E, C]⟩ [1] [0] [] [0] [] 1 ![1, C])
    (wfD : ScatterDims.WF ⟨2, ![N, C]⟩ ⟨2, ![E, 1]⟩ ⟨2, ![E, C]⟩ [1] [0] [0] 1)
    (src dst : IVec ⟨2, ![E, 1]⟩ 32) (x : Mat N C) (n : Fin N) (j : Fin C) :
    seg N E C wfG wfD src dst x (ix2 n j)
      = ∑ e ∈ Finset.univ.filter (fun e : Fin E => (dst (ix2 e 0)).toInt = (n.val : ℤ)),
          x (ix2 (clampRow N hN (src (ix2 e 0))) j) := by
  unfold seg
  rw [rowScatter_apply, zero_add]
  refine Finset.sum_congr rfl fun e _ => ?_
  rw [rowGather_apply hN]

/-- A finite sum of reals, read in the extended reals, is the sum of the readings. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Aggregation commutes with a row-wise linear map, for arrays of REAL entries (distributivity fails at infinities):
    `(x + seg x) · w = x · w + seg (x · w)`. -/
theorem seg_linear {N E K J : ℕ} (hN : 0 < N)
    (wfG_K : GatherDims.WF ⟨2, ![N, K]⟩ ⟨2, ![E, 1]⟩ ⟨2, ![E, K]⟩ [1] [0] [] [0] [] 1 ![1, K])
    (wfD_K : ScatterDims.WF ⟨2, ![N, K]⟩ ⟨2, ![E, 1]⟩ ⟨2, ![E, K]⟩ [1] [0] [0] 1)
    (wfG_J : GatherDims.WF ⟨2, ![N, J]⟩ ⟨2, ![E, 1]⟩ ⟨2, ![E, J]⟩ [1] [0] [] [0] [] 1 ![1, J])
    (wfD_J : ScatterDims.WF ⟨2, ![N, J]⟩ ⟨2, ![E, 1]⟩ ⟨2, ![E, J]⟩ [1] [0] [0] 1)
    (src dst : IVec ⟨2, ![E, 1]⟩ 32) (x : Mat N K) (w : Mat K J)
    (hx : ∀ i, ∃ r : ℝ, x i = (r : EReal)) (hw : ∀ i, ∃ r : ℝ, w i = (r : EReal)) :
    mm (add x (seg N E K wfG_K wfD_K src dst x)) w
      = add (mm x w) (seg N E J wfG_J wfD_J src dst (mm x w)) := by
  choose xr hxr using hx
  choose wr hwr using hw
  funext i
  obtain ⟨n, j, rfl⟩ : ∃ n j, i = ix2 n j := ⟨i 0, i 1, eq_ix2 i⟩
  -- both sides, entry by entry, through the reading of the aggregate at an index
  show ∑ q : Fin K, (x (ix2 n q) + seg N E K wfG_K wfD_K src dst x (ix2 n q)) * w (ix2 q j)
    = ∑ q : Fin K, x (ix2 n q) * w (ix2 q j) + seg N E J wfG_J wfD_J src dst (mm x w) (ix2 n j)
  simp only [seg_apply hN]
  have hmm : ∀ r : Fin N, mm x w (ix2 r j) = ∑ q : Fin K, x (ix2 r q) * w (ix2 q j) := fun _ => rfl
  simp only [hmm, hxr, hwr]
  -- every entry is a real: move the sums and products inside the reading of reals
  simp only [← coe_finset_sum, ← EReal.coe_mul, ← EReal.coe_add]
  congr 1
  -- over the reals: distribute, split the sum, and exchange the sum over edges with the sum over columns
  simp only [add_mul, Finset.sum_add_distrib, Finset.sum_mul]
  congr 1
  exact Finset.sum_comm

end Cert.Seg

end
-- ==== Proof.PoolLaw.lean ====
/-
  Pooling and read-out laws over the extended reals: per-segment sums by scatter-add are a product with a membership
  matrix; a scatter-add of ones counts; division by a clamped count is multiplication by its reciprocal; the logistic
  function is its defining quotient.
-/
import Idealize.ShloMosaic.PureOps.Ideal
import Idealize.ShloMosaic.PureOps.Ideal.Laws
import Idealize.ShloMosaic.PureOps.Contract
import Idealize.ShloMosaic.Lib.ValueIdx
import proofs.«404197_j31937376813167_3_alg».proof.Proof.Spec
import proofs.«404197_j31937376813167_3_alg».proof.Proof.Seg

noncomputable section

namespace Cert.PoolLaw

open Idealize.ShloMosaic Idealize.ShloMosaic.ValueIdx Cert.Spec

/-- The membership matrix of a vector of segment ids: entry (r, g) is 1 when node r's id, read signed, is g, else 0. -/
def member (n : ℕ) (ids : IVec ⟨2, ![n, 1]⟩ 32) : Mat n 64 :=
  fun i => if (ids (ix2 (i 0) 0)).toInt = ((i 1).val : ℤ) then 1 else 0

/-- Per-segment sums by scatter-add into zeros ARE the product with the membership matrix: both are, at (g, j), the
    sum of h[r, j] over the nodes r of segment g. -/
theorem pool_member {n : ℕ}
    (wf : ScatterDims.WF ⟨2, ![64, 64]⟩ ⟨2, ![n, 1]⟩ ⟨2, ![n, 64]⟩ [1] [0] [0] 1)
    (ids : IVec ⟨2, ![n, 1]⟩ 32) (h : Mat n 64) :
    Host.scatterAdd (F := Ideal) (φ := .f32) (Seg.rowScatter 64 n 64 wf) (fun _ => (0 : EReal)) ids h
      = pool (member n ids) h := by
  funext i
  obtain ⟨g, j, rfl⟩ : ∃ (g : Fin 64) (j : Fin 64), i = ix2 g j := ⟨i 0, i 1, eq_ix2 i⟩
  rw [Seg.rowScatter_apply wf (fun _ => (0 : EReal)) ids h g j]
  -- the left side sums h[e, j] over the nodes e of segment g; the right side sums indicator products over all nodes
  show (0 : EReal) + ∑ e ∈ Finset.univ.filter (fun e : Fin n => (ids (ix2 e 0)).toInt = (g.val : ℤ)), h (ix2 e j)
      = ∑ r : Fin n, member n ids (ix2 r g) * h (ix2 r j)
  -- a sum over a filtered set is the sum of the terms guarded by the filter's condition
  rw [zero_add, Finset.sum_filter]
  refine Finset.sum_congr rfl (fun r _ => ?_)
  -- term by term: an indicator times x is x under the condition and 0 otherwise (0 · x = 0 at every extended real)
  show (if (ids (ix2 r 0)).toInt = (g.val : ℤ) then h (ix2 r j) else 0)
      = (if (ids (ix2 r 0)).toInt = (g.val : ℤ) then (1 : EReal) else 0) * h (ix2 r j)
  rw [ite_mul, one_mul, zero_mul]

/-- The n-fold sum of 1 in the extended reals is the real number n. -/
theorem nsmul_one_eq (n : ℕ) : n • (1 : EReal) = ((n : ℝ) : EReal) := by
  induction n with
  | zero => rw [zero_nsmul, Nat.cast_zero, EReal.coe_zero]
  | succ m ih => rw [succ_nsmul, ih, Nat.cast_succ, EReal.coe_add, EReal.coe_one]

/-- A scatter-add of ones into zeros counts: every entry is a natural number (whatever the dimension numbers and
    indices): it is the number of updates landing on that entry. -/
theorem count_nat {s si su : Shape} (d : ScatterDims s si su) {w : ℕ} (idx : IVec si w) (i : s.Idx) :
    ∃ k : ℕ, Host.scatterAdd (F := Ideal) (φ := .f32) d (fun _ => (0 : EReal)) idx (fun _ => (1 : EReal)) i
      = ((k : ℝ) : EReal) := by
  refine ⟨(Finset.univ.filter (fun j : su.Idx => d.resultIdx? j idx = some i)).card, ?_⟩
  show Ideal.hostScatterAdd d (fun _ => (0 : EReal)) idx (fun _ => (1 : EReal)) i = _
  unfold Ideal.hostScatterAdd
  -- the sum of the constant 1 over a finite set is its cardinality
  rw [zero_add, Finset.sum_const, nsmul_one_eq]

/-- Dividing by a count clamped below at 1 is multiplying by its reciprocal, on every extended real: the clamped count
    is a nonzero real, and division by a nonzero real is the product with its real reciprocal. -/
theorem div_count (x : EReal) (k : ℕ) :
    Ideal.div x (max (((k : ℝ) : EReal)) 1) = x * Ideal.div 1 (max (((k : ℝ) : EReal)) 1) := by
  -- the inclusion of the reals is monotone, so it commutes with max
  have hmax : max (((k : ℝ) : EReal)) 1 = ((max (k : ℝ) 1 : ℝ) : EReal) :=
    (EReal.coe_strictMono.monotone.map_max (a := (k : ℝ)) (b := (1 : ℝ))).symm
  have hne : max (k : ℝ) 1 ≠ 0 := ne_of_gt (lt_of_lt_of_le one_pos (le_max_right _ _))
  rw [hmax, Ideal.div_coe hne, Ideal.div_coe hne, one_mul]

/-- The logistic function is the quotient 1 / (1 + e^(-x)): its definition. -/
theorem logistic_quot (x : EReal) : Ideal.div 1 (1 + Ideal.exp (-x)) = Ideal.logistic x := rfl

end Cert.PoolLaw

end
-- ==== Proof.Net.lean ====
/-
  The two programs' networks as compositions of the layers of Spec over the extended reals, and their equality.
  Both take the edge endpoints as index columns (sources already wrapped, destinations raw), the graph ids as an index
  column and the per-graph node counts as a vector; the idealized kernel projects the features before aggregating and
  pools through the membership matrix with reciprocal counts, the reference aggregates the raw features and pools by
  scatter-add and division.
-/
import proofs.«404197_j31937376813167_3_alg».proof.Proof.Spec
import proofs.«404197_j31937376813167_3_alg».proof.Proof.Seg
import proofs.«404197_j31937376813167_3_alg».proof.Proof.PoolLaw

noncomputable section

namespace Cert.Net

open Idealize.ShloMosaic Idealize.ShloMosaic.ValueIdx Cert.Spec Cert.Seg Cert.PoolLaw

/-- The well-formedness facts of the row gathers and row scatters the networks use (100000 nodes, 1600000 edges, 64 graphs). -/
structure WFs : Prop where
  g128 : GatherDims.WF ⟨2, ![100000, 128]⟩ ⟨2, ![1600000, 1]⟩ ⟨2, ![1600000, 128]⟩ [1] [0] [] [0] [] 1 ![1, 128]
  d128 : ScatterDims.WF ⟨2, ![100000, 128]⟩ ⟨2, ![1600000, 1]⟩ ⟨2, ![1600000, 128]⟩ [1] [0] [0] 1
  g64 : GatherDims.WF ⟨2, ![100000, 64]⟩ ⟨2, ![1600000, 1]⟩ ⟨2, ![1600000, 64]⟩ [1] [0] [] [0] [] 1 ![1, 64]
  d64 : ScatterDims.WF ⟨2, ![100000, 64]⟩ ⟨2, ![1600000, 1]⟩ ⟨2, ![1600000, 64]⟩ [1] [0] [0] 1
  dP : ScatterDims.WF ⟨2, ![64, 64]⟩ ⟨2, ![100000, 1]⟩ ⟨2, ![100000, 64]⟩ [1] [0] [0] 1

variable (wf : WFs) (src dst : IVec ⟨2, ![1600000, 1]⟩ 32) (ids : IVec ⟨2, ![100000, 1]⟩ 32) (cnt : Vc 64)

/-- Aggregation over incoming edges of a 64-wide array. -/
abbrev seg64 (h : Mat 100000 64) : Mat 100000 64 := seg 100000 1600000 64 wf.g64 wf.d64 src dst h
/-- Aggregation over incoming edges of a 128-wide array. -/
abbrev seg128 (x : Mat 100000 128) : Mat 100000 128 := seg 100000 1600000 128 wf.g128 wf.d128 src dst x

/-- The reciprocal counts as a column: `1 / max (cnt g) 1`. -/
def cinv : Mat 64 1 := fun i => Ideal.div 1 (max (cnt (ix1 (i 0))) 1)

/-- The node features after the three layers, as the idealized kernel computes them (projection before aggregation). -/
def kerFeat (x : Mat 100000 128) (w1 : Mat 128 64) (b1 : Vc 64) (w2 : Mat 64 64) (b2 : Vc 64)
    (w3 : Mat 64 64) (b3 : Vc 64) (w4 : Mat 64 64) (b4 : Vc 64) (w5 : Mat 64 64) (b5 : Vc 64) (w6 : Mat 64 64) (b6 : Vc 64) : Mat 100000 64 :=
  let y := mm x w1
  let h1 := mlpSkip y (seg64 wf src dst y) (row b1) w2 (row b2)
  let h2 := relu (mlpFull h1 (seg64 wf src dst h1) w3 (row b3) w4 (row b4))
  mlpFull h2 (seg64 wf src dst h2) w5 (row b5) w6 (row b6)

/-- The idealized kernel's read-out of node features: membership-matrix pooling, reciprocal counts, two affine maps, the logistic. -/
def kerOut (h3 : Mat 100000 64) (fw : Mat 64 32) (fb : Vc 32) (pw : Mat 32 1) (pb : Vc 1) : Mat 64 1 :=
  head (pool (member 100000 ids) h3) (cinv cnt) fw (row fb) pw (row pb)

/-- The node features after the three layers, as the reference computes them (aggregation of the raw features). -/
def refFeat (x : Mat 100000 128) (w1 : Mat 128 64) (b1 : Vc 64) (w2 : Mat 64 64) (b2 : Vc 64)
    (w3 : Mat 64 64) (b3 : Vc 64) (w4 : Mat 64 64) (b4 : Vc 64) (w5 : Mat 64 64) (b5 : Vc 64) (w6 : Mat 64 64) (b6 : Vc 64) : Mat 100000 64 :=
  let h1 := relu (mlpFull x (seg128 wf src dst x) w1 (row b1) w2 (row b2))
  let h2 := relu (mlpFull h1 (seg64 wf src dst h1) w3 (row b3) w4 (row b4))
  mlpFull h2 (seg64 wf src dst h2) w5 (row b5) w6 (row b6)

/-- The reference's pooled means: per-graph sums by scatter-add into zeros, divided by the counts clamped below at 1. -/
def meanPool (h : Mat 100000 64) : Mat 64 64 := fun i =>
  Ideal.div (Host.scatterAdd (F := Ideal) (φ := .f32) (rowScatter 64 100000 64 wf.dP) (fun _ => (0 : EReal)) ids h i) (max (cnt (ix1 (i 0))) 1)

/-- The reference's read-out of node features: mean pooling, two affine maps, `1 / (1 + e^(-z))`. -/
def refOut (h3 : Mat 100000 64) (fw : Mat 64 32) (fb : Vc 32) (pw : Mat 32 1) (pb : Vc 1) : Mat 64 1 :=
  fun i => Ideal.div 1 (1 + Ideal.exp (-(addRow (mm (addRow (mm (meanPool wf ids cnt h3) fw) (row fb)) pw) (row pb) i)))

/-- The first layer: aggregation commutes with the projection when features and weights are real. -/
theorem feat_eq (x : Mat 100000 128) (w1 : Mat 128 64) (hx : ∀ i, ∃ r : ℝ, x i = (r : EReal)) (hw : ∀ i, ∃ r : ℝ, w1 i = (r : EReal))
    (b1 : Vc 64) (w2 : Mat 64 64) (b2 : Vc 64)
    (w3 : Mat 64 64) (b3 : Vc 64) (w4 : Mat 64 64) (b4 : Vc 64) (w5 : Mat 64 64) (b5 : Vc 64) (w6 : Mat 64 64) (b6 : Vc 64) :
    kerFeat wf src dst x w1 b1 w2 b2 w3 b3 w4 b4 w5 b5 w6 b6 = refFeat wf src dst x w1 b1 w2 b2 w3 b3 w4 b4 w5 b5 w6 b6 := by
  have hL1 : mlpSkip (mm x w1) (seg64 wf src dst (mm x w1)) (row b1) w2 (row b2)
      = relu (mlpFull x (seg128 wf src dst x) w1 (row b1) w2 (row b2)) := by
    unfold mlpSkip mlpFull
    rw [seg_linear (by norm_num) wf.g128 wf.d128 wf.g64 wf.d64 src dst x w1 hx hw]
  unfold kerFeat refFeat
  simp only [hL1]

/-- The read-outs agree when the counts are natural numbers: membership pooling is scatter-add pooling, multiplying by
    the reciprocal of a clamped count is dividing by it, and the logistic is its quotient form. -/
theorem out_eq (hcnt : ∀ g, ∃ k : ℕ, cnt g = ((k : ℝ) : EReal)) (h3 : Mat 100000 64) (fw : Mat 64 32) (fb : Vc 32) (pw : Mat 32 1) (pb : Vc 1) :
    kerOut ids cnt h3 fw fb pw pb = refOut wf ids cnt h3 fw fb pw pb := by
  have key : ∀ (s : EReal) (g : (⟨1, ![64]⟩ : Shape).Idx), s * Ideal.div 1 (max (cnt g) 1) = Ideal.div s (max (cnt g) 1) := by
    intro s g
    obtain ⟨k, hk⟩ := hcnt g
    rw [hk, div_count s k]
  have hP : (fun j : (⟨2, ![64, 64]⟩ : Shape).Idx => pool (member 100000 ids) h3 j * cinv cnt (ix2 (j 0) 0)) = meanPool wf ids cnt h3 := by
    funext j
    unfold meanPool cinv
    rw [← pool_member wf.dP ids h3]
    exact key _ _
  funext i
  unfold kerOut refOut head
  rw [hP, logistic_quot]

end Cert.Net

end
-- ==== Proof.KI.Stretch.lean ====
/-
  The host stretches between the regions of the idealized kernel program, read over the extended reals: what each
  stretch leaves in the buffers the next region takes, as the network's functions. Stretch 0 cuts the edge index into
  its two rows; each of stretches 1 to 3 wraps the source indices, gathers the rows of the node features at them,
  scatter-adds the gathered rows at the destination indices into zeros (the aggregation over incoming edges), and lays
  two bias vectors out as rows; everything else passes through.
-/
import proofs.«404197_j31937376813167_3_alg».proof.Proof.KI.Chain
import proofs.«404197_j31937376813167_3_alg».proof.Proof.Net
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Stretch

open Idealize.ShloMosaic Idealize.ShloMosaic.TcCoe Idealize.ShloMosaic.ValueIdx
open Idealize.SL.Sem
open Cert.KernelIdeal Cert.KernelIdeal.Gen Cert.KernelIdeal.Chain Cert.Spec Cert.Net

/-! ## The index columns as functions of the edge index -/

/-- Row 0 of the 2 × E edge index as a vector: the edges' sources. -/
def srcRow (ei : IVec S2x1600000 32) : IVec S1600000 32 :=
  shapeCast S1600000 (extractStridedSlice S1x1600000 ![0, 0] ei slices_S2x1600000_S1x1600000_0_0) shapeCasts_S1x1600000_S1600000

/-- Row 1 of the edge index as a vector: the edges' destinations. -/
def dstRow (ei : IVec S2x1600000 32) : IVec S1600000 32 :=
  shapeCast S1600000 (extractStridedSlice S1x1600000 ![1, 0] ei slices_S2x1600000_S1x1600000_1_0) shapeCasts_S1x1600000_S1600000

/-- The source indices as the gather takes them: a negative index wrapped by the number of nodes, laid out as a
    column. -/
def srcCol (ei : IVec S2x1600000 32) : IVec ⟨2, ![1600000, 1]⟩ 32 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32)))
      (srcRow ei))

/-- The destination indices as the scatter takes them: laid out as a column, not wrapped. -/
def dstCol (ei : IVec S2x1600000 32) : IVec ⟨2, ![1600000, 1]⟩ 32 :=
  broadcastInDim S1600000x1 ![0] bcast_S1600000_S1600000x1_0 (dstRow ei)

/-! ## The two patterns every stretch repeats -/

/-- Scatter-add into zeros, at the destination column, of the rows gathered at the wrapped source column IS the
    aggregation over incoming edges: the program's dimension numbers are the row gather's and the row scatter's, and
    the broadcast zero constant is the zero array. -/
theorem agg_eq (wf : WFs) (ei : IVec S2x1600000 32) (h : Mat 100000 64) :
    Host.scatterAdd (F := Ideal) (φ := .f32) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (dstRow ei))
      (Host.gather gather_S100000x64_S1600000x1_S1600000x64_1_0_n_n_0_1_164 h
        (broadcastInDim S1600000x1 ![0] bcast_S1600000_S1600000x1_0
          (select (cmpi .slt (srcRow ei) (broadcastInDim S1600000 ![] bcast_S_S1600000 (constantI S_ 32 0#32)))
            (addi (srcRow ei) (broadcastInDim S1600000 ![] bcast_S_S1600000 (constantI S_ 32 100000#32)))
            (srcRow ei))))
      = seg64 wf (srcCol ei) (dstCol ei) h := by
  have hz : (broadcastInDim S100000x64 ![] bcast_S_S100000x64 (constant (F := Ideal) S_ .f32 0x00000000#32) : Mat 100000 64)
      = fun _ => (0 : EReal) := by
    funext i
    rw [broadcastInDim_scalar_apply, constant_apply, Ideal.ofBits_zero_f32]
  rw [hz]
  rfl

/-- A 64-vector reshaped to 1 × 64 is the vector laid out as a row. -/
theorem reshape_row (b : Vc 64) : shapeCast S1x64 b shapeCasts_S64_S1x64 = row b := by
  funext j
  obtain ⟨u, q, rfl⟩ : ∃ (u : Fin 1) (q : Fin 64), j = ix2 u q := ⟨j 0, j 1, eq_ix2 j⟩
  rw [shapeCast_a_1a_apply]
  rfl

/-! ## What passes through -/

variable (m : (ℓ : Loc nD τ sig) → Buf (Elt Ideal) ℓ) (c : Dev nD)

theorem W1_of (r : Ref sig .tc) (h : r ∉ hostOps0_W) : W1 m c r = m ((c : Thread nD τ).loc r) :=
  StableHlo.after_of_writes_sub hostOps0 _ hostOps0_writes h
theorem W2_of (r : Ref sig .tc) (h : r ≠ main_v4) : W2 m c r = W1 m c r :=
  Function.update_of_ne (StableHlo.devRef_ne_of_ne h) _ _
theorem W3_of (r : Ref sig .tc) (h : r ∉ hostOps1_W) : W3 m c r = W2 m c r :=
  StableHlo.after_of_writes_sub hostOps1 _ hostOps1_writes h
theorem W4_of (r : Ref sig .tc) (h : r ≠ main_v17) : W4 m c r = W3 m c r :=
  Function.update_of_ne (StableHlo.devRef_ne_of_ne h) _ _
theorem W5_of (r : Ref sig .tc) (h : r ∉ hostOps2_W) : W5 m c r = W4 m c r :=
  StableHlo.after_of_writes_sub hostOps2 _ hostOps2_writes h
theorem W6_of (r : Ref sig .tc) (h : r ≠ main_v30) : W6 m c r = W5 m c r :=
  Function.update_of_ne (StableHlo.devRef_ne_of_ne h) _ _
theorem W7_of (r : Ref sig .tc) (h : r ∉ hostOps3_W) : W7 m c r = W6 m c r :=
  StableHlo.after_of_writes_sub hostOps3 _ hostOps3_writes h

/-- A buffer no item up to region 0 writes is as launched when stretch 1 starts … -/
theorem W2_arg (r : Ref sig .tc) (h0 : r ∉ hostOps0_W) (h1 : r ≠ main_v4) : W2 m c r = m ((c : Thread nD τ).loc r) :=
  (W2_of m c r h1).trans (W1_of m c r h0)
/-- … when stretch 2 starts … -/
theorem W4_arg (r : Ref sig .tc) (h0 : r ∉ hostOps0_W) (h1 : r ≠ main_v4) (h2 : r ∉ hostOps1_W) (h3 : r ≠ main_v17) :
    W4 m c r = m ((c : Thread nD τ).loc r) :=
  (W4_of m c r h3).trans ((W3_of m c r h2).trans (W2_arg m c r h0 h1))
/-- … and when stretch 3 starts. -/
theorem W6_arg (r : Ref sig .tc) (h0 : r ∉ hostOps0_W) (h1 : r ≠ main_v4) (h2 : r ∉ hostOps1_W) (h3 : r ≠ main_v17)
    (h4 : r ∉ hostOps2_W) (h5 : r ≠ main_v30) : W6 m c r = m ((c : Thread nD τ).loc r) :=
  (W6_of m c r h5).trans ((W5_of m c r h4).trans (W4_arg m c r h0 h1 h2 h3))

/-! ## Stretch 0: the two index rows -/

theorem x_in : W1 m c main_arg0 = m ((c : Thread nD τ).loc main_arg0) := W1_of m c main_arg0 (by decide)
theorem w1_in : W1 m c main_arg3 = m ((c : Thread nD τ).loc main_arg3) := W1_of m c main_arg3 (by decide)

theorem W1_v1 : W1 m c main_v1 = srcRow (m ((c : Thread nD τ).loc main_arg1)) := by
  show StableHlo.after hostOps0 (W0 m c) (Proc.devRef .tc main_v1) = _
  after_results
  rfl
theorem W1_v3 : W1 m c main_v3 = dstRow (m ((c : Thread nD τ).loc main_arg1)) := by
  show StableHlo.after hostOps0 (W0 m c) (Proc.devRef .tc main_v3) = _
  after_results
  rfl

/-- The two rows reach every later stretch unchanged. -/
theorem W2_v1 : W2 m c main_v1 = srcRow (m ((c : Thread nD τ).loc main_arg1)) :=
  (W2_of m c main_v1 (by decide)).trans (W1_v1 m c)
theorem W2_v3 : W2 m c main_v3 = dstRow (m ((c : Thread nD τ).loc main_arg1)) :=
  (W2_of m c main_v3 (by decide)).trans (W1_v3 m c)
theorem W4_v1 : W4 m c main_v1 = srcRow (m ((c : Thread nD τ).loc main_arg1)) :=
  (W4_of m c main_v1 (by decide)).trans ((W3_of m c main_v1 (by decide)).trans (W2_v1 m c))
theorem W4_v3 : W4 m c main_v3 = dstRow (m ((c : Thread nD τ).loc main_arg1)) :=
  (W4_of m c main_v3 (by decide)).trans ((W3_of m c main_v3 (by decide)).trans (W2_v3 m c))
theorem W6_v1 : W6 m c main_v1 = srcRow (m ((c : Thread nD τ).loc main_arg1)) :=
  (W6_of m c main_v1 (by decide)).trans ((W5_of m c main_v1 (by decide)).trans (W4_v1 m c))
theorem W6_v3 : W6 m c main_v3 = dstRow (m ((c : Thread nD τ).loc main_arg1)) :=
  (W6_of m c main_v3 (by decide)).trans ((W5_of m c main_v3 (by decide)).trans (W4_v3 m c))

/-- Each region's output is what the next stretch reads at that array. -/
theorem W2_self : W2 m c main_v4 = o2 m c := by
  show Function.update (W1 m c) main_v4 (o2 m c) main_v4 = o2 m c
  simp only [Function.update_self]
theorem W4_self : W4 m c main_v17 = o4 m c := by
  show Function.update (W3 m c) main_v17 (o4 m c) main_v17 = o4 m c
  simp only [Function.update_self]
theorem W6_self : W6 m c main_v30 = o6 m c := by
  show Function.update (W5 m c) main_v30 (o6 m c) main_v30 = o6 m c
  simp only [Function.update_self]

/-! ## Stretch 1: what region 1 takes -/

theorem seg1 (wf : WFs) : W3 m c main_v14
    = seg64 wf (srcCol (m ((c : Thread nD τ).loc main_arg1))) (dstCol (m ((c : Thread nD τ).loc main_arg1))) (o2 m c) := by
  show StableHlo.after hostOps1 (W2 m c) (Proc.devRef .tc main_v14) = _
  after_results
  rw [W2_v1, W2_v3, W2_self]
  exact agg_eq wf _ _
theorem self1 : W3 m c main_v4 = o2 m c := (W3_of m c main_v4 (by decide)).trans (W2_self m c)
theorem b1a : W3 m c main_v15 = row (m ((c : Thread nD τ).loc main_arg4)) := by
  show StableHlo.after hostOps1 (W2 m c) (Proc.devRef .tc main_v15) = _
  after_results
  rw [W2_arg m c main_arg4 (by decide) (by decide)]
  exact reshape_row _
theorem w1a : W3 m c main_arg5 = m ((c : Thread nD τ).loc main_arg5) :=
  (W3_of m c main_arg5 (by decide)).trans (W2_arg m c main_arg5 (by decide) (by decide))
theorem b2a : W3 m c main_v16 = row (m ((c : Thread nD τ).loc main_arg6)) := by
  show StableHlo.after hostOps1 (W2 m c) (Proc.devRef .tc main_v16) = _
  after_results
  rw [W2_arg m c main_arg6 (by decide) (by decide)]
  exact reshape_row _

/-! ## Stretch 2: what region 2 takes -/

theorem seg2 (wf : WFs) : W5 m c main_v27
    = seg64 wf (srcCol (m ((c : Thread nD τ).loc main_arg1))) (dstCol (m ((c : Thread nD τ).loc main_arg1))) (o4 m c) := by
  show StableHlo.after hostOps2 (W4 m c) (Proc.devRef .tc main_v27) = _
  after_results
  rw [W4_v1, W4_v3, W4_self]
  exact agg_eq wf _ _
theorem self2 : W5 m c main_v17 = o4 m c := (W5_of m c main_v17 (by decide)).trans (W4_self m c)
theorem w2a : W5 m c main_arg7 = m ((c : Thread nD τ).loc main_arg7) :=
  (W5_of m c main_arg7 (by decide)).trans (W4_arg m c main_arg7 (by decide) (by decide) (by decide) (by decide))
theorem b2b : W5 m c main_v28 = row (m ((c : Thread nD τ).loc main_arg8)) := by
  show StableHlo.after hostOps2 (W4 m c) (Proc.devRef .tc main_v28) = _
  after_results
  rw [W4_arg m c main_arg8 (by decide) (by decide) (by decide) (by decide)]
  exact reshape_row _
theorem w2b : W5 m c main_arg9 = m ((c : Thread nD τ).loc main_arg9) :=
  (W5_of m c main_arg9 (by decide)).trans (W4_arg m c main_arg9 (by decide) (by decide) (by decide) (by decide))
theorem b2c : W5 m c main_v29 = row (m ((c : Thread nD τ).loc main_arg10)) := by
  show StableHlo.after hostOps2 (W4 m c) (Proc.devRef .tc main_v29) = _
  after_results
  rw [W4_arg m c main_arg10 (by decide) (by decide) (by decide) (by decide)]
  exact reshape_row _

/-! ## Stretch 3: what region 3 takes -/

theorem seg3 (wf : WFs) : W7 m c main_v40
    = seg64 wf (srcCol (m ((c : Thread nD τ).loc main_arg1))) (dstCol (m ((c : Thread nD τ).loc main_arg1))) (o6 m c) := by
  show StableHlo.after hostOps3 (W6 m c) (Proc.devRef .tc main_v40) = _
  after_results
  rw [W6_v1, W6_v3, W6_self]
  exact agg_eq wf _ _
theorem self3 : W7 m c main_v30 = o6 m c := (W7_of m c main_v30 (by decide)).trans (W6_self m c)
theorem w3a : W7 m c main_arg11 = m ((c : Thread nD τ).loc main_arg11) :=
  (W7_of m c main_arg11 (by decide)).trans
    (W6_arg m c main_arg11 (by decide) (by decide) (by decide) (by decide) (by decide) (by decide))
theorem b3a : W7 m c main_v41 = row (m ((c : Thread nD τ).loc main_arg12)) := by
  show StableHlo.after hostOps3 (W6 m c) (Proc.devRef .tc main_v41) = _
  after_results
  rw [W6_arg m c main_arg12 (by decide) (by decide) (by decide) (by decide) (by decide) (by decide)]
  exact reshape_row _
theorem w3b : W7 m c main_arg13 = m ((c : Thread nD τ).loc main_arg13) :=
  (W7_of m c main_arg13 (by decide)).trans
    (W6_arg m c main_arg13 (by decide) (by decide) (by decide) (by decide) (by decide) (by decide))
theorem b3b : W7 m c main_v42 = row (m ((c : Thread nD τ).loc main_arg14)) := by
  show StableHlo.after hostOps3 (W6 m c) (Proc.devRef .tc main_v42) = _
  after_results
  rw [W6_arg m c main_arg14 (by decide) (by decide) (by decide) (by decide) (by decide) (by decide)]
  exact reshape_row _

end Cert.KernelIdeal.Stretch

end
-- ==== Proof.KI.PoolVal.lean ====
/-
  Region 4 of the idealized kernel program, read as values over the extended reals: the array the region's output
  window ends holding is the read-out of the per-graph sums of the arrays the region is entered with. The three payloads
  of the body at an index (the accumulator's reset, one accumulation, the read-out); the accumulator after the last
  point as the sum over all 100000 rows, twenty blocks of 5000; the one block the last point writes back covers the array.
-/
import proofs.«404197_j31937376813167_3_alg».proof.Proof.KI.Pool
import proofs.«404197_j31937376813167_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Logic.Equiv.Fin.Basic

set_option maxRecDepth 16384

noncomputable section

namespace Cert.KernelIdeal.PoolVal

open Idealize.ShloMosaic Idealize.ShloMosaic.TcCoe Idealize.ShloMosaic.ValueIdx
open Idealize.ShloMosaic.Pipeline (Dat Cfg Window)
open Cert.KernelIdeal Cert.KernelIdeal.Gen
open scoped BigOperators

/-! ## One column broadcast over many -/

/-- An [a, 1] array broadcast to [a, b] reads, at (p, c), the operand's one column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The membership block transposed times the row block, at an index -/

/-- The left operand's row coordinate is the contraction position. -/
theorem lhs_dot_S5000x64_S5000x64_S64x64_0_0_1_1_n_n_0 (j : S64x64.Idx) (k : dot_S5000x64_S5000x64_S64x64_0_0_1_1_n_n.contr.Idx) :
    (dot_S5000x64_S5000x64_S64x64_0_0_1_1_n_n.lhsIdx j k (0 : Fin 2)).val = (k ⟨0, by decide⟩).val :=
  DotDims.lhsIdx_val_of_single dot_S5000x64_S5000x64_S64x64_0_0_1_1_n_n rfl j k

/-- The left operand's column coordinate is the result's row. -/
theorem lhs_dot_S5000x64_S5000x64_S64x64_0_0_1_1_n_n_1 (j : S64x64.Idx) (k : dot_S5000x64_S5000x64_S64x64_0_0_1_1_n_n.contr.Idx) :
    (dot_S5000x64_S5000x64_S64x64_0_0_1_1_n_n.lhsIdx j k (1 : Fin 2)).val = (j (0 : Fin 2)).val := by
  simp [DotDims.lhsIdx, dot_S5000x64_S5000x64_S64x64_0_0_1_1_n_n]; rfl

/-- The right operand's row coordinate is the contraction position. -/
theorem rhs_dot_S5000x64_S5000x64_S64x64_0_0_1_1_n_n_0 (j : S64x64.Idx) (k : dot_S5000x64_S5000x64_S64x64_0_0_1_1_n_n.contr.Idx) :
    (dot_S5000x64_S5000x64_S64x64_0_0_1_1_n_n.rhsIdx j k (0 : Fin 2)).val = (k ⟨0, by decide⟩).val :=
  DotDims.rhsIdx_val_of_single dot_S5000x64_S5000x64_S64x64_0_0_1_1_n_n rfl j k

/-- The right operand's column coordinate is the result's column. -/
theorem rhs_dot_S5000x64_S5000x64_S64x64_0_0_1_1_n_n_1 (j : S64x64.Idx) (k : dot_S5000x64_S5000x64_S64x64_0_0_1_1_n_n.contr.Idx) :
    (dot_S5000x64_S5000x64_S64x64_0_0_1_1_n_n.rhsIdx j k (1 : Fin 2)).val = (j (1 : Fin 2)).val := by
  simp [DotDims.rhsIdx, dot_S5000x64_S5000x64_S64x64_0_0_1_1_n_n]; rfl

/-- The membership block transposed times the row block, into the zero splat, read at (g, j): the sum over the block's
    5000 rows of the products. -/
theorem matmul_5000x64T_5000x64_apply {φ₁ φ₂ : FTy} (e : FVec Ideal S5000x64 φ₁) (h : FVec Ideal S5000x64 φ₂) (g j : Fin 64) :
    matmul dot_S5000x64_S5000x64_S64x64_0_0_1_1_n_n none e h (constant (F := Ideal) S64x64 .f32 0x00000000#32) (ix2 g j)
      = ∑ r : Fin 5000, e (ix2 r g) * h (ix2 r j) := by
  refine (Ideal.matmul_constant_zero_apply dot_S5000x64_S5000x64_S64x64_0_0_1_1_n_n none e h (ix2 g j)).trans ?_
  rw [← Equiv.sum_comp (contrEquiv1 dot_S5000x64_S5000x64_S64x64_0_0_1_1_n_n 5000 rfl rfl).symm]
  refine Finset.sum_congr rfl fun k _ => ?_
  have hk := contrEquiv1_symm_val dot_S5000x64_S5000x64_S64x64_0_0_1_1_n_n 5000 rfl rfl k
  have hl : dot_S5000x64_S5000x64_S64x64_0_0_1_1_n_n.lhsIdx (ix2 g j) ((contrEquiv1 dot_S5000x64_S5000x64_S64x64_0_0_1_1_n_n 5000 rfl rfl).symm k) = ix2 k g := by
    funext ax; apply Fin.ext
    match ax with
    | ⟨0, _⟩ => exact (lhs_dot_S5000x64_S5000x64_S64x64_0_0_1_1_n_n_0 _ _).trans hk
    | ⟨1, _⟩ => exact lhs_dot_S5000x64_S5000x64_S64x64_0_0_1_1_n_n_1 _ _
  have hr : dot_S5000x64_S5000x64_S64x64_0_0_1_1_n_n.rhsIdx (ix2 g j) ((contrEquiv1 dot_S5000x64_S5000x64_S64x64_0_0_1_1_n_n 5000 rfl rfl).symm k) = ix2 k j := by
    funext ax; apply Fin.ext
    match ax with
    | ⟨0, _⟩ => exact (rhs_dot_S5000x64_S5000x64_S64x64_0_0_1_1_n_n_0 _ _).trans hk
    | ⟨1, _⟩ => exact rhs_dot_S5000x64_S5000x64_S64x64_0_0_1_1_n_n_1 _ _
  rw [hl, hr]

/-! ## The first dense layer's product, at an index -/

theorem lhs_dot_S64x64_S64x32_S64x32_1_0_0_1_n_n_0 (j : S64x32.Idx) (k : dot_S64x64_S64x32_S64x32_1_0_0_1_n_n.contr.Idx) :
    (dot_S64x64_S64x32_S64x32_1_0_0_1_n_n.lhsIdx j k (0 : Fin 2)).val = (j (0 : Fin 2)).val := by
  simp [DotDims.lhsIdx, dot_S64x64_S64x32_S64x32_1_0_0_1_n_n]; rfl

theorem lhs_dot_S64x64_S64x32_S64x32_1_0_0_1_n_n_1 (j : S64x32.Idx) (k : dot_S64x64_S64x32_S64x32_1_0_0_1_n_n.contr.Idx) :
    (dot_S64x64_S64x32_S64x32_1_0_0_1_n_n.lhsIdx j k (1 : Fin 2)).val = (k ⟨0, by decide⟩).val :=
  DotDims.lhsIdx_val_of_single dot_S64x64_S64x32_S64x32_1_0_0_1_n_n rfl j k

theorem rhs_dot_S64x64_S64x32_S64x32_1_0_0_1_n_n_0 (j : S64x32.Idx) (k : dot_S64x64_S64x32_S64x32_1_0_0_1_n_n.contr.Idx) :
    (dot_S64x64_S64x32_S64x32_1_0_0_1_n_n.rhsIdx j k (0 : Fin 2)).val = (k ⟨0, by decide⟩).val :=
  DotDims.rhsIdx_val_of_single dot_S64x64_S64x32_S64x32_1_0_0_1_n_n rfl j k

theorem rhs_dot_S64x64_S64x32_S64x32_1_0_0_1_n_n_1 (j : S64x32.Idx) (k : dot_S64x64_S64x32_S64x32_1_0_0_1_n_n.contr.Idx) :
    (dot_S64x64_S64x32_S64x32_1_0_0_1_n_n.rhsIdx j k (1 : Fin 2)).val = (j (1 : Fin 2)).val := by
  simp [DotDims.rhsIdx, dot_S64x64_S64x32_S64x32_1_0_0_1_n_n]; rfl

/-- A 64 x 64 array times the 64 x 32 weights, into the zero splat, read at (g, m). -/
theorem matmul_64x64_64x32_apply {φ₁ φ₂ : FTy} (a : FVec Ideal S64x64 φ₁) (w : FVec Ideal S64x32 φ₂) (g : Fin 64) (m : Fin 32) :
    matmul dot_S64x64_S64x32_S64x32_1_0_0_1_n_n none a w (constant (F := Ideal) S64x32 .f32 0x00000000#32) (ix2 g m)
      = ∑ l : Fin 64, a (ix2 g l) * w (ix2 l m) := by
  refine (Ideal.matmul_constant_zero_apply dot_S64x64_S64x32_S64x32_1_0_0_1_n_n none a w (ix2 g m)).trans ?_
  rw [← Equiv.sum_comp (contrEquiv1 dot_S64x64_S64x32_S64x32_1_0_0_1_n_n 64 rfl rfl).symm]
  refine Finset.sum_congr rfl fun k _ => ?_
  have hk := contrEquiv1_symm_val dot_S64x64_S64x32_S64x32_1_0_0_1_n_n 64 rfl rfl k
  have hl : dot_S64x64_S64x32_S64x32_1_0_0_1_n_n.lhsIdx (ix2 g m) ((contrEquiv1 dot_S64x64_S64x32_S64x32_1_0_0_1_n_n 64 rfl rfl).symm k) = ix2 g k := by
    funext ax; apply Fin.ext
    match ax with
    | ⟨0, _⟩ => exact lhs_dot_S64x64_S64x32_S64x32_1_0_0_1_n_n_0 _ _
    | ⟨1, _⟩ => exact (lhs_dot_S64x64_S64x32_S64x32_1_0_0_1_n_n_1 _ _).trans hk
  have hr : dot_S64x64_S64x32_S64x32_1_0_0_1_n_n.rhsIdx (ix2 g m) ((contrEquiv1 dot_S64x64_S64x32_S64x32_1_0_0_1_n_n 64 rfl rfl).symm k) = ix2 k m := by
    funext ax; apply Fin.ext
    match ax with
    | ⟨0, _⟩ => exact (rhs_dot_S64x64_S64x32_S64x32_1_0_0_1_n_n_0 _ _).trans hk
    | ⟨1, _⟩ => exact rhs_dot_S64x64_S64x32_S64x32_1_0_0_1_n_n_1 _ _
  rw [hl, hr]

/-! ## The second dense layer's product, at an index -/

theorem lhs_dot_S64x32_S32x1_S64x1_1_0_0_1_n_n_0 (j : S64x1.Idx) (k : dot_S64x32_S32x1_S64x1_1_0_0_1_n_n.contr.Idx) :
    (dot_S64x32_S32x1_S64x1_1_0_0_1_n_n.lhsIdx j k (0 : Fin 2)).val = (j (0 : Fin 2)).val := by
  simp [DotDims.lhsIdx, dot_S64x32_S32x1_S64x1_1_0_0_1_n_n]; rfl

theorem lhs_dot_S64x32_S32x1_S64x1_1_0_0_1_n_n_1 (j : S64x1.Idx) (k : dot_S64x32_S32x1_S64x1_1_0_0_1_n_n.contr.Idx) :
    (dot_S64x32_S32x1_S64x1_1_0_0_1_n_n.lhsIdx j k (1 : Fin 2)).val = (k ⟨0, by decide⟩).val :=
  DotDims.lhsIdx_val_of_single dot_S64x32_S32x1_S64x1_1_0_0_1_n_n rfl j k

theorem rhs_dot_S64x32_S32x1_S64x1_1_0_0_1_n_n_0 (j : S64x1.Idx) (k : dot_S64x32_S32x1_S64x1_1_0_0_1_n_n.contr.Idx) :
    (dot_S64x32_S32x1_S64x1_1_0_0_1_n_n.rhsIdx j k (0 : Fin 2)).val = (k ⟨0, by decide⟩).val :=
  DotDims.rhsIdx_val_of_single dot_S64x32_S32x1_S64x1_1_0_0_1_n_n rfl j k

theorem rhs_dot_S64x32_S32x1_S64x1_1_0_0_1_n_n_1 (j : S64x1.Idx) (k : dot_S64x32_S32x1_S64x1_1_0_0_1_n_n.contr.Idx) :
    (dot_S64x32_S32x1_S64x1_1_0_0_1_n_n.rhsIdx j k (1 : Fin 2)).val = (j (1 : Fin 2)).val := by
  have h1 : (j (1 : Fin 2)).val < 1 := (j (1 : Fin 2)).isLt
  have h2 : (dot_S64x32_S32x1_S64x1_1_0_0_1_n_n.rhsIdx j k (1 : Fin 2)).val < 1 := (dot_S64x32_S32x1_S64x1_1_0_0_1_n_n.rhsIdx j k (1 : Fin 2)).isLt
  omega

/-- A 64 x 32 array times the 32 x 1 weights, into the zero splat, read at (g, u). -/
theorem matmul_64x32_32x1_apply {φ₁ φ₂ : FTy} (a : FVec Ideal S64x32 φ₁) (w : FVec Ideal S32x1 φ₂) (g : Fin 64) (u : Fin 1) :
    matmul dot_S64x32_S32x1_S64x1_1_0_0_1_n_n none a w (constant (F := Ideal) S64x1 .f32 0x00000000#32) (ix2 g u)
      = ∑ m : Fin 32, a (ix2 g m) * w (ix2 m u) := by
  refine (Ideal.matmul_constant_zero_apply dot_S64x32_S32x1_S64x1_1_0_0_1_n_n none a w (ix2 g u)).trans ?_
  rw [← Equiv.sum_comp (contrEquiv1 dot_S64x32_S32x1_S64x1_1_0_0_1_n_n 32 rfl rfl).symm]
  refine Finset.sum_congr rfl fun k _ => ?_
  have hk := contrEquiv1_symm_val dot_S64x32_S32x1_S64x1_1_0_0_1_n_n 32 rfl rfl k
  have hl : dot_S64x32_S32x1_S64x1_1_0_0_1_n_n.lhsIdx (ix2 g u) ((contrEquiv1 dot_S64x32_S32x1_S64x1_1_0_0_1_n_n 32 rfl rfl).symm k) = ix2 g k := by
    funext ax; apply Fin.ext
    match ax with
    | ⟨0, _⟩ => exact lhs_dot_S64x32_S32x1_S64x1_1_0_0_1_n_n_0 _ _
    | ⟨1, _⟩ => exact (lhs_dot_S64x32_S32x1_S64x1_1_0_0_1_n_n_1 _ _).trans hk
  have hr : dot_S64x32_S32x1_S64x1_1_0_0_1_n_n.rhsIdx (ix2 g u) ((contrEquiv1 dot_S64x32_S32x1_S64x1_1_0_0_1_n_n 32 rfl rfl).symm k) = ix2 k u := by
    funext ax; apply Fin.ext
    match ax with
    | ⟨0, _⟩ => exact (rhs_dot_S64x32_S32x1_S64x1_1_0_0_1_n_n_0 _ _).trans hk
    | ⟨1, _⟩ => exact rhs_dot_S64x32_S32x1_S64x1_1_0_0_1_n_n_1 _ _
  rw [hl, hr]

/-! ## The body's three payloads at an index -/

/-- The reset value of the accumulator is zero everywhere. -/
theorem pay1_apply (i : S64x64.Idx) : k4_pay1 (F := Ideal) i = 0 := by
  unfold k4_pay1
  simp only [shapeCast_self]
  rw [broadcast_apply]
  exact Ideal.ofBits_zero_f32

/-- One accumulation at (g, j): the accumulator plus the sum over the block's rows of membership times feature. -/
theorem pay2_apply (e : Vec Ideal S5000x64 .bf16) (h : Vec Ideal S5000x64 .f32) (a : Vec Ideal S64x64 .f32) (g j : Fin 64) :
    k4_pay2 (F := Ideal) e h a (ix2 g j) = a (ix2 g j) + ∑ r : Fin 5000, e (ix2 r g) * h (ix2 r j) := by
  unfold k4_pay2
  simp only [shapeCast_self]
  rw [addf_apply, matmul_5000x64T_5000x64_apply]
  refine congrArg (fun z => a (ix2 g j) + z) (Finset.sum_congr rfl fun r _ => ?_)
  rw [truncf_apply]

/-- The read-out at (g, u): the logistic of the two dense layers over the accumulator's row g scaled by the column's entry. -/
theorem pay3_apply (a : Vec Ideal S64x64 .f32) (x3 : Vec Ideal S64x1 .f32) (x4 : Vec Ideal S64x32 .f32) (x5 : Vec Ideal S1x32 .f32)
    (x6 : Vec Ideal S32x1 .f32) (x7 : Vec Ideal S1x1 .f32) (g : Fin 64) (u : Fin 1) :
    k4_pay3 (F := Ideal) a x3 x4 x5 x6 x7 (ix2 g u)
      = Ideal.logistic ((∑ m : Fin 32, ((∑ l : Fin 64, (a (ix2 g l) * x3 (ix2 g (0 : Fin 1))) * x4 (ix2 l m)) + x5 (ix2 (0 : Fin 1) m)) * x6 (ix2 m u))
          + x7 (ix2 (0 : Fin 1) u)) := by
  unfold k4_pay3
  simp only [shapeCast_self]
  show Ideal.logistic _ = Ideal.logistic _
  refine congrArg Ideal.logistic ?_
  rw [addf_apply, matmul_64x32_32x1_apply, broadcastTo_1b_ab_apply]
  refine congrArg (fun z => z + x7 (ix2 (0 : Fin 1) u)) (Finset.sum_congr rfl fun m _ => ?_)
  rw [truncf_apply, truncf_apply, addf_apply, matmul_64x64_64x32_apply, broadcastTo_1b_ab_apply]
  refine congrArg (fun z => (z + x5 (ix2 (0 : Fin 1) m)) * x6 (ix2 m u)) (Finset.sum_congr rfl fun l _ => ?_)
  rw [truncf_apply, truncf_apply, mulf_apply, broadcastTo_a1_ab_apply]

/-! ## Twenty blocks of 5000 rows are the 100000 rows -/

/-- A sum over 100000 rows is the sum over twenty blocks of the sums over each block's 5000 rows. -/
theorem sum_rows_by_block {M : Type*} [AddCommMonoid M] (F : Fin 100000 → M) :
    ∑ i : Fin 100000, F i
      = ∑ t : Fin 20, ∑ r : Fin 5000, F ⟨5000 * t.val + r.val, by have := t.isLt; have := r.isLt; omega⟩ := by
  rw [← Equiv.sum_comp (finProdFinEquiv (m := 20) (n := 5000)) F, Fintype.sum_prod_type]
  refine Finset.sum_congr rfl fun t _ => Finset.sum_congr rfl fun r _ => ?_
  refine congrArg F (Fin.ext ?_)
  show r.val + 5000 * t.val = 5000 * t.val + r.val
  omega

/-! ## The accumulator as a function of the arrays -/

variable (V : (c : Dev nD) → (b : Ref sig .tc) → Buf (Elt Ideal) ((c : Thread nD τ).loc b))

theorem hz : (![0, 0] : Fin 2 → Nat) = fun _ => 0 := funext fun a => by fin_cases a <;> rfl

/-- The accumulator as the first point resets it is zero everywhere. -/
theorem accZero_apply (i : S64x64.Idx) : Pool.accZero (F := Ideal) i = 0 := by
  unfold Pool.accZero
  rw [View.canon_unit_zero hz]
  exact pay1_apply i

/-- One accumulation at (g, j). -/
theorem accStep_apply (e : Vec Ideal S5000x64 .bf16) (h : Vec Ideal S5000x64 .f32) (a : Vec Ideal S64x64 .f32) (g j : Fin 64) :
    Pool.accStep (F := Ideal) e h a (ix2 g j) = a (ix2 g j) + ∑ r : Fin 5000, e (ix2 r g) * h (ix2 r j) := by
  unfold Pool.accStep
  rw [View.canon_unit_zero hz]
  simp only [View.ld_unit_zero (S := S5000x64) hz, View.ld_unit_zero (S := S64x64) hz]
  exact pay2_apply e h a g j

/-- Point t's block of the membership array, a 5000 x 64 array. -/
def eBlk (c : Dev nD) (t : Fin cfg4.N) : Vec Ideal S5000x64 .bf16 := Pool.blk V c 1 t
/-- Point t's block of the feature array, a 5000 x 64 array. -/
def hBlk (c : Dev nD) (t : Fin cfg4.N) : Vec Ideal S5000x64 .f32 := Pool.blk V c 0 t

/-- The accumulator after point n at (g, j): the sum over the points up to n of the sums over each point's block. -/
theorem acc_apply (c : Dev nD) (n : ℕ) (g j : Fin 64) :
    Pool.acc (F := Ideal) V c n (ix2 g j)
      = ∑ t ∈ Finset.range (n + 1), ∑ r : Fin 5000, eBlk V c (Pool.pt t) (ix2 r g) * hBlk V c (Pool.pt t) (ix2 r j) := by
  induction n with
  | zero =>
    rw [Pool.acc_zero]
    show Pool.accStep (F := Ideal) (eBlk V c (Pool.pt 0)) (hBlk V c (Pool.pt 0)) Pool.accZero (ix2 g j) = _
    rw [accStep_apply, accZero_apply, zero_add, Finset.sum_range_one]
  | succ n ih =>
    rw [Pool.acc_succ]
    show Pool.accStep (F := Ideal) (eBlk V c (Pool.pt (n + 1))) (hBlk V c (Pool.pt (n + 1))) (Pool.acc V c n) (ix2 g j) = _
    rw [accStep_apply, ih, Finset.sum_range_succ _ (n + 1)]

/-- The printed index maps, decided over the grid: the two row-block inputs are at the point's block row, every small
    operand and the output stay at their one block. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Row r of point t's block of the features is row 5000 t + r of the feature array. -/
theorem hBlk_apply (c : Dev nD) (t : Fin cfg4.N) (r : Fin 5000) (j : Fin 64) :
    hBlk V c t (ix2 r j)
      = V c main_v43 (ix2 (⟨5000 * t.val + r.val, by have := lt_of_lt_of_eq t.isLt N_4; have := r.isLt; omega⟩ : Fin 100000) j) := by
  obtain ⟨e00, e01, e10, e11, -⟩ := idx_facts t
  show V c main_v43 (((cfg4.win 0).blk t).view.emb (ix2 r j)) = _
  refine congrArg (V c main_v43) (funext fun a => Fin.ext ?_)
  match a with
  | ⟨0, _⟩ => show win4_0.index t (0 : Fin 2) * 5000 + 1 * r.val = 5000 * t.val + r.val; omega
  | ⟨1, _⟩ => show win4_0.index t (1 : Fin 2) * 64 + 1 * j.val = j.val; omega

/-- Row r of point t's block of the memberships is row 5000 t + r of the membership array. -/
theorem eBlk_apply (c : Dev nD) (t : Fin cfg4.N) (r : Fin 5000) (g : Fin 64) :
    eBlk V c t (ix2 r g)
      = V c main_v50 (ix2 (⟨5000 * t.val + r.val, by have := lt_of_lt_of_eq t.isLt N_4; have := r.isLt; omega⟩ : Fin 100000) g) := by
  obtain ⟨e00, e01, e10, e11, -⟩ := idx_facts t
  show V c main_v50 (((cfg4.win 1).blk t).view.emb (ix2 r g)) = _
  refine congrArg (V c main_v50) (funext fun a => Fin.ext ?_)
  match a with
  | ⟨0, _⟩ => show win4_1.index t (0 : Fin 2) * 5000 + 1 * r.val = 5000 * t.val + r.val; omega
  | ⟨1, _⟩ => show win4_1.index t (1 : Fin 2) * 64 + 1 * g.val = g.val; omega

/-- The per-graph sums of whole arrays at (g, j), block by block: twenty blocks of 5000 rows. -/
theorem pool_by_blocks (e h : Spec.Mat 100000 64) (g j : Fin 64) :
    Spec.pool e h (ix2 g j)
      = ∑ t : Fin 20, ∑ r : Fin 5000,
          e (ix2 (⟨5000 * t.val + r.val, by have := t.isLt; have := r.isLt; omega⟩ : Fin 100000) g)
            * h (ix2 (⟨5000 * t.val + r.val, by have := t.isLt; have := r.isLt; omega⟩ : Fin 100000) j) := by
  unfold Spec.pool
  exact sum_rows_by_block (fun i : Fin 100000 => e (ix2 i g) * h (ix2 i j))

/-- The accumulator after the last point is the per-graph sums of the whole arrays. -/
theorem acc_last (c : Dev nD) (g j : Fin 64) :
    Pool.acc (F := Ideal) V c 19 (ix2 g j) = Spec.pool (V c main_v50) (V c main_v43) (ix2 g j) := by
  rw [acc_apply, pool_by_blocks]
  show ∑ t ∈ Finset.range 20, _ = _
  rw [Finset.sum_range]
  refine Finset.sum_congr rfl fun t _ => Finset.sum_congr rfl fun r _ => ?_
  have hp : Pool.pt t.val = (⟨t.val, lt_of_lt_of_eq t.isLt N_4.symm⟩ : Fin cfg4.N) := Fin.ext (Nat.mod_eq_of_lt t.isLt)
  rw [hp, eBlk_apply, hBlk_apply]

/-! ## The read-out -/

/-- The body's read-out at an index is the read-out of whole arrays, when the loaded values are the arrays. -/
theorem pay3_eq_head (P : Spec.Mat 64 64) (cn : Spec.Mat 64 1) (u1 : Spec.Mat 64 32) (c1 : Spec.Mat 1 32) (u2 : Spec.Mat 32 1) (c2 : Spec.Mat 1 1)
    (a : Vec Ideal S64x64 .f32) (x3 : Vec Ideal S64x1 .f32) (x4 : Vec Ideal S64x32 .f32) (x5 : Vec Ideal S1x32 .f32)
    (x6 : Vec Ideal S32x1 .f32) (x7 : Vec Ideal S1x1 .f32) (g : Fin 64) (u : Fin 1)
    (ha : ∀ l : Fin 64, a (ix2 g l) = P (ix2 g l))
    (h3 : x3 (ix2 g (0 : Fin 1)) = cn (ix2 g (0 : Fin 1)))
    (h4 : ∀ (l : Fin 64) (m : Fin 32), x4 (ix2 l m) = u1 (ix2 l m))
    (h5 : ∀ m : Fin 32, x5 (ix2 (0 : Fin 1) m) = c1 (ix2 (0 : Fin 1) m))
    (h6 : ∀ m : Fin 32, x6 (ix2 m u) = u2 (ix2 m u))
    (h7 : x7 (ix2 (0 : Fin 1) u) = c2 (ix2 (0 : Fin 1) u)) :
    k4_pay3 (F := Ideal) a x3 x4 x5 x6 x7 (ix2 g u) = Spec.head P cn u1 c1 u2 c2 (ix2 g u) := by
  rw [pay3_apply]
  unfold Spec.head Spec.addRow Spec.mm
  show _ = Ideal.logistic ((∑ m : Fin 32, ((∑ l : Fin 64, (P (ix2 g l) * cn (ix2 g (0 : Fin 1))) * u1 (ix2 l m)) + c1 (ix2 (0 : Fin 1) m)) * u2 (ix2 m u))
      + c2 (ix2 (0 : Fin 1) u))
  rw [h7, h3]
  refine congrArg (fun z => Ideal.logistic (z + c2 (ix2 (0 : Fin 1) u))) (Finset.sum_congr rfl fun m _ => ?_)
  rw [h5 m, h6 m]
  refine congrArg (fun z => (z + c1 (ix2 (0 : Fin 1) m)) * u2 (ix2 m u)) (Finset.sum_congr rfl fun l _ => ?_)
  rw [ha l, h4 l m]

/-! ## From the last point's block to the array -/

/-- The array the output window ends holding: the read-out of the per-graph sums. -/
abbrev G (c : Dev nD) : Spec.Mat 64 1 :=
  Spec.head (Spec.pool (V c main_v50) (V c main_v43)) (V c main_v59) (V c main_arg15) (V c main_v60) (V c main_arg17) (V c main_v61)

/-- What a point writes back to the output window is the one block of G. -/
theorem flushed_eq (c : Dev nD) (t : Fin cfg4.N) :
    (Pool.dat (F := Ideal) V c).flushed 7 t = ((cfg4.win 7).blk t).view.read (Elt Ideal) (G V c) := by
  show (cfg4.win 7).cut (grid4.coords t) ((Pool.dat (F := Ideal) V c).after 7 t) = _
  rw [Pool.after_7]
  unfold Pool.headOut
  rw [View.canon_unit_zero hz]
  simp only [View.ld_unit_zero (S := S64x64) hz, View.ld_unit_zero (S := S64x1) hz, View.ld_unit_zero (S := S64x32) hz,
    View.ld_unit_zero (S := S1x32) hz, View.ld_unit_zero (S := S32x1) hz, View.ld_unit_zero (S := S1x1) hz]
  obtain ⟨e00, e01, e10, e11, e20, e21, e30, e31, e40, e41, e50, e51, e60, e61, e70, e71⟩ := idx_facts t
  funext y
  obtain ⟨g, u, rfl⟩ : ∃ (g : Fin 64) (u : Fin 1), y = ix2 g u := ⟨y 0, y 1, eq_ix2 y⟩
  have hemb : ((cfg4.win 7).blk t).view.emb (ix2 g u) = ix2 g u := by
    funext a; apply Fin.ext
    match a with
    | ⟨0, _⟩ => show win4_7.index t (0 : Fin 2) * 64 + 1 * g.val = g.val; omega
    | ⟨1, _⟩ => show win4_7.index t (1 : Fin 2) * 1 + 1 * u.val = u.val; omega
  have hread : ∀ (f : Spec.Mat 64 1) (y : S64x1.Idx),
      ((cfg4.win 7).blk t).view.read (Elt Ideal) f y = f (((cfg4.win 7).blk t).view.emb y) := fun _ _ => rfl
  rw [hread, hemb]
  refine pay3_eq_head (Spec.pool (V c main_v50) (V c main_v43)) (V c main_v59) (V c main_arg15) (V c main_v60) (V c main_arg17) (V c main_v61)
    _ _ _ _ _ _ g u ?_ ?_ ?_ ?_ ?_ ?_
  · intro l
    exact acc_last V c g l
  · show V c main_v59 (((cfg4.win 2).blk t).view.emb (ix2 g (0 : Fin 1))) = V c main_v59 (ix2 g (0 : Fin 1))
    refine congrArg (V c main_v59) (funext fun a => Fin.ext ?_)
    match a with
    | ⟨0, _⟩ => show win4_2.index t (0 : Fin 2) * 64 + 1 * g.val = g.val; omega
    | ⟨1, _⟩ => show win4_2.index t (1 : Fin 2) * 1 + 1 * 0 = 0; omega
  · intro l m
    show V c main_arg15 (((cfg4.win 3).blk t).view.emb (ix2 l m)) = V c main_arg15 (ix2 l m)
    refine congrArg (V c main_arg15) (funext fun a => Fin.ext ?_)
    match a with
    | ⟨0, _⟩ => show win4_3.index t (0 : Fin 2) * 64 + 1 * l.val = l.val; omega
    | ⟨1, _⟩ => show win4_3.index t (1 : Fin 2) * 32 + 1 * m.val = m.val; omega
  · intro m
    show V c main_v60 (((cfg4.win 4).blk t).view.emb (ix2 (0 : Fin 1) m)) = V c main_v60 (ix2 (0 : Fin 1) m)
    refine congrArg (V c main_v60) (funext fun a => Fin.ext ?_)
    match a with
    | ⟨0, _⟩ => show win4_4.index t (0 : Fin 2) * 1 + 1 * 0 = 0; omega
    | ⟨1, _⟩ => show win4_4.index t (1 : Fin 2) * 32 + 1 * m.val = m.val; omega
  · intro m
    show V c main_arg17 (((cfg4.win 5).blk t).view.emb (ix2 m u)) = V c main_arg17 (ix2 m u)
    refine congrArg (V c main_arg17) (funext fun a => Fin.ext ?_)
    match a with
    | ⟨0, _⟩ => show win4_5.index t (0 : Fin 2) * 32 + 1 * m.val = m.val; omega
    | ⟨1, _⟩ => show win4_5.index t (1 : Fin 2) * 1 + 1 * u.val = u.val; omega
  · show V c main_v61 (((cfg4.win 6).blk t).view.emb (ix2 (0 : Fin 1) u)) = V c main_v61 (ix2 (0 : Fin 1) u)
    refine congrArg (V c main_v61) (funext fun a => Fin.ext ?_)
    match a with
    | ⟨0, _⟩ => show win4_6.index t (0 : Fin 2) * 1 + 1 * 0 = 0; omega
    | ⟨1, _⟩ => show win4_6.index t (1 : Fin 2) * 1 + 1 * u.val = u.val; omega

/-- An index of the array is in point t's block iff each coordinate is in the block's range on its axis. -/
theorem mem_blk (t : Fin cfg4.N) (i : S64x1.Idx) :
    i ∈ ((cfg4.win 7).blk t).view.set ↔ ∀ a : Fin 2, win4_7.index t a * S64x1.size a ≤ (i a).val ∧ (i a).val < win4_7.index t a * S64x1.size a + S64x1.size a := by
  show i ∈ ((View.whole main_v62).slice (win4_7.rect t)).set ↔ _
  rw [View.set_slice_whole, Rect.mem_set_unit]
  exact Iff.rfl

/-- Every index of the array is in the last point's block, the one point that writes the window back. -/
theorem cover (i : S64x1.Idx) :
    ∃ t : Fin cfg4.N, (cfg4.win 7).flush t = true ∧ i ∈ ((cfg4.win 7).blk t).view.set := by
  have hi0 : (i 0).val < 64 := (i 0).isLt
  have hi1 : (i 1).val < 1 := (i 1).isLt
  refine ⟨Pool.pt 19, (flush4_7 (Pool.pt 19)).mpr (by decide), ?_⟩
  rw [mem_blk]
  obtain ⟨e00, e01, e10, e11, e20, e21, e30, e31, e40, e41, e50, e51, e60, e61, e70, e71⟩ := idx_facts (Pool.pt 19)
  intro a
  match a with
  | ⟨0, _⟩ =>
    show win4_7.index _ (0 : Fin 2) * 64 ≤ (i 0).val ∧ (i 0).val < win4_7.index _ (0 : Fin 2) * 64 + 64
    omega
  | ⟨1, _⟩ =>
    show win4_7.index _ (1 : Fin 2) * 1 ≤ (i 1).val ∧ (i 1).val < win4_7.index _ (1 : Fin 2) * 1 + 1
    omega

/-- The array the region's output window ends holding is the read-out of the per-graph sums of the arrays the region
    is entered with. -/
theorem final (c : Dev nD) :
    (Pool.dat (F := Ideal) V c).arrAt 7 cfg4.N
      = Spec.head (Spec.pool (V c main_v50) (V c main_v43)) (V c main_v59) (V c main_arg15) (V c main_v60) (V c main_arg17) (V c main_v61) :=
  (Pool.dat (F := Ideal) V c).arrAt_eq_of_cover 7 (G V c) (fun t _ => flushed_eq V c t) cover

end Cert.KernelIdeal.PoolVal

end
-- ==== Proof.KI.Stretch4.lean ====
/-
  The last host stretch of the idealized kernel program, read over the extended reals: what the buffers the pooling
  region takes hold once the stretch's operations have run — the node features the third layer left, the membership
  matrix of the graph ids, the reciprocal clamped counts as a column, and the read-out's weights and bias rows.
-/
import proofs.«404197_j31937376813167_3_alg».proof.Proof.KI.Chain
import proofs.«404197_j31937376813167_3_alg».proof.Proof.Net
import Idealize.ShloMosaic.PureOps.Ideal
import Idealize.ShloMosaic.PureOps.Ideal.Laws
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

set_option maxRecDepth 16384

noncomputable section

namespace Cert.KernelIdeal.Stretch4

open Idealize.ShloMosaic Idealize.ShloMosaic.TcCoe Idealize.ShloMosaic.ValueIdx
open Cert.KernelIdeal Cert.KernelIdeal.Gen Cert.KernelIdeal.Chain Cert.Spec Cert.Net

variable (m : (ℓ : Loc nD τ sig) → Buf (Elt Ideal) ℓ) (c : Dev nD)

/-- The graph-id vector as a 100000 × 1 column of indices: entry (r, 0) is node r's id. -/
def idsCol (b : (⟨S100000, .i32⟩ : BufTy).Contents (Elt Ideal)) : IVec ⟨2, ![100000, 1]⟩ 32 :=
  broadcastInDim S100000x1 ![0] bcast_S100000_S100000x1_0 b

/-- The per-graph node counts: ones scattered, with addition, into 64 zeros at the graph ids. -/
def cntVec (b : (⟨S100000, .i32⟩ : BufTy).Contents (Elt Ideal)) : Vc 64 :=
  Host.scatterAdd (F := Ideal) (φ := .f32) scatter_S64_S100000x1_S100000_n_0_0_1
    (broadcastInDim S64 ![] bcast_S_S64 (constant (F := Ideal) S_ .f32 0x00000000#32))
    (idsCol b)
    (broadcastInDim S100000 ![] bcast_S_S100000 (constant (F := Ideal) S_ .f32 0x3F800000#32))

/-! ## Small facts -/

/-- The 32-bit float word of one is the real number 1. -/
theorem one_f32 : Ideal.ofBits .f32 0x3F800000#32 = 1 := by
  -- the word's sign bit is clear, its exponent field is 127 (the bias) and its fraction field is 0
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, he, hf]
  -- a normal number: (2^23 + 0) · 2^(127 - 127 - 23) = 1
  norm_num

/-- The splat of the zero word over 64 positions is the constant 0. -/
theorem zeros64 :
    broadcastInDim S64 ![] bcast_S_S64 (constant (F := Ideal) S_ .f32 0x00000000#32) = fun _ => (0 : EReal) := by
  funext j
  exact Ideal.ofBits_zero_f32

/-- The splat of the word of one over the 100000 nodes is the constant 1. -/
theorem ones100000 :
    broadcastInDim S100000 ![] bcast_S_S100000 (constant (F := Ideal) S_ .f32 0x3F800000#32) = fun _ => (1 : EReal) := by
  funext j
  exact one_f32

/-- Every count is a natural number: a scatter-add of ones into zeros counts the updates landing on each entry. -/
theorem cntVec_nat (b : (⟨S100000, .i32⟩ : BufTy).Contents (Elt Ideal)) (g : (⟨1, ![64]⟩ : Shape).Idx) :
    ∃ k : ℕ, cntVec b g = ((k : ℝ) : EReal) := by
  unfold cntVec
  rw [zeros64, ones100000]
  exact Cert.PoolLaw.count_nat _ _ g

/-! ## Buffers the stretch does not write -/

/-- A buffer that no host stretch writes and no earlier region replaces holds, when the last stretch starts, what the
    launch gave it. -/
theorem W8_launch (r : Ref sig .tc) (h8 : r ∉ ([main_v43] : List (Ref sig .tc))) (h7 : r ∉ hostOps3_W)
    (h6 : r ∉ ([main_v30] : List (Ref sig .tc))) (h5 : r ∉ hostOps2_W) (h4 : r ∉ ([main_v17] : List (Ref sig .tc)))
    (h3 : r ∉ hostOps1_W) (h2 : r ∉ ([main_v4] : List (Ref sig .tc))) (h1 : r ∉ hostOps0_W) :
    W8 m c r = m ((c : Thread nD τ).loc r) :=
  (congrFun (V8_eq m c) _).symm.trans <| (V8_of m (outs m) c r h8).trans <| (V7_of m (outs m) c r h7).trans <|
    (V6_of m (outs m) c r h6).trans <| (V5_of m (outs m) c r h5).trans <| (V4_of m (outs m) c r h4).trans <|
    (V3_of m (outs m) c r h3).trans <| (V2_of m (outs m) c r h2).trans <| (V1_of m c r h1).trans rfl

/-- A vector cast to a column reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One entry of the membership matrix: the 1-bit comparison of an id word with the word of g, read as a number, is 1
    when the id, read signed, is g and 0 otherwise (g < 64, so the word of g reads back as g). -/
theorem member_entry (x : BitVec 32) (g : Fin 64) :
    (((IntOp.cmpi .eq x (BitVec.ofNat 32 g.val)).toNat : ℝ) : EReal) = if x.toInt = (g.val : ℤ) then 1 else 0 := by
  have hg : g.val < 2 ^ 31 := by have := g.isLt; omega
  by_cases h : x = BitVec.ofNat 32 g.val
  · have h1 : IntOp.cmpi .eq x (BitVec.ofNat 32 g.val) = 1#1 := StableHlo.Predicate.cmpi_eq_iff.mpr h
    have h2 : x.toInt = (g.val : ℤ) := by rw [h]; exact StableHlo.Predicate.toInt_ofNat_small g.val hg
    rw [h1, if_pos h2]
    show (((1 : ℕ) : ℝ) : EReal) = 1
    rw [Nat.cast_one, EReal.coe_one]
  · have h0 : IntOp.cmpi .eq x (BitVec.ofNat 32 g.val) = 0#1 :=
      eq_zero_of_ne_one (fun h1 => h (StableHlo.Predicate.cmpi_eq_iff.mp h1))
    have h2 : ¬ x.toInt = (g.val : ℤ) := fun h2 =>
      h (BitVec.eq_of_toInt_eq (h2.trans (StableHlo.Predicate.toInt_ofNat_small g.val hg).symm))
    rw [h0, if_neg h2]
    show (((0 : ℕ) : ℝ) : EReal) = 0
    rw [Nat.cast_zero, EReal.coe_zero]

/-- The splat of the word of one over the 64 graphs is the constant 1. -/
theorem ones64 :
    broadcastInDim S64 ![] bcast_S_S64 (constant (F := Ideal) S_ .f32 0x3F800000#32) = fun _ => (1 : EReal) := by
  funext j
  exact one_f32

/-- Two spellings of the index (p, q) of a rectangle agree. -/
theorem ij_eq_ix2 {n k : ℕ} (p : Fin n) (q : Fin k) : StableHlo.Predicate.ij p q = ix2 p q := by
  funext d; match d with | ⟨0, _⟩ => rfl | ⟨1, _⟩ => rfl

/-- Two spellings of the index (p, 0) of a column agree. -/
theorem ixP_eq_ix2 {n : ℕ} (p : Fin n) : StableHlo.Predicate.ixP p = ix2 p (0 : Fin 1) := by
  funext d; match d with | ⟨0, _⟩ => rfl | ⟨1, _⟩ => rfl

/-! ## The stretch's results, from any starting contents -/

section General
variable (V : Valuation τ sig (Elt Ideal))

/-- The first read-out bias after the stretch: the 32-vector as a 1 × 32 row. -/
theorem after4_v60 : StableHlo.after hostOps4 V (Proc.devRef .tc main_v60) = row (V main_arg16) := by
  after_results
  funext i
  obtain ⟨u, j, rfl⟩ : ∃ (u : Fin 1) (j : Fin 32), i = ix2 u j := ⟨i 0, i 1, eq_ix2 i⟩
  exact shapeCast_a_1a_apply (V main_arg16) shapeCasts_S32_S1x32 u j

/-- The second read-out bias after the stretch: the 1-vector as a 1 × 1 row. -/
theorem after4_v61 : StableHlo.after hostOps4 V (Proc.devRef .tc main_v61) = row (V main_arg18) := by
  after_results
  funext i
  obtain ⟨u, j, rfl⟩ : ∃ (u : Fin 1) (j : Fin 1), i = ix2 u j := ⟨i 0, i 1, eq_ix2 i⟩
  exact shapeCast_a_1a_apply (V main_arg18) shapeCasts_S1_S1x1 u j

/-- The reciprocal clamped counts after the stretch: 1 / max(count, 1) at each graph, as a column. -/
theorem after4_v59 : StableHlo.after hostOps4 V (Proc.devRef .tc main_v59) = cinv (cntVec (V main_arg2)) := by
  after_results
  -- both splats of the word of one are the constant 1
  rw [ones64]
  -- the scatter-add of ones into zeros at the id column is the count vector, by definition
  have hc : Host.scatterAdd (F := Ideal) (φ := .f32) scatter_S64_S100000x1_S100000_n_0_0_1
      (broadcastInDim S64 ![] bcast_S_S64 (constant (F := Ideal) S_ .f32 0x00000000#32))
      (broadcastInDim S100000x1 ![0] bcast_S100000_S100000x1_0 (V main_arg2))
      (broadcastInDim S100000 ![] bcast_S_S100000 (constant (F := Ideal) S_ .f32 0x3F800000#32))
      = cntVec (V main_arg2) := rfl
  rw [hc]
  -- from here the counts are any 64-vector
  generalize cntVec (V main_arg2) = C
  funext i
  obtain ⟨g, u, rfl⟩ : ∃ (g : Fin 64) (u : Fin 1), i = ix2 g u := ⟨i 0, i 1, eq_ix2 i⟩
  refine (shapeCast_a_a1_apply _ shapeCasts_S64_S64x1 g u).trans ?_
  -- the quotient and the maximum are entrywise
  rfl

/-- The membership matrix after the stretch: the ids laid along the rows compared, word for word, with 0 … 63 laid along
    the columns, the 1-bit result read as a number. -/
theorem after4_v50 :
    StableHlo.after hostOps4 V (Proc.devRef .tc main_v50) = Cert.PoolLaw.member 100000 (idsCol (V main_arg2)) := by
  after_results
  funext i
  obtain ⟨r, g, rfl⟩ : ∃ (r : Fin 100000) (g : Fin 64), i = ix2 r g := ⟨i 0, i 1, eq_ix2 i⟩
  -- the column of ids spread over the columns reads, at (r, g), the column at (r, 0)
  have hA : broadcastInDim S100000x64 ![0, 1] bcast_S100000x1_S100000x64_0_1
        (broadcastInDim S100000x1 ![0] bcast_S100000_S100000x1_0 (V main_arg2)) (ix2 r g)
      = idsCol (V main_arg2) (ix2 r 0) := by
    have h := StableHlo.Predicate.bcast_of_col bcast_S100000x1_S100000x64_0_1 (idsCol (V main_arg2)) r g
    rw [ij_eq_ix2, ixP_eq_ix2] at h
    exact h
  -- the positions 0 … 63 spread over the rows read, at (r, g), the word of g
  have hB : broadcastInDim S100000x64 ![0, 1] bcast_S1x64_S100000x64_0_1
        (broadcastInDim S1x64 ![1] bcast_S64_S1x64_1 (iotaInDim S64 32 0)) (ix2 r g)
      = BitVec.ofNat 32 g.val := by
    have h := StableHlo.Predicate.bcast_cols bcast_S64_S1x64_1 bcast_S1x64_S100000x64_0_1 (iotaInDim S64 32 0) r g
    rw [ij_eq_ix2] at h
    exact h.trans (StableHlo.Predicate.iota_apply g)
  exact (congrArg₂ (fun a b : BitVec 32 => (((IntOp.cmpi .eq a b).toNat : ℝ) : EReal)) hA hB).trans
    (member_entry _ g)

end General

/-! ## What the pooling region finds -/

/-- The node features the pooling region reads are what the third layer's region left: the stretch does not write them. -/
theorem feat_in : W9 m c main_v43 = o8 m c :=
  (StableHlo.after_of_writes_sub hostOps4 _ hostOps4_writes (by decide)).trans (by
    show Function.update (W7 m c) main_v43 (o8 m c) main_v43 = o8 m c
    simp only [Function.update_self])

/-- The membership matrix the pooling region reads: entry (r, g) is 1 when node r's id, read signed, is g, else 0. -/
theorem member_in : W9 m c main_v50 = Cert.PoolLaw.member 100000 (idsCol (m ((c : Thread nD τ).loc main_arg2))) :=
  (after4_v50 (W8 m c)).trans
    (congrArg (fun b => Cert.PoolLaw.member 100000 (idsCol b)) (W8_launch m c main_arg2 (by decide) (by decide) (by decide) (by decide) (by decide) (by decide) (by decide) (by decide)))

/-- The reciprocal clamped counts the pooling region reads, as a 64 × 1 column. -/
theorem cinv_in : W9 m c main_v59 = cinv (cntVec (m ((c : Thread nD τ).loc main_arg2))) :=
  (after4_v59 (W8 m c)).trans
    (congrArg (fun b => cinv (cntVec b)) (W8_launch m c main_arg2 (by decide) (by decide) (by decide) (by decide) (by decide) (by decide) (by decide) (by decide)))

/-- Every count is a natural number. -/
theorem cnt_nat : ∀ g, ∃ k : ℕ, cntVec (m ((c : Thread nD τ).loc main_arg2)) g = ((k : ℝ) : EReal) :=
  fun g => cntVec_nat _ g

/-- The first read-out weight matrix is the launch's: no stretch writes it, no region replaces it. -/
theorem fw_in : W9 m c main_arg15 = m ((c : Thread nD τ).loc main_arg15) :=
  (StableHlo.after_of_writes_sub hostOps4 _ hostOps4_writes (by decide)).trans
    (W8_launch m c main_arg15 (by decide) (by decide) (by decide) (by decide) (by decide) (by decide) (by decide) (by decide))

/-- The first read-out bias, as a 1 × 32 row. -/
theorem fb_in : W9 m c main_v60 = row (m ((c : Thread nD τ).loc main_arg16)) :=
  (after4_v60 (W8 m c)).trans (congrArg row (W8_launch m c main_arg16 (by decide) (by decide) (by decide) (by decide) (by decide) (by decide) (by decide) (by decide)))

/-- The second read-out weight matrix is the launch's: no stretch writes it, no region replaces it. -/
theorem pw_in : W9 m c main_arg17 = m ((c : Thread nD τ).loc main_arg17) :=
  (StableHlo.after_of_writes_sub hostOps4 _ hostOps4_writes (by decide)).trans
    (W8_launch m c main_arg17 (by decide) (by decide) (by decide) (by decide) (by decide) (by decide) (by decide) (by decide))

/-- The second read-out bias, as a 1 × 1 row. -/
theorem pb_in : W9 m c main_v61 = row (m ((c : Thread nD τ).loc main_arg18)) :=
  (after4_v61 (W8 m c)).trans (congrArg row (W8_launch m c main_arg18 (by decide) (by decide) (by decide) (by decide) (by decide) (by decide) (by decide) (by decide)))

end Cert.KernelIdeal.Stretch4

end
-- ==== Proof.KI.KernelVal.lean ====
/-
  The idealized kernel program's buffers along the chain, as the network's functions of the argument arrays:
  the projected features, each layer's node features (the region's value at the contents the host stretch before it
  leaves), and the per-graph read-out.
-/
import proofs.«404197_j31937376813167_3_alg».proof.Proof.KI.Chain
import proofs.«404197_j31937376813167_3_alg».proof.Proof.KI.ProjVal
import proofs.«404197_j31937376813167_3_alg».proof.Proof.KI.MlpAVal
import proofs.«404197_j31937376813167_3_alg».proof.Proof.KI.MlpBVal
import proofs.«404197_j31937376813167_3_alg».proof.Proof.KI.MlpCVal
import proofs.«404197_j31937376813167_3_alg».proof.Proof.KI.Stretch
import proofs.«404197_j31937376813167_3_alg».proof.Proof.KI.PoolVal
import proofs.«404197_j31937376813167_3_alg».proof.Proof.KI.Stretch4
import proofs.«404197_j31937376813167_3_alg».proof.Proof.Net

noncomputable section

namespace Cert.KernelIdeal.KernelVal

open Idealize.ShloMosaic Idealize.ShloMosaic.TcCoe Idealize.SL.Sem
open Cert.KernelIdeal Cert.KernelIdeal.Gen Cert.KernelIdeal.Chain Cert.Spec Cert.Net

variable (m : (ℓ : Loc nD τ sig) → Buf (Elt Ideal) ℓ) (c : Dev nD) (wf : Cert.Net.WFs)

/-- An argument array of core `c` in the launch memory. -/
abbrev ar (b : Ref sig .tc) : Buf (Elt Ideal) ((c : Thread nD τ).loc b) := m ((c : Thread nD τ).loc b)

/-- The wrapped source column and the destination column of the edge index. -/
abbrev src : IVec ⟨2, ![1600000, 1]⟩ 32 := Stretch.srcCol (ar m c main_arg1)
abbrev dst : IVec ⟨2, ![1600000, 1]⟩ 32 := Stretch.dstCol (ar m c main_arg1)

/-- Region 0 leaves the projected features `x · W₁`. -/
theorem o2_eq : o2 m c = mm (ar m c main_arg0) (ar m c main_arg3) := by
  unfold o2
  rw [ProjVal.final (tcv (W1 m)) c]
  show mm (W1 m c main_arg0) (W1 m c main_arg3) = _
  rw [Stretch.x_in m c, Stretch.w1_in m c]

/-- Region 1 leaves the first layer's features of the projected features and their aggregation. -/
theorem o4_eq : o4 m c = mlpSkip (o2 m c) (seg64 wf (src m c) (dst m c) (o2 m c)) (row (ar m c main_arg4)) (ar m c main_arg5) (row (ar m c main_arg6)) := by
  unfold o4
  rw [MlpAVal.final (tcv (W3 m)) c]
  show mlpSkip (W3 m c main_v4) (W3 m c main_v14) (W3 m c main_v15) (W3 m c main_arg5) (W3 m c main_v16) = _
  rw [Stretch.self1 m c, Stretch.seg1 m c wf, Stretch.b1a m c, Stretch.w1a m c, Stretch.b2a m c]

/-- Region 2 leaves the second layer's features. -/
theorem o6_eq : o6 m c = relu (mlpFull (o4 m c) (seg64 wf (src m c) (dst m c) (o4 m c)) (ar m c main_arg7) (row (ar m c main_arg8)) (ar m c main_arg9) (row (ar m c main_arg10))) := by
  unfold o6
  rw [MlpBVal.final (tcv (W5 m)) c]
  show relu (mlpFull (W5 m c main_v17) (W5 m c main_v27) (W5 m c main_arg7) (W5 m c main_v28) (W5 m c main_arg9) (W5 m c main_v29)) = _
  rw [Stretch.self2 m c, Stretch.seg2 m c wf, Stretch.w2a m c, Stretch.b2b m c, Stretch.w2b m c, Stretch.b2c m c]

/-- Region 3 leaves the third layer's features. -/
theorem o8_eq : o8 m c = mlpFull (o6 m c) (seg64 wf (src m c) (dst m c) (o6 m c)) (ar m c main_arg11) (row (ar m c main_arg12)) (ar m c main_arg13) (row (ar m c main_arg14)) := by
  unfold o8
  rw [MlpCVal.final (tcv (W7 m)) c]
  show mlpFull (W7 m c main_v30) (W7 m c main_v40) (W7 m c main_arg11) (W7 m c main_v41) (W7 m c main_arg13) (W7 m c main_v42) = _
  rw [Stretch.self3 m c, Stretch.seg3 m c wf, Stretch.w3a m c, Stretch.b3a m c, Stretch.w3b m c, Stretch.b3b m c]

/-- The node features after the three layers are the network's, of the argument arrays. -/
theorem feat_eq : o8 m c = kerFeat wf (src m c) (dst m c) (ar m c main_arg0) (ar m c main_arg3) (ar m c main_arg4) (ar m c main_arg5) (ar m c main_arg6)
    (ar m c main_arg7) (ar m c main_arg8) (ar m c main_arg9) (ar m c main_arg10) (ar m c main_arg11) (ar m c main_arg12) (ar m c main_arg13) (ar m c main_arg14) := by
  rw [o8_eq m c wf, o6_eq m c wf, o4_eq m c wf, o2_eq m c]
  rfl

/-- The graph-id column and the per-graph node counts. -/
abbrev ids : IVec ⟨2, ![100000, 1]⟩ 32 := Stretch4.idsCol (ar m c main_arg2)
abbrev cnt : Vc 64 := Stretch4.cntVec (ar m c main_arg2)

/-- Region 4 leaves the read-out of the third layer's features. -/
theorem o10_eq : o10 m c = kerOut (ids m c) (cnt m c) (o8 m c) (ar m c main_arg15) (ar m c main_arg16) (ar m c main_arg17) (ar m c main_arg18) := by
  unfold o10
  rw [PoolVal.final (tcv (W9 m)) c]
  show head (pool (W9 m c main_v50) (W9 m c main_v43)) (W9 m c main_v59) (W9 m c main_arg15) (W9 m c main_v60) (W9 m c main_arg17) (W9 m c main_v61) = _
  rw [Stretch4.member_in m c, Stretch4.feat_in m c, Stretch4.cinv_in m c, Stretch4.fw_in m c, Stretch4.fb_in m c, Stretch4.pw_in m c, Stretch4.pb_in m c]
  rfl

end Cert.KernelIdeal.KernelVal

end
-- ==== Proof.RefWf.lean ====
/-
  The well-formedness facts of the reference program's row gathers and row scatters, collected for the network functions.
-/
import proofs.«404197_j31937376813167_3_alg».proof.ReferenceIdeal
import proofs.«404197_j31937376813167_3_alg».proof.Proof.Net

noncomputable section

namespace Cert.ReferenceIdeal.RefWf

open Cert.ReferenceIdeal

variable [Cert.ReferenceIdeal.Facts]

/-- The facts the printed reference states of its gather and scatter dimension numbers. -/
theorem wfs : Cert.Net.WFs where
  g128 := Facts₀.gather_S100000x128_S1600000x1_S1600000x128_1_0_n_n_0_1_1128_wf
  d128 := Facts₀.scatter_S100000x128_S1600000x1_S1600000x128_1_0_0_1_wf
  g64 := Facts₀.gather_S100000x64_S1600000x1_S1600000x64_1_0_n_n_0_1_164_wf
  d64 := Facts₀.scatter_S100000x64_S1600000x1_S1600000x64_1_0_0_1_wf
  dP := Facts₀.scatter_S64x64_S100000x1_S100000x64_1_0_0_1_wf

end Cert.ReferenceIdeal.RefWf

end
-- ==== Proof.RefFeat.lean ====
/-
  The reference program's node features after its three layers, stage by stage, as the network function: each layer
  aggregates over incoming edges, adds the node's own row, and applies two affine maps with a positive part between.
-/
import proofs.«404197_j31937376813167_3_alg».proof.Proof.Gen.ReferenceIdeal.Read
import proofs.«404197_j31937376813167_3_alg».proof.Proof.Net
import proofs.«404197_j31937376813167_3_alg».proof.Proof.RefWf

noncomputable section

namespace Cert.ReferenceIdeal.RefFeat

open Cert.ReferenceIdeal Cert.ReferenceIdeal.Read Cert.Spec Cert.Net Idealize.ShloMosaic Idealize.ShloMosaic.ValueIdx

variable [Cert.ReferenceIdeal.Facts]

/-! ## The stage patterns, over arbitrary arrays -/

/-- The 64-wide array of zeros (the aggregation's initial value, the positive part's comparand) is the zero function. -/
theorem zeros64 : val_main_v32 (F := Ideal) = fun _ => (0 : EReal) := by
  funext i
  rw [val_main_v32_apply, val_main_cst_3_apply]
  exact Ideal.ofBits_zero_f32

/-- The 128-wide array of zeros is the zero function. -/
theorem zeros128 : val_main_v11 (F := Ideal) = fun _ => (0 : EReal) := by
  funext i
  rw [val_main_v11_apply, val_main_cst_apply]
  exact Ideal.ofBits_zero_f32

/-- The entrywise maximum with the zeros is the positive part. -/
theorem relu_eq (y : Mat 100000 64) :
    maximumf (F := Ideal) (φ := .f32) y (val_main_v32 (F := Ideal)) = relu y := by
  rw [zeros64]; rfl

/-- A vector laid out as a row, repeated down the rows and added entrywise, is the row added to every row. -/
theorem bias_eq (y : Mat 100000 64) (b : Vc 64) :
    addf (F := Ideal) (φ := .f32) y (val_main_v17 (F := Ideal) b) = addRow y (row b) := by
  funext i
  show y i + val_main_v17 (F := Ideal) b i = y i + b (ix1 (i 1))
  rw [val_main_v17_apply, val_main_v16_apply]
  have e : idx_main_v16 (idx_main_v17 i) = ix1 (i 1) := funext fun a => by
    match a with
    | ⟨0, _⟩ => rfl
  exact congrArg (fun t => y i + b t) e

/-- A sum of products read along a row of the left factor and down a column of the right one is the matrix product. -/
theorem mm_of_apply {n k j : ℕ} (f : Mat n j) (a : Mat n k) (w : Mat k j)
    (lidx : (⟨2, ![n, j]⟩ : Shape).Idx → Fin k → (⟨2, ![n, k]⟩ : Shape).Idx)
    (ridx : (⟨2, ![n, j]⟩ : Shape).Idx → Fin k → (⟨2, ![k, j]⟩ : Shape).Idx)
    (h : ∀ i, f i = ∑ q : Fin k, a (lidx i q) * w (ridx i q))
    (hl : ∀ i q, lidx i q = ix2 (i 0) q) (hr : ∀ i q, ridx i q = ix2 q (i 1)) : f = mm a w := by
  funext i
  rw [h]
  unfold mm
  refine Finset.sum_congr rfl fun q _ => ?_
  exact congrArg₂ (fun s t => a s * w t) (hl i q) (hr i q)

/-- Adding to a 64-wide array the scatter-add, into zeros, of its gathered rows is adding its aggregate over edges. -/
theorem agg64 (src dst : IVec ⟨2, ![1600000, 1]⟩ 32) (h : Mat 100000 64) :
    addf (F := Ideal) (φ := .f32) h
        (Host.scatterAdd (F := Ideal) (φ := .f32) scatter_S100000x64_S1600000x1_S1600000x64_1_0_0_1
          (val_main_v32 (F := Ideal)) dst
          (Host.gather gather_S100000x64_S1600000x1_S1600000x64_1_0_n_n_0_1_164 h src))
      = add h (seg64 RefWf.wfs src dst h) := by
  rw [zeros64]; rfl

/-- The same for a 128-wide array. -/
theorem agg128 (src dst : IVec ⟨2, ![1600000, 1]⟩ 32) (x : Mat 100000 128) :
    addf (F := Ideal) (φ := .f32) x
        (Host.scatterAdd (F := Ideal) (φ := .f32) scatter_S100000x128_S1600000x1_S1600000x128_1_0_0_1
          (val_main_v11 (F := Ideal)) dst
          (Host.gather gather_S100000x128_S1600000x1_S1600000x128_1_0_n_n_0_1_1128 x src))
      = add x (seg128 RefWf.wfs src dst x) := by
  rw [zeros128]; rfl

/-! ## The stages of the three layers -/

variable (x0 : (⟨S100000x128, .f32⟩ : BufTy).Contents (Elt Ideal)) (x1 : (⟨S2x1600000, .i32⟩ : BufTy).Contents (Elt Ideal))
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x64, .f32⟩ : BufTy).Contents (Elt Ideal)) (x8 : (⟨S64, .f32⟩ : BufTy).Contents (Elt Ideal))
  (x9 : (⟨S64x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))
  (x13 : (⟨S64x64, .f32⟩ : BufTy).Contents (Elt Ideal)) (x14 : (⟨S64, .f32⟩ : BufTy).Contents (Elt Ideal))

/-- Layer 1, the features plus their aggregate. -/
theorem v14_eq : val_main_v14 (F := Ideal) x0 x1
    = add x0 (seg128 RefWf.wfs (val_main_v9 (F := Ideal) x1) (val_main_v12 (F := Ideal) x1) x0) :=
  agg128 (val_main_v9 (F := Ideal) x1) (val_main_v12 (F := Ideal) x1) x0

/-- Layer 1, the first product. -/
theorem v15_eq : val_main_v15 (F := Ideal) x0 x1 x3 = mm (val_main_v14 (F := Ideal) x0 x1) x3 :=
  mm_of_apply _ _ _ lidx_main_v15 ridx_main_v15 (val_main_v15_apply x0 x1 x3)
    (fun i q => funext fun a => by
      match a with
      | ⟨0, _⟩ => rfl
      | ⟨1, _⟩ => rfl)
    (fun i q => funext fun a => by
      match a with
      | ⟨0, _⟩ => rfl
      | ⟨1, _⟩ => rfl)

/-- Layer 1, the second product. -/
theorem v20_eq : val_main_v20 (F := Ideal) x0 x1 x3 x4 x5 = mm (val_main_v19 (F := Ideal) x0 x1 x3 x4) x5 :=
  mm_of_apply _ _ _ lidx_main_v20 ridx_main_v20 (val_main_v20_apply x0 x1 x3 x4 x5)
    (fun i q => funext fun a => by
      match a with
      | ⟨0, _⟩ => rfl
      | ⟨1, _⟩ => rfl)
    (fun i q => funext fun a => by
      match a with
      | ⟨0, _⟩ => rfl
      | ⟨1, _⟩ => rfl)

/-- Layer 1 whole: the positive part of the two affine maps of the features plus their aggregate. -/
theorem v24_eq : val_main_v24 (F := Ideal) x0 x1 x3 x4 x5 x6
    = relu (mlpFull x0 (seg128 RefWf.wfs (val_main_v9 (F := Ideal) x1) (val_main_v12 (F := Ideal) x1) x0)
        x3 (row x4) x5 (row x6)) := by
  have h18 : val_main_v18 (F := Ideal) x0 x1 x3 x4 = addRow (val_main_v15 (F := Ideal) x0 x1 x3) (row x4) :=
    bias_eq _ x4
  have h19 : val_main_v19 (F := Ideal) x0 x1 x3 x4 = relu (val_main_v18 (F := Ideal) x0 x1 x3 x4) := relu_eq _
  have h23 : val_main_v23 (F := Ideal) x0 x1 x3 x4 x5 x6 = addRow (val_main_v20 (F := Ideal) x0 x1 x3 x4 x5) (row x6) :=
    bias_eq _ x6
  have h24 : val_main_v24 (F := Ideal) x0 x1 x3 x4 x5 x6 = relu (val_main_v23 (F := Ideal) x0 x1 x3 x4 x5 x6) :=
    relu_eq _
  rw [h24, h23, v20_eq, h19, h18, v15_eq, v14_eq]
  rfl

/-- Layer 2, the first product. -/
theorem v36_eq : val_main_v36 (F := Ideal) x0 x1 x3 x4 x5 x6 x7 = mm (val_main_v35 (F := Ideal) x0 x1 x3 x4 x5 x6) x7 :=
  mm_of_apply _ _ _ lidx_main_v36 ridx_main_v36 (val_main_v36_apply x0 x1 x3 x4 x5 x6 x7)
    (fun i q => funext fun a => by
      match a with
      | ⟨0, _⟩ => rfl
      | ⟨1, _⟩ => rfl)
    (fun i q => funext fun a => by
      match a with
      | ⟨0, _⟩ => rfl
      | ⟨1, _⟩ => rfl)

/-- Layer 2, the second product. -/
theorem v41_eq : val_main_v41 (F := Ideal) x0 x1 x3 x4 x5 x6 x7 x8 x9
    = mm (val_main_v40 (F := Ideal) x0 x1 x3 x4 x5 x6 x7 x8) x9 :=
  mm_of_apply _ _ _ lidx_main_v41 ridx_main_v41 (val_main_v41_apply x0 x1 x3 x4 x5 x6 x7 x8 x9)
    (fun i q => funext fun a => by
      match a with
      | ⟨0, _⟩ => rfl
      | ⟨1, _⟩ => rfl)
    (fun i q => funext fun a => by
      match a with
      | ⟨0, _⟩ => rfl
      | ⟨1, _⟩ => rfl)

/-- Layer 2 whole, over layer 1's output: the source and destination columns it recomputes are the first layer's. -/
theorem v45_eq : val_main_v45 (F := Ideal) x0 x1 x3 x4 x5 x6 x7 x8 x9 x10
    = relu (mlpFull (val_main_v24 (F := Ideal) x0 x1 x3 x4 x5 x6)
        (seg64 RefWf.wfs (val_main_v9 (F := Ideal) x1) (val_main_v12 (F := Ideal) x1)
          (val_main_v24 (F := Ideal) x0 x1 x3 x4 x5 x6))
        x7 (row x8) x9 (row x10)) := by
  have h35 : val_main_v35 (F := Ideal) x0 x1 x3 x4 x5 x6
      = add (val_main_v24 (F := Ideal) x0 x1 x3 x4 x5 x6)
          (seg64 RefWf.wfs (val_main_v9 (F := Ideal) x1) (val_main_v12 (F := Ideal) x1)
            (val_main_v24 (F := Ideal) x0 x1 x3 x4 x5 x6)) :=
    agg64 (val_main_v9 (F := Ideal) x1) (val_main_v12 (F := Ideal) x1) _
  have h39 : val_main_v39 (F := Ideal) x0 x1 x3 x4 x5 x6 x7 x8
      = addRow (val_main_v36 (F := Ideal) x0 x1 x3 x4 x5 x6 x7) (row x8) := bias_eq _ x8
  have h40 : val_main_v40 (F := Ideal) x0 x1 x3 x4 x5 x6 x7 x8
      = relu (val_main_v39 (F := Ideal) x0 x1 x3 x4 x5 x6 x7 x8) := relu_eq _
  have h44 : val_main_v44 (F := Ideal) x0 x1 x3 x4 x5 x6 x7 x8 x9 x10
      = addRow (val_main_v41 (F := Ideal) x0 x1 x3 x4 x5 x6 x7 x8 x9) (row x10) := bias_eq _ x10
  have h45 : val_main_v45 (F := Ideal) x0 x1 x3 x4 x5 x6 x7 x8 x9 x10
      = relu (val_main_v44 (F := Ideal) x0 x1 x3 x4 x5 x6 x7 x8 x9 x10) := relu_eq _
  rw [h45, h44, v41_eq, h40, h39, v36_eq, h35]
  rfl

/-- Layer 3, the first product. -/
theorem v57_eq : val_main_v57 (F := Ideal) x0 x1 x3 x4 x5 x6 x7 x8 x9 x10 x11
    = mm (val_main_v56 (F := Ideal) x0 x1 x3 x4 x5 x6 x7 x8 x9 x10) x11 :=
  mm_of_apply _ _ _ lidx_main_v57 ridx_main_v57 (val_main_v57_apply x0 x1 x3 x4 x5 x6 x7 x8 x9 x10 x11)
    (fun i q => funext fun a => by
      match a with
      | ⟨0, _⟩ => rfl
      | ⟨1, _⟩ => rfl)
    (fun i q => funext fun a => by
      match a with
      | ⟨0, _⟩ => rfl
      | ⟨1, _⟩ => rfl)

/-- Layer 3, the second product. -/
theorem v62_eq : val_main_v62 (F := Ideal) x0 x1 x3 x4 x5 x6 x7 x8 x9 x10 x11 x12 x13
    = mm (val_main_v61 (F := Ideal) x0 x1 x3 x4 x5 x6 x7 x8 x9 x10 x11 x12) x13 :=
  mm_of_apply _ _ _ lidx_main_v62 ridx_main_v62 (val_main_v62_apply x0 x1 x3 x4 x5 x6 x7 x8 x9 x10 x11 x12 x13)
    (fun i q => funext fun a => by
      match a with
      | ⟨0, _⟩ => rfl
      | ⟨1, _⟩ => rfl)
    (fun i q => funext fun a => by
      match a with
      | ⟨0, _⟩ => rfl
      | ⟨1, _⟩ => rfl)

/-- Layer 3 whole, over layer 2's output (no outer positive part). -/
theorem v65_eq : val_main_v65 (F := Ideal) x0 x1 x3 x4 x5 x6 x7 x8 x9 x10 x11 x12 x13 x14
    = mlpFull (val_main_v45 (F := Ideal) x0 x1 x3 x4 x5 x6 x7 x8 x9 x10)
        (seg64 RefWf.wfs (val_main_v9 (F := Ideal) x1) (val_main_v12 (F := Ideal) x1)
          (val_main_v45 (F := Ideal) x0 x1 x3 x4 x5 x6 x7 x8 x9 x10))
        x11 (row x12) x13 (row x14) := by
  have h56 : val_main_v56 (F := Ideal) x0 x1 x3 x4 x5 x6 x7 x8 x9 x10
      = add (val_main_v45 (F := Ideal) x0 x1 x3 x4 x5 x6 x7 x8 x9 x10)
          (seg64 RefWf.wfs (val_main_v9 (F := Ideal) x1) (val_main_v12 (F := Ideal) x1)
            (val_main_v45 (F := Ideal) x0 x1 x3 x4 x5 x6 x7 x8 x9 x10)) :=
    agg64 (val_main_v9 (F := Ideal) x1) (val_main_v12 (F := Ideal) x1) _
  have h60 : val_main_v60 (F := Ideal) x0 x1 x3 x4 x5 x6 x7 x8 x9 x10 x11 x12
      = addRow (val_main_v57 (F := Ideal) x0 x1 x3 x4 x5 x6 x7 x8 x9 x10 x11) (row x12) := bias_eq _ x12
  have h61 : val_main_v61 (F := Ideal) x0 x1 x3 x4 x5 x6 x7 x8 x9 x10 x11 x12
      = relu (val_main_v60 (F := Ideal) x0 x1 x3 x4 x5 x6 x7 x8 x9 x10 x11 x12) := relu_eq _
  have h65 : val_main_v65 (F := Ideal) x0 x1 x3 x4 x5 x6 x7 x8 x9 x10 x11 x12 x13 x14
      = addRow (val_main_v62 (F := Ideal) x0 x1 x3 x4 x5 x6 x7 x8 x9 x10 x11 x12 x13) (row x14) := bias_eq _ x14
  rw [h65, v62_eq, h61, h60, v57_eq, h56]
  rfl

/-! ## The three layers together -/

/-- The third layer's output is the reference network's node features, read off the wrapped source column and the
    destination column of the edge index. -/
theorem feat_eq : val_main_v65 (F := Ideal) x0 x1 x3 x4 x5 x6 x7 x8 x9 x10 x11 x12 x13 x14
    = refFeat RefWf.wfs (val_main_v9 (F := Ideal) x1) (val_main_v12 (F := Ideal) x1)
        x0 x3 x4 x5 x6 x7 x8 x9 x10 x11 x12 x13 x14 := by
  rw [v65_eq, v45_eq, v24_eq]
  rfl

end Cert.ReferenceIdeal.RefFeat

end
-- ==== Proof.RefOut.lean ====
/-
  The reference program's read-out as the network function: per-graph sums by scatter-add into zeros divided by the
  counts clamped below at one, two affine maps with their biases laid out as rows, and the logistic in its quotient
  form one over one plus the exponential of the negated argument. Stage by stage, each array as a function of the one
  before it; the node features that enter the pooling stay one opaque array.
-/
import proofs.«404197_j31937376813167_3_alg».proof.Proof.Gen.ReferenceIdeal.Read
import proofs.«404197_j31937376813167_3_alg».proof.Proof.Net
import proofs.«404197_j31937376813167_3_alg».proof.Proof.RefWf
import Idealize.ShloMosaic.Lib.IdealHost

noncomputable section

namespace Cert.ReferenceIdeal.RefOut

open Cert.ReferenceIdeal Cert.ReferenceIdeal.Read Cert.Spec Cert.Net Idealize.ShloMosaic Idealize.ShloMosaic.ValueIdx

variable [Cert.ReferenceIdeal.Facts]

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x64, .f32⟩ : BufTy).Contents (Elt Ideal))
  (x12 : (⟨S64, .f32⟩ : BufTy).Contents (Elt Ideal)) (x13 : (⟨S64x64, .f32⟩ : BufTy).Contents (Elt Ideal))
  (x14 : (⟨S64, .f32⟩ : BufTy).Contents (Elt Ideal)) (x15 : (⟨S64x32, .f32⟩ : BufTy).Contents (Elt Ideal))
  (x16 : (⟨S32, .f32⟩ : BufTy).Contents (Elt Ideal)) (x17 : (⟨S32x1, .f32⟩ : BufTy).Contents (Elt Ideal))
  (x18 : (⟨S1, .f32⟩ : BufTy).Contents (Elt Ideal))

/-- The array the pooling scatter accumulates into is zero everywhere. -/
theorem v66_eq : val_main_v66 (F := Ideal) = fun _ => (0 : EReal) := by
  funext i
  rw [val_main_v66_apply, val_main_cst_7_apply, Ideal.ofBits_def, Ideal.ofBits_zero_f32]

/-- The divisor at a pooled entry is the graph's count clamped below at one. -/
theorem v76_apply (i : S64x64.Idx) :
    val_main_v76 (F := Ideal) x2 i = max (val_main_v72 (F := Ideal) x2 (ix1 (n := 64) (i 0))) 1 := by
  have e : idx_main_v75 (idx_main_v76 i) = ix1 (n := 64) (i 0) :=
    funext fun a => Fin.ext (by match a with | ⟨0, _⟩ => rfl)
  rw [val_main_v76_apply, val_main_v75_apply, e, val_main_v74_apply, val_main_v73_apply, val_main_cst_10_apply,
    Ideal.maximumf_def, Ideal.ofBits_def, Ideal.ofBits_one_f32]

/-- The pooled means: the per-graph sums by scatter-add into zeros, divided by the clamped counts. -/
theorem v77_eq :
    val_main_v77 (F := Ideal) x0 x1 x2 x3 x4 x5 x6 x7 x8 x9 x10 x11 x12 x13 x14
      = meanPool RefWf.wfs (val_main_v67 (F := Ideal) x2) (val_main_v72 (F := Ideal) x2)
          (val_main_v65 (F := Ideal) x0 x1 x3 x4 x5 x6 x7 x8 x9 x10 x11 x12 x13 x14) := by
  funext i
  rw [val_main_v77_apply, v76_apply, Ideal.hostDivf_def]
  unfold val_main_v68 meanPool
  rw [v66_eq]
  rfl

/-- The first affine map: the pooled means times the weights, plus the bias laid out as a row. -/
theorem v81_eq :
    val_main_v81 (F := Ideal) x0 x1 x2 x3 x4 x5 x6 x7 x8 x9 x10 x11 x12 x13 x14 x15 x16
      = addRow (mm (val_main_v77 (F := Ideal) x0 x1 x2 x3 x4 x5 x6 x7 x8 x9 x10 x11 x12 x13 x14) x15) (row x16) := by
  funext i
  have el : ∀ k : Fin 64, lidx_main_v78 i k = ix2 (i 0) k := fun k =>
    funext fun a => Fin.ext (by match a with | ⟨0, _⟩ => rfl | ⟨1, _⟩ => rfl)
  have er : ∀ k : Fin 64, ridx_main_v78 i k = ix2 k (i 1) := fun k =>
    funext fun a => Fin.ext (by match a with | ⟨0, _⟩ => rfl | ⟨1, _⟩ => rfl)
  have eb : idx_main_v79 (idx_main_v80 i) = ix1 (n := 32) (i 1) :=
    funext fun a => Fin.ext (by match a with | ⟨0, _⟩ => rfl)
  rw [val_main_v81_apply, val_main_v78_apply, val_main_v80_apply, val_main_v79_apply, eb]
  simp only [el, er, Ideal.addf_def]
  rfl

/-- The second affine map: the hidden row times the weights, plus the bias laid out as a row. -/
theorem v85_eq :
    val_main_v85 (F := Ideal) x0 x1 x2 x3 x4 x5 x6 x7 x8 x9 x10 x11 x12 x13 x14 x15 x16 x17 x18
      = addRow (mm (val_main_v81 (F := Ideal) x0 x1 x2 x3 x4 x5 x6 x7 x8 x9 x10 x11 x12 x13 x14 x15 x16) x17) (row x18) := by
  funext i
  have el : ∀ k : Fin 32, lidx_main_v82 i k = ix2 (i 0) k := fun k =>
    funext fun a => Fin.ext (by match a with | ⟨0, _⟩ => rfl | ⟨1, _⟩ => rfl)
  have er : ∀ k : Fin 32, ridx_main_v82 i k = ix2 k (i 1) := fun k =>
    funext fun a => Fin.ext (by match a with | ⟨0, _⟩ => rfl | ⟨1, _⟩ => rfl)
  have eb : idx_main_v83 (idx_main_v84 i) = ix1 (n := 1) (i 1) :=
    funext fun a => Fin.ext (by
      match a with
      | ⟨0, _⟩ => exact (Nat.lt_one_iff.mp (i 1).isLt).symm)
  rw [val_main_v85_apply, val_main_v82_apply, val_main_v84_apply, val_main_v83_apply, eb]
  simp only [el, er, Ideal.addf_def]
  rfl

/-- The logistic in quotient form: one over one plus the exponential of the negated argument. -/
theorem v91_eq :
    val_main_v91 (F := Ideal) x0 x1 x2 x3 x4 x5 x6 x7 x8 x9 x10 x11 x12 x13 x14 x15 x16 x17 x18
      = fun i => Ideal.div 1 (1 + Ideal.exp (-(val_main_v85 (F := Ideal) x0 x1 x2 x3 x4 x5 x6 x7 x8 x9 x10 x11 x12 x13 x14 x15 x16 x17 x18 i))) := by
  funext i
  rw [val_main_v91_apply, val_main_v90_apply, val_main_cst_12_apply, val_main_v89_apply, val_main_v88_apply,
    val_main_cst_11_apply, val_main_v87_apply, val_main_v86_apply]
  simp only [Ideal.hostDivf_def, Ideal.addf_def, Ideal.hostUnary_exp_def, Ideal.hostNegf_def, Ideal.negf_def,
    Ideal.ofBits_def, Ideal.ofBits_one_f32]

/-- The reference's result is the read-out of the node features, the graph-id column and the counts. -/
theorem out_eq :
    val_main_v91 (F := Ideal) x0 x1 x2 x3 x4 x5 x6 x7 x8 x9 x10 x11 x12 x13 x14 x15 x16 x17 x18
      = refOut RefWf.wfs (val_main_v67 (F := Ideal) x2) (val_main_v72 (F := Ideal) x2)
          (val_main_v65 (F := Ideal) x0 x1 x3 x4 x5 x6 x7 x8 x9 x10 x11 x12 x13 x14) x15 x16 x17 x18 := by
  rw [v91_eq, v85_eq, v81_eq, v77_eq]
  rfl

end Cert.ReferenceIdeal.RefOut

end
-- ==== Proof.Finite.lean ====
/-
  From the precondition "every float input is finite" to "every entry is a real number", for the node features and the
  first weight matrix: the precondition is a conjunction, over the float arrays, of "every |entry| compares below +∞".
-/
import proofs.«404197_j31937376813167_3_alg».proof.Defs
import proofs.«404197_j31937376813167_3_alg».proof.Proof.Gen.Pre_finite_inputs
import Idealize.ShloMosaic.Lib.ReduceAll
import Idealize.ShloMosaic.Lib.Pipeline.Value
import Idealize.ShloMosaic.PureOps.Ideal
import Idealize.ShloMosaic.PureOps.Ideal.Laws
import Idealize.ShloMosaic.Lib.ValueIdx

noncomputable section

namespace Cert.Finite

open Idealize.ShloMosaic Idealize.ShloMosaic.ValueIdx Idealize.SL.Sem Cert.Pre_finite_inputs

/-- The scalar shape has one index. -/
instance subsingletonScalarIdx : Subsingleton S_.Idx := ⟨fun a b => funext fun d => d.elim0⟩

/-- The single-precision word 0x7F800000 is +∞. -/
theorem inf_eq_top : Ideal.ofBits .f32 0x7F800000#32 = (⊤ : EReal) := by simp [Ideal.ofBits, Ideal.ieee]

/-- An extended real whose absolute value compares strictly below +∞ is a real number: -∞ and +∞ both have
    absolute value +∞. -/
theorem real_of_abs_lt_top (x : EReal) (h : Ideal.cmp .olt (max x (-x)) ⊤ = 1#1) : ∃ r : ℝ, x = (r : EReal) := by
  have hlt : max x (-x) < ⊤ := by
    by_contra hn
    unfold Ideal.cmp at h
    simp [hn] at h
  induction x using EReal.rec with
  | bot => simp at hlt
  | top => simp at hlt
  | coe r => exact ⟨r, rfl⟩

/-- An array all of whose |entries| compare below the +∞ splat — the conjunction over its indices being 1 — is
    real-valued. -/
theorem real_of_all {s : Shape} {axes : List (Fin s.rank)} (x : FVec Ideal s .f32)
    (bc : S_.BroadcastsInDim s (![] : Fin 0 → Fin s.rank)) (rt : s.ReducesTo axes S_) (hu : 0 < S_.numel)
    (h : Host.reduce IntOp.andi
        (cmpf .olt (Host.absf x) (broadcastInDim s ![] bc (constant (F := Ideal) S_ .f32 0x7F800000#32)))
        (constantI S_ 1 1#1) rt hu ix0 = 1#1) :
    ∀ i, ∃ r : ℝ, x i = (r : EReal) := by
  intro i
  have hi := Host.reduce_andi_all _ _ rt hu ix0 h i
  have hb : broadcastInDim s ![] bc (constant (F := Ideal) S_ .f32 0x7F800000#32) i = (⊤ : EReal) := by
    rw [broadcastInDim_apply _ bc _ i (fun a => a.elim0) (fun a => a.elim0)]
    exact inf_eq_top
  have hc : Ideal.cmp .olt (max (x i) (-(x i)))
      (broadcastInDim s ![] bc (constant (F := Ideal) S_ .f32 0x7F800000#32) i) = 1#1 := hi
  rw [hb] at hc
  exact real_of_abs_lt_top (x i) hc

/-! ## The conjunction, part by part: each part of the printed predicate passes the conjunction it is handed on -/

section Parts

variable [Cert.Pre_finite_inputs.Facts]

theorem part4_in {a16 : FVec Ideal S32 .f32} {a17 : FVec Ideal S32x1 .f32} {a18 : FVec Ideal S1 .f32} {v63 v67 : IVec S_ 1}
    (h : fn_part4 (F := Ideal) a16 a17 a18 v63 v67 ix0 = 1#1) : v63 ix0 = 1#1 := by
  unfold fn_part4 at h
  dsimp only at h
  exact (IntOp.andi_eq_one.mp (IntOp.andi_eq_one.mp (IntOp.andi_eq_one.mp (IntOp.andi_eq_one.mp h).1).1).1).1

theorem part3_in {a13 : FVec Ideal S64x64 .f32} {a14 : FVec Ideal S64 .f32} {a15 : FVec Ideal S64x32 .f32}
    {a16 : FVec Ideal S32 .f32} {a17 : FVec Ideal S32x1 .f32} {a18 : FVec Ideal S1 .f32} {v48 : IVec S_ 1}
    {v49 v50 : FVec Ideal S64 .f32}
    (h : fn_part3 (F := Ideal) a13 a14 a15 a16 a17 a18 v48 v49 v50 ix0 = 1#1) : v48 ix0 = 1#1 := by
  unfold fn_part3 at h
  dsimp only at h
  exact (IntOp.andi_eq_one.mp (IntOp.andi_eq_one.mp (IntOp.andi_eq_one.mp (part4_in h)).1).1).1

theorem part2_in {a9 : FVec Ideal S64x64 .f32} {a10 : FVec Ideal S64 .f32} {a11 : FVec Ideal S64x64 .f32}
    {a12 : FVec Ideal S64 .f32} {a13 : FVec Ideal S64x64 .f32} {a14 : FVec Ideal S64 .f32} {a15 : FVec Ideal S64x32 .f32}
    {a16 : FVec Ideal S32 .f32} {a17 : FVec Ideal S32x1 .f32} {a18 : FVec Ideal S1 .f32} {v33 : IVec S_ 1}
    (h : fn_part2 (F := Ideal) a9 a10 a11 a12 a13 a14 a15 a16 a17 a18 v33 ix0 = 1#1) : v33 ix0 = 1#1 := by
  unfold fn_part2 at h
  dsimp only at h
  exact (IntOp.andi_eq_one.mp (IntOp.andi_eq_one.mp (IntOp.andi_eq_one.mp (part3_in h)).1).1).1

theorem part1_in {a6 : FVec Ideal S64 .f32} {a7 : FVec Ideal S64x64 .f32} {a8 : FVec Ideal S64 .f32}
    {a9 : FVec Ideal S64x64 .f32} {a10 : FVec Ideal S64 .f32} {a11 : FVec Ideal S64x64 .f32}
    {a12 : FVec Ideal S64 .f32} {a13 : FVec Ideal S64x64 .f32} {a14 : FVec Ideal S64 .f32} {a15 : FVec Ideal S64x32 .f32}
    {a16 : FVec Ideal S32 .f32} {a17 : FVec Ideal S32x1 .f32} {a18 : FVec Ideal S1 .f32} {v13 : IVec S_ 1}
    {v16 : IVec S64x64 1}
    (h : fn_part1 (F := Ideal) a6 a7 a8 a9 a10 a11 a12 a13 a14 a15 a16 a17 a18 v13 v16 ix0 = 1#1) : v13 ix0 = 1#1 := by
  unfold fn_part1 at h
  dsimp only at h
  exact (IntOp.andi_eq_one.mp (IntOp.andi_eq_one.mp (IntOp.andi_eq_one.mp (IntOp.andi_eq_one.mp (part2_in h)).1).1).1).1

/-- The predicate being 1 makes its first two conjuncts 1: the node features and the first weight matrix are
    real-valued. -/
theorem fn_real {a0 : FVec Ideal S100000x128 .f32} {a1 : IVec S2x1600000 32} {a2 : IVec S100000 32}
    {a3 : FVec Ideal S128x64 .f32} {a4 : FVec Ideal S64 .f32} {a5 : FVec Ideal S64x64 .f32}
    {a6 : FVec Ideal S64 .f32} {a7 : FVec Ideal S64x64 .f32} {a8 : FVec Ideal S64 .f32}
    {a9 : FVec Ideal S64x64 .f32} {a10 : FVec Ideal S64 .f32} {a11 : FVec Ideal S64x64 .f32}
    {a12 : FVec Ideal S64 .f32} {a13 : FVec Ideal S64x64 .f32} {a14 : FVec Ideal S64 .f32} {a15 : FVec Ideal S64x32 .f32}
    {a16 : FVec Ideal S32 .f32} {a17 : FVec Ideal S32x1 .f32} {a18 : FVec Ideal S1 .f32}
    (h : fn (F := Ideal) a0 a1 a2 a3 a4 a5 a6 a7 a8 a9 a10 a11 a12 a13 a14 a15 a16 a17 a18 ix0 = 1#1) :
    (∀ i, ∃ r : ℝ, a0 i = (r : EReal)) ∧ (∀ i, ∃ r : ℝ, a3 i = (r : EReal)) := by
  unfold fn at h
  dsimp only at h
  have h8 := IntOp.andi_eq_one.mp (IntOp.andi_eq_one.mp (part1_in h)).1
  exact ⟨real_of_all _ _ _ _ h8.1, real_of_all _ _ _ _ h8.2⟩

end Parts

/-! ## The two arrays of the idealized kernel -/

/-- Under the precondition, every node feature is a real number. -/
theorem x_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i
      = (r : EReal) :=
  (fn_real (congrFun (h c) ix0)).1

/-- Under the precondition, every entry of the first weight matrix is a real number. -/
theorem w1_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i
      = (r : EReal) :=
  (fn_real (congrFun (h c) ix0)).2

end Cert.Finite

end
-- ==== Proof.Match.lean ====
/-
  The index and count columns of the two programs are the same functions of the same arrays: both cut the edge index
  into its source and destination rows, wrap the sources, and lay the rows out as columns; both lay the graph ids out
  as a column and count each graph's nodes by scattering ones into zeros. The operations agree one by one; the shape and
  dimension-number records each program states for itself have the same literal fields.
-/
import proofs.«404197_j31937376813167_3_alg».proof.Proof.KI.Stretch
import proofs.«404197_j31937376813167_3_alg».proof.Proof.KI.Stretch4
import proofs.«404197_j31937376813167_3_alg».proof.Proof.Gen.ReferenceIdeal.Read

set_option maxRecDepth 16384

noncomputable section

namespace Cert.Match

open Idealize.ShloMosaic

/-- The wrapped source-index column: both programs slice row 0 off the edge index, reshape it to a vector, add the
    number of nodes where it is negative, and lay the result out as a column. -/
theorem src_eq (ei : IVec ⟨2, ![2, 1600000]⟩ 32) :
    Cert.KernelIdeal.Stretch.srcCol ei = Cert.ReferenceIdeal.Read.val_main_v9 (F := Ideal) ei := rfl

/-- The destination-index column: row 1 of the edge index as a vector, laid out as a column. -/
theorem dst_eq (ei : IVec ⟨2, ![2, 1600000]⟩ 32) :
    Cert.KernelIdeal.Stretch.dstCol ei = Cert.ReferenceIdeal.Read.val_main_v12 (F := Ideal) ei := rfl

/-- The graph-id column: the id vector laid out as a column. -/
theorem ids_eq (b : IVec ⟨1, ![100000]⟩ 32) :
    Cert.KernelIdeal.Stretch4.idsCol b = Cert.ReferenceIdeal.Read.val_main_v67 (F := Ideal) b := rfl

/-- The per-graph node counts: ones scatter-added into 64 zeros at the graph ids, under the same dimension numbers. -/
theorem cnt_eq (b : IVec ⟨1, ![100000]⟩ 32) :
    Cert.KernelIdeal.Stretch4.cntVec b = Cert.ReferenceIdeal.Read.val_main_v72 (F := Ideal) b := rfl

end Cert.Match

end
-- ==== Proof.lean ====
/-
  The certificate: the three frames, the (empty) ledger, and the equality of the two idealized programs' results.
  Kernel side: the launch over the chain of buffer contents gives the frame at both instances and, at the exact
  instance, the result buffer as the network function of the arguments (projection, three layers, read-out).
  Reference side: its run, read stage by stage, is the reference network function. The two network functions agree:
  aggregation over edges commutes with the first layer's projection because the features and the weights are real
  (the precondition), pooling through the membership matrix is pooling by scatter-add, multiplying by the reciprocal
  of a clamped count is dividing by it, and the logistic is its quotient form.
-/
import proofs.«404197_j31937376813167_3_alg».proof.Defs
import proofs.«404197_j31937376813167_3_alg».proof.Proof.Gen.Kernel
import proofs.«404197_j31937376813167_3_alg».proof.Proof.Gen.KernelIdeal
import proofs.«404197_j31937376813167_3_alg».proof.Proof.Gen.ReferenceIdeal
import proofs.«404197_j31937376813167_3_alg».proof.Proof.Gen.Pre_finite_inputs
import proofs.«404197_j31937376813167_3_alg».proof.Proof.Gen.ReferenceIdeal.Run
import proofs.«404197_j31937376813167_3_alg».proof.Proof.Gen.ReferenceIdeal.Read
import proofs.«404197_j31937376813167_3_alg».proof.Proof.K.Run
import proofs.«404197_j31937376813167_3_alg».proof.Proof.KI.Run
import proofs.«404197_j31937376813167_3_alg».proof.Proof.KI.Result
import proofs.«404197_j31937376813167_3_alg».proof.Proof.KI.KernelVal
import proofs.«404197_j31937376813167_3_alg».proof.Proof.RefFeat
import proofs.«404197_j31937376813167_3_alg».proof.Proof.RefOut
import proofs.«404197_j31937376813167_3_alg».proof.Proof.Finite
import proofs.«404197_j31937376813167_3_alg».proof.Proof.Match
import proofs.«404197_j31937376813167_3_alg».proof.Proof.Net
import Idealize.ShloMosaic.Adequacy
import Idealize.ShloMosaic.Init

noncomputable section

namespace Cert.Proof

open Idealize.ShloMosaic Idealize.SL.Sem

theorem frame_K : Cert.frame_Kernel := fun m ρ _ => Cert.Kernel.Run.frame m ρ

theorem frame_KI : Cert.frame_KernelIdeal := fun m ρ _ => Cert.KernelIdeal.Run.frame m ρ

theorem frame_R : Cert.frame_ReferenceIdeal := fun m ρ _ =>
  (θ_run Cert.ReferenceIdeal.defs _ _).mono (fun _ h c => (h c).2) (Cert.ReferenceIdeal.Value.run (F := Ideal) m ρ)

/-- An argument array of the reference program on core `c` in a memory. -/
abbrev rarg (m' : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc) :
    Buf (Elt Ideal) ((c.tc : Thread Cert.ReferenceIdeal.nD Cert.ReferenceIdeal.τ).loc b) :=
  m' ((c.tc : Thread Cert.ReferenceIdeal.nD Cert.ReferenceIdeal.τ).loc b)

open Cert.ReferenceIdeal Cert.ReferenceIdeal.Read in
/-- The reference network function of a memory's argument arrays. -/
def refNet (m' : (ℓ : Loc Cert.ReferenceIdeal.nD Cert.ReferenceIdeal.τ Cert.ReferenceIdeal.sig) → Buf (Elt Ideal) ℓ)
    (c : Dev Cert.ReferenceIdeal.nD) : Cert.Spec.Mat 64 1 :=
  Cert.Net.refOut RefWf.wfs (val_main_v67 (F := Ideal) (rarg m' c main_arg2)) (val_main_v72 (F := Ideal) (rarg m' c main_arg2))
    (Cert.Net.refFeat RefWf.wfs (val_main_v9 (F := Ideal) (rarg m' c main_arg1)) (val_main_v12 (F := Ideal) (rarg m' c main_arg1))
      (rarg m' c main_arg0) (rarg m' c main_arg3) (rarg m' c main_arg4) (rarg m' c main_arg5) (rarg m' c main_arg6)
      (rarg m' c main_arg7) (rarg m' c main_arg8) (rarg m' c main_arg9) (rarg m' c main_arg10) (rarg m' c main_arg11)
      (rarg m' c main_arg12) (rarg m' c main_arg13) (rarg m' c main_arg14))
    (rarg m' c main_arg15) (rarg m' c main_arg16) (rarg m' c main_arg17) (rarg m' c main_arg18)

open Cert.ReferenceIdeal.Read in
/-- Both results are the reference network function of the (agreeing) argument arrays. -/
theorem algebraic : Cert.algebraic_KernelIdeal_ReferenceIdeal := by
  intro m ρ m' ρ' hpre hagree
  refine ⟨fun c => refNet m' c, ?_, ?_⟩
  · -- the idealized kernel: its result buffer is the kernel network function, which is the reference's
    refine (θ_run (Cert.KernelIdeal.defs (F := Ideal)) _ _).mono (fun r h c => ⟨(h c).1.trans ?_, (h c).2⟩)
      (Cert.KernelIdeal.Result.run_result (F := Ideal) m ρ)
    obtain ⟨e0, e1, e2, e3, e4, e5, e6, e7, e8, e9, e10, e11, e12, e13, e14, e15, e16, e17, e18⟩ := hagree c
    have hk := Cert.KernelIdeal.KernelVal.o10_eq m c
    rw [Cert.KernelIdeal.KernelVal.feat_eq m c Cert.ReferenceIdeal.RefWf.wfs,
      Cert.Net.feat_eq Cert.ReferenceIdeal.RefWf.wfs _ _ _ _ (Cert.Finite.x_real m hpre c) (Cert.Finite.w1_real m hpre c),
      Cert.Net.out_eq Cert.ReferenceIdeal.RefWf.wfs _ _ (Cert.KernelIdeal.Stretch4.cnt_nat m c)] at hk
    rw [hk]
    show _ = refNet m' c
    unfold refNet rarg
    rw [e0, e1, e2, e3, e4, e5, e6, e7, e8, e9, e10, e11, e12, e13, e14, e15, e16, e17, e18,
      ← Cert.Match.src_eq, ← Cert.Match.dst_eq, ← Cert.Match.ids_eq, ← Cert.Match.cnt_eq]
  · -- the reference: its run's result term, stage by stage, is the reference network function
    refine (θ_run (Cert.ReferenceIdeal.defs (F := Ideal)) _ _).mono (fun r h c => ⟨(h c).1.trans ?_, (h c).2⟩)
      (Cert.ReferenceIdeal.Value.run (F := Ideal) m' ρ')
    rw [val_main_v91_eq, Cert.ReferenceIdeal.RefOut.out_eq, Cert.ReferenceIdeal.RefFeat.feat_eq]
    rfl

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
